-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x65536x32 : Shape := ⟨3, ![8, 65536, 32]⟩
abbrev S28x64x32 : Shape := ⟨3, ![28, 64, 32]⟩
abbrev S28x32x32 : Shape := ⟨3, ![28, 32, 32]⟩
abbrev S28 : Shape := ⟨1, ![28]⟩
abbrev S_ : Shape := ⟨0, ![]⟩

class Facts : Prop where
  bcast_S_S8x65536x32 : S_.BroadcastsInDim S8x65536x32 (![] : Fin 0 → Fin S8x65536x32.rank)
  reducesTo_S8x65536x32_S_d0_1_2 : S8x65536x32.ReducesTo [0, 1, 2] S_
  h_S_ : 0 < S_.numel
  bcast_S_S28x64x32 : S_.BroadcastsInDim S28x64x32 (![] : Fin 0 → Fin S28x64x32.rank)
  reducesTo_S28x64x32_S_d0_1_2 : S28x64x32.ReducesTo [0, 1, 2] S_
  bcast_S_S28x32x32 : S_.BroadcastsInDim S28x32x32 (![] : Fin 0 → Fin S28x32x32.rank)
  reducesTo_S28x32x32_S_d0_1_2 : S28x32x32.ReducesTo [0, 1, 2] S_
  bcast_S_S28 : S_.BroadcastsInDim S28 (![] : Fin 0 → Fin S28.rank)
  reducesTo_S28_S_d0 : S28.ReducesTo [0] S_

variable [Facts]

def fn_part3 {F : FTy → Type} [FloatOps F] (main_v46 : IVec S_ 1) (main_v48 : IVec S28 1) : IVec S_ 1 :=
  let main_c_21 : IVec S_ 1 := constantI S_ 1 1#1
  let main_v49 : IVec S_ 1 := (fun x v => Host.reduce IntOp.andi x v reducesTo_S28_S_d0 h_S_) main_v48 main_c_21
  let main_v50 : IVec S_ 1 := andi main_v46 main_v49
  main_v50

def fn_part2 {F : FTy → Type} [FloatOps F] (main_arg6 : IVec S28 32) (main_arg7 : IVec S28 32) (main_v30 : IVec S_ 1) (main_v32 : IVec S28 1) : IVec S_ 1 :=
  let main_c_13 : IVec S_ 1 := constantI S_ 1 1#1
  let main_v33 : IVec S_ 1 := (fun x v => Host.reduce IntOp.andi x v reducesTo_S28_S_d0 h_S_) main_v32 main_c_13
  let main_v34 : IVec S_ 1 := andi main_v30 main_v33
  let main_c_14 : IVec S_ 32 := constantI S_ 32 0#32
  let main_v35 : IVec S28 32 := broadcastInDim S28 ![] bcast_S_S28 main_c_14
  let main_v36 : IVec S28 1 := cmpi .sge main_arg6 main_v35
  let main_c_15 : IVec S_ 1 := constantI S_ 1 1#1
  let main_v37 : IVec S_ 1 := (fun x v => Host.reduce IntOp.andi x v reducesTo_S28_S_d0 h_S_) main_v36 main_c_15
  let main_v38 : IVec S_ 1 := andi main_v34 main_v37
  let main_c_16 : IVec S_ 32 := constantI S_ 32 8#32
  let main_v39 : IVec S28 32 := broadcastInDim S28 ![] bcast_S_S28 main_c_16
  let main_v40 : IVec S28 1 := cmpi .slt main_arg6 main_v39
  let main_c_17 : IVec S_ 1 := constantI S_ 1 1#1
  let main_v41 : IVec S_ 1 := (fun x v => Host.reduce IntOp.andi x v reducesTo_S28_S_d0 h_S_) main_v40 main_c_17
  let main_v42 : IVec S_ 1 := andi main_v38 main_v41
  let main_c_18 : IVec S_ 32 := constantI S_ 32 0#32
  let main_v43 : IVec S28 32 := broadcastInDim S28 ![] bcast_S_S28 main_c_18
  let main_v44 : IVec S28 1 := cmpi .sge main_arg7 main_v43
  let main_c_19 : IVec S_ 1 := constantI S_ 1 1#1
  let main_v45 : IVec S_ 1 := (fun x v => Host.reduce IntOp.andi x v reducesTo_S28_S_d0 h_S_) main_v44 main_c_19
  let main_v46 : IVec S_ 1 := andi main_v42 main_v45
  let main_c_20 : IVec S_ 32 := constantI S_ 32 8#32
  let main_v47 : IVec S28 32 := broadcastInDim S28 ![] bcast_S_S28 main_c_20
  let main_v48 : IVec S28 1 := cmpi .slt main_arg7 main_v47
  fn_part3 (F := F) main_v46 main_v48

def fn_part1 {F : FTy → Type} [FloatOps F] (main_arg4 : IVec S28 32) (main_arg5 : IVec S28 32) (main_arg6 : IVec S28 32) (main_arg7 : IVec S28 32) (main_v13 : IVec S_ 1) (main_v16 : IVec S28x32x32 1) : IVec S_ 1 :=
  let main_c_5 : IVec S_ 1 := constantI S_ 1 1#1
  let main_v17 : IVec S_ 1 := (fun x v => Host.reduce IntOp.andi x v reducesTo_S28x32x32_S_d0_1_2 h_S_) main_v16 main_c_5
  let main_v18 : IVec S_ 1 := andi main_v13 main_v17
  let main_c_6 : IVec S_ 32 := constantI S_ 32 0#32
  let main_v19 : IVec S28 32 := broadcastInDim S28 ![] bcast_S_S28 main_c_6
  let main_v20 : IVec S28 1 := cmpi .sge main_arg4 main_v19
  let main_c_7 : IVec S_ 1 := constantI S_ 1 1#1
  let main_v21 : IVec S_ 1 := (fun x v => Host.reduce IntOp.andi x v reducesTo_S28_S_d0 h_S_) main_v20 main_c_7
  let main_v22 : IVec S_ 1 := andi main_v18 main_v21
  let main_c_8 : IVec S_ 32 := constantI S_ 32 8#32
  let main_v23 : IVec S28 32 := broadcastInDim S28 ![] bcast_S_S28 main_c_8
  let main_v24 : IVec S28 1 := cmpi .slt main_arg4 main_v23
  let main_c_9 : IVec S_ 1 := constantI S_ 1 1#1
  let main_v25 : IVec S_ 1 := (fun x v => Host.reduce IntOp.andi x v reducesTo_S28_S_d0 h_S_) main_v24 main_c_9
  let main_v26 : IVec S_ 1 := andi main_v22 main_v25
  let main_c_10 : IVec S_ 32 := constantI S_ 32 0#32
  let main_v27 : IVec S28 32 := broadcastInDim S28 ![] bcast_S_S28 main_c_10
  let main_v28 : IVec S28 1 := cmpi .sge main_arg5 main_v27
  let main_c_11 : IVec S_ 1 := constantI S_ 1 1#1
  let main_v29 : IVec S_ 1 := (fun x v => Host.reduce IntOp.andi x v reducesTo_S28_S_d0 h_S_) main_v28 main_c_11
  let main_v30 : IVec S_ 1 := andi main_v26 main_v29
  let main_c_12 : IVec S_ 32 := constantI S_ 32 8#32
  let main_v31 : IVec S28 32 := broadcastInDim S28 ![] bcast_S_S28 main_c_12
  let main_v32 : IVec S28 1 := cmpi .slt main_arg5 main_v31
  fn_part2 (F := F) main_arg6 main_arg7 main_v30 main_v32

def fn {F : FTy → Type} [FloatOps F] (main_arg0 : FVec F S8x65536x32 .f32) (main_arg1 : FVec F S8x65536x32 .f32) (main_arg2 : FVec F S28x64x32 .f32) (main_arg3 : FVec F S28x32x32 .f32) (main_arg4 : IVec S28 32) (main_arg5 : IVec S28 32) (main_arg6 : IVec S28 32) (main_arg7 : IVec S28 32) : IVec S_ 1 :=
  let main_v0 : FVec F S8x65536x32 .f32 := Host.absf main_arg0
  let main_cst : FVec F S_ .f32 := constant S_ .f32 0x7F800000#32
  let main_v1 : FVec F S8x65536x32 .f32 := broadcastInDim S8x65536x32 ![] bcast_S_S8x65536x32 main_cst
  let main_v2 : IVec S8x65536x32 1 := cmpf .olt main_v0 main_v1
  let main_c : IVec S_ 1 := constantI S_ 1 1#1
  let main_v3 : IVec S_ 1 := (fun x v => Host.reduce IntOp.andi x v reducesTo_S8x65536x32_S_d0_1_2 h_S_) main_v2 main_c
  let main_v4 : FVec F S8x65536x32 .f32 := Host.absf main_arg1
  let main_cst_0 : FVec F S_ .f32 := constant S_ .f32 0x7F800000#32
  let main_v5 : FVec F S8x65536x32 .f32 := broadcastInDim S8x65536x32 ![] bcast_S_S8x65536x32 main_cst_0
  let main_v6 : IVec S8x65536x32 1 := cmpf .olt main_v4 main_v5
  let main_c_1 : IVec S_ 1 := constantI S_ 1 1#1
  let main_v7 : IVec S_ 1 := (fun x v => Host.reduce IntOp.andi x v reducesTo_S8x65536x32_S_d0_1_2 h_S_) main_v6 main_c_1
  let main_v8 : IVec S_ 1 := andi main_v3 main_v7
  let main_v9 : FVec F S28x64x32 .f32 := Host.absf main_arg2
  let main_cst_2 : FVec F S_ .f32 := constant S_ .f32 0x7F800000#32
  let main_v10 : FVec F S28x64x32 .f32 := broadcastInDim S28x64x32 ![] bcast_S_S28x64x32 main_cst_2
  let main_v11 : IVec S28x64x32 1 := cmpf .olt main_v9 main_v10
  let main_c_3 : IVec S_ 1 := constantI S_ 1 1#1
  let main_v12 : IVec S_ 1 := (fun x v => Host.reduce IntOp.andi x v reducesTo_S28x64x32_S_d0_1_2 h_S_) main_v11 main_c_3
  let main_v13 : IVec S_ 1 := andi main_v8 main_v12
  let main_v14 : FVec F S28x32x32 .f32 := Host.absf main_arg3
  let main_cst_4 : FVec F S_ .f32 := constant S_ .f32 0x7F800000#32
  let main_v15 : FVec F S28x32x32 .f32 := broadcastInDim S28x32x32 ![] bcast_S_S28x32x32 main_cst_4
  let main_v16 : IVec S28x32x32 1 := cmpf .olt main_v14 main_v15
  fn_part1 (F := F) main_arg4 main_arg5 main_arg6 main_arg7 main_v13 main_v16
-- ==== Kernel.lean ====
abbrev S8x65536x32 : Shape := ⟨3, ![8, 65536, 32]⟩
abbrev S28x64x32 : Shape := ⟨3, ![28, 64, 32]⟩
abbrev S28x32x32 : Shape := ⟨3, ![28, 32, 32]⟩
abbrev S28 : Shape := ⟨1, ![28]⟩
abbrev S32 : Shape := ⟨1, ![32]⟩
abbrev S64 : Shape := ⟨1, ![64]⟩
abbrev S28x1 : Shape := ⟨2, ![28, 1]⟩
abbrev S_ : Shape := ⟨0, ![]⟩
abbrev S1x32 : Shape := ⟨2, ![1, 32]⟩
abbrev S28x32 : Shape := ⟨2, ![28, 32]⟩
abbrev S1x64 : Shape := ⟨2, ![1, 64]⟩
abbrev S28x64 : Shape := ⟨2, ![28, 64]⟩
abbrev S28x32x64 : Shape := ⟨3, ![28, 32, 64]⟩
abbrev S256x512 : Shape := ⟨2, ![256, 512]⟩
abbrev S28x32x1 : Shape := ⟨3, ![28, 32, 1]⟩
abbrev S28x1x64 : Shape := ⟨3, ![28, 1, 64]⟩
abbrev S28x32x64x1 : Shape := ⟨4, ![28, 32, 64, 1]⟩
abbrev S28x32x64x2 : Shape := ⟨4, ![28, 32, 64, 2]⟩
abbrev S256x256 : Shape := ⟨2, ![256, 256]⟩
abbrev S28x1x32 : Shape := ⟨3, ![28, 1, 32]⟩
abbrev S28x32x32x1 : Shape := ⟨4, ![28, 32, 32, 1]⟩
abbrev S28x32x32x2 : Shape := ⟨4, ![28, 32, 32, 2]⟩
abbrev S8x65536x96 : Shape := ⟨3, ![8, 65536, 96]⟩
abbrev S8x1024x32 : Shape := ⟨3, ![8, 1024, 32]⟩
abbrev S8x1024x96 : Shape := ⟨3, ![8, 1024, 96]⟩
abbrev S1x1024x32 : Shape := ⟨3, ![1, 1024, 32]⟩
abbrev S1024x32 : Shape := ⟨2, ![1024, 32]⟩
abbrev S1024x256 : Shape := ⟨2, ![1024, 256]⟩
abbrev S1024x512 : Shape := ⟨2, ![1024, 512]⟩
abbrev S1024x64 : Shape := ⟨2, ![1024, 64]⟩
abbrev S1x1024x64 : Shape := ⟨3, ![1, 1024, 64]⟩

abbrev nBuf : Space → Nat
  | .hbm => 95
  | .vmem => 8
  | .smem => 0
  | _ => 0

abbrev bufTy : (tb : Table) → Fin (tcTables nBuf tb) → BufTy
  | .hbm, ⟨0, _⟩ => ⟨S8x65536x32, .f32⟩
  | .hbm, ⟨1, _⟩ => ⟨S8x65536x32, .f32⟩
  | .hbm, ⟨2, _⟩ => ⟨S28x64x32, .f32⟩
  | .hbm, ⟨3, _⟩ => ⟨S28x32x32, .f32⟩
  | .hbm, ⟨4, _⟩ => ⟨S28, .i32⟩
  | .hbm, ⟨5, _⟩ => ⟨S28, .i32⟩
  | .hbm, ⟨6, _⟩ => ⟨S28, .i32⟩
  | .hbm, ⟨7, _⟩ => ⟨S28, .i32⟩
  | .hbm, ⟨8, _⟩ => ⟨S32, .i32⟩
  | .hbm, ⟨9, _⟩ => ⟨S64, .i32⟩
  | .hbm, ⟨10, _⟩ => ⟨S28x1, .i32⟩
  | .hbm, ⟨11, _⟩ => ⟨S_, .i32⟩
  | .hbm, ⟨12, _⟩ => ⟨S28x1, .i32⟩
  | .hbm, ⟨13, _⟩ => ⟨S28x1, .i32⟩
  | .hbm, ⟨14, _⟩ => ⟨S1x32, .i32⟩
  | .hbm, ⟨15, _⟩ => ⟨S28x32, .i32⟩
  | .hbm, ⟨16, _⟩ => ⟨S28x32, .i32⟩
  | .hbm, ⟨17, _⟩ => ⟨S28x32, .i32⟩
  | .hbm, ⟨18, _⟩ => ⟨S28x1, .i32⟩
  | .hbm, ⟨19, _⟩ => ⟨S_, .i32⟩
  | .hbm, ⟨20, _⟩ => ⟨S28x1, .i32⟩
  | .hbm, ⟨21, _⟩ => ⟨S28x1, .i32⟩
  | .hbm, ⟨22, _⟩ => ⟨S1x64, .i32⟩
  | .hbm, ⟨23, _⟩ => ⟨S28x64, .i32⟩
  | .hbm, ⟨24, _⟩ => ⟨S28x64, .i32⟩
  | .hbm, ⟨25, _⟩ => ⟨S28x64, .i32⟩
  | .hbm, ⟨26, _⟩ => ⟨S28x32x64, .f32⟩
  | .hbm, ⟨27, _⟩ => ⟨S_, .f32⟩
  | .hbm, ⟨28, _⟩ => ⟨S256x512, .f32⟩
  | .hbm, ⟨29, _⟩ => ⟨S28x32x1, .i32⟩
  | .hbm, ⟨30, _⟩ => ⟨S28x1x64, .i32⟩
  | .hbm, ⟨31, _⟩ => ⟨S_, .i32⟩
  | .hbm, ⟨32, _⟩ => ⟨S28x32x1, .i32⟩
  | .hbm, ⟨33, _⟩ => ⟨S28x32x1, .i1⟩
  | .hbm, ⟨34, _⟩ => ⟨S_, .i32⟩
  | .hbm, ⟨35, _⟩ => ⟨S28x32x1, .i32⟩
  | .hbm, ⟨36, _⟩ => ⟨S28x32x1, .i32⟩
  | .hbm, ⟨37, _⟩ => ⟨S28x32x1, .i32⟩
  | .hbm, ⟨38, _⟩ => ⟨S_, .i32⟩
  | .hbm, ⟨39, _⟩ => ⟨S28x1x64, .i32⟩
  | .hbm, ⟨40, _⟩ => ⟨S28x1x64, .i1⟩
  | .hbm, ⟨41, _⟩ => ⟨S_, .i32⟩
  | .hbm, ⟨42, _⟩ => ⟨S28x1x64, .i32⟩
  | .hbm, ⟨43, _⟩ => ⟨S28x1x64, .i32⟩
  | .hbm, ⟨44, _⟩ => ⟨S28x1x64, .i32⟩
  | .hbm, ⟨45, _⟩ => ⟨S28x32x64, .i32⟩
  | .hbm, ⟨46, _⟩ => ⟨S28x32x64, .i32⟩
  | .hbm, ⟨47, _⟩ => ⟨S28x32x64x1, .i32⟩
  | .hbm, ⟨48, _⟩ => ⟨S28x32x64x1, .i32⟩
  | .hbm, ⟨49, _⟩ => ⟨S28x32x64x2, .i32⟩
  | .hbm, ⟨50, _⟩ => ⟨S256x512, .f32⟩
  | .hbm, ⟨51, _⟩ => ⟨S256x512, .bf16⟩
  | .hbm, ⟨52, _⟩ => ⟨S28x1, .i32⟩
  | .hbm, ⟨53, _⟩ => ⟨S_, .i32⟩
  | .hbm, ⟨54, _⟩ => ⟨S28x1, .i32⟩
  | .hbm, ⟨55, _⟩ => ⟨S28x1, .i32⟩
  | .hbm, ⟨56, _⟩ => ⟨S1x32, .i32⟩
  | .hbm, ⟨57, _⟩ => ⟨S28x32, .i32⟩
  | .hbm, ⟨58, _⟩ => ⟨S28x32, .i32⟩
  | .hbm, ⟨59, _⟩ => ⟨S28x32, .i32⟩
  | .hbm, ⟨60, _⟩ => ⟨S28x1, .i32⟩
  | .hbm, ⟨61, _⟩ => ⟨S_, .i32⟩
  | .hbm, ⟨62, _⟩ => ⟨S28x1, .i32⟩
  | .hbm, ⟨63, _⟩ => ⟨S28x1, .i32⟩
  | .hbm, ⟨64, _⟩ => ⟨S1x32, .i32⟩
  | .hbm, ⟨65, _⟩ => ⟨S28x32, .i32⟩
  | .hbm, ⟨66, _⟩ => ⟨S28x32, .i32⟩
  | .hbm, ⟨67, _⟩ => ⟨S28x32, .i32⟩
  | .hbm, ⟨68, _⟩ => ⟨S28x32x32, .f32⟩
  | .hbm, ⟨69, _⟩ => ⟨S_, .f32⟩
  | .hbm, ⟨70, _⟩ => ⟨S256x256, .f32⟩
  | .hbm, ⟨71, _⟩ => ⟨S28x32x1, .i32⟩
  | .hbm, ⟨72, _⟩ => ⟨S28x1x32, .i32⟩
  | .hbm, ⟨73, _⟩ => ⟨S_, .i32⟩
  | .hbm, ⟨74, _⟩ => ⟨S28x32x1, .i32⟩
  | .hbm, ⟨75, _⟩ => ⟨S28x32x1, .i1⟩
  | .hbm, ⟨76, _⟩ => ⟨S_, .i32⟩
  | .hbm, ⟨77, _⟩ => ⟨S28x32x1, .i32⟩
  | .hbm, ⟨78, _⟩ => ⟨S28x32x1, .i32⟩
  | .hbm, ⟨79, _⟩ => ⟨S28x32x1, .i32⟩
  | .hbm, ⟨80, _⟩ => ⟨S_, .i32⟩
  | .hbm, ⟨81, _⟩ => ⟨S28x1x32, .i32⟩
  | .hbm, ⟨82, _⟩ => ⟨S28x1x32, .i1⟩
  | .hbm, ⟨83, _⟩ => ⟨S_, .i32⟩
  | .hbm, ⟨84, _⟩ => ⟨S28x1x32, .i32⟩
  | .hbm, ⟨85, _⟩ => ⟨S28x1x32, .i32⟩
  | .hbm, ⟨86, _⟩ => ⟨S28x1x32, .i32⟩
  | .hbm, ⟨87, _⟩ => ⟨S28x32x32, .i32⟩
  | .hbm, ⟨88, _⟩ => ⟨S28x32x32, .i32⟩
  | .hbm, ⟨89, _⟩ => ⟨S28x32x32x1, .i32⟩
  | .hbm, ⟨90, _⟩ => ⟨S28x32x32x1, .i32⟩
  | .hbm, ⟨91, _⟩ => ⟨S28x32x32x2, .i32⟩
  | .hbm, ⟨92, _⟩ => ⟨S256x256, .f32⟩
  | .hbm, ⟨93, _⟩ => ⟨S256x256, .bf16⟩
  | .hbm, ⟨94, _⟩ => ⟨S8x65536x96, .f32⟩
  | .local _ .vmem, ⟨0, _⟩ => ⟨S8x1024x32, .f32⟩
  | .local _ .vmem, ⟨1, _⟩ => ⟨S8x1024x32, .f32⟩
  | .local _ .vmem, ⟨2, _⟩ => ⟨S8x1024x32, .f32⟩
  | .local _ .vmem, ⟨3, _⟩ => ⟨S8x1024x32, .f32⟩
  | .local _ .vmem, ⟨4, _⟩ => ⟨S256x512, .bf16⟩
  | .local _ .vmem, ⟨5, _⟩ => ⟨S256x256, .bf16⟩
  | .local _ .vmem, ⟨6, _⟩ => ⟨S8x1024x96, .f32⟩
  | .local _ .vmem, ⟨7, _⟩ => ⟨S8x1024x96, .f32⟩
  | _, _ => ⟨S8x65536x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_3 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_6 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_8 : Ref sig .tc := ⟨.hbm, 73, rfl⟩
abbrev main_v55 : Ref sig .tc := ⟨.hbm, 74, rfl⟩
abbrev main_v56 : Ref sig .tc := ⟨.hbm, 75, rfl⟩
abbrev main_c_9 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_10 : Ref sig .tc := ⟨.hbm, 80, rfl⟩
abbrev main_v60 : Ref sig .tc := ⟨.hbm, 81, rfl⟩
abbrev main_v61 : Ref sig .tc := ⟨.hbm, 82, rfl⟩
abbrev main_c_11 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x1024x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S28_S28x1_0 : S28.BroadcastsInDim S28x1 (![0] : Fin 1 → Fin S28x1.rank)
  bcast_S_S28x1 : S_.BroadcastsInDim S28x1 (![] : Fin 0 → Fin S28x1.rank)
  bcast_S32_S1x32_1 : S32.BroadcastsInDim S1x32 (![1] : Fin 1 → Fin S1x32.rank)
  bcast_S28x1_S28x32_0_1 : S28x1.BroadcastsInDim S28x32 (![0, 1] : Fin 2 → Fin S28x32.rank)
  bcast_S1x32_S28x32_0_1 : S1x32.BroadcastsInDim S28x32 (![0, 1] : Fin 2 → Fin S28x32.rank)
  bcast_S64_S1x64_1 : S64.BroadcastsInDim S1x64 (![1] : Fin 1 → Fin S1x64.rank)
  bcast_S28x1_S28x64_0_1 : S28x1.BroadcastsInDim S28x64 (![0, 1] : Fin 2 → Fin S28x64.rank)
  bcast_S1x64_S28x64_0_1 : S1x64.BroadcastsInDim S28x64 (![0, 1] : Fin 2 → Fin S28x64.rank)
  transposes_S28x64x32_S28x32x64_0_2_1 : S28x64x32.Transposes [0, 2, 1] S28x32x64
  bcast_S_S256x512 : S_.BroadcastsInDim S256x512 (![] : Fin 0 → Fin S256x512.rank)
  bcast_S28x32_S28x32x1_0_1 : S28x32.BroadcastsInDim S28x32x1 (![0, 1] : Fin 2 → Fin S28x32x1.rank)
  bcast_S28x64_S28x1x64_0_2 : S28x64.BroadcastsInDim S28x1x64 (![0, 2] : Fin 2 → Fin S28x1x64.rank)
  bcast_S_S28x32x1 : S_.BroadcastsInDim S28x32x1 (![] : Fin 0 → Fin S28x32x1.rank)
  bcast_S_S28x1x64 : S_.BroadcastsInDim S28x1x64 (![] : Fin 0 → Fin S28x1x64.rank)
  bcast_S28x32x1_S28x32x64_0_1_2 : S28x32x1.BroadcastsInDim S28x32x64 (![0, 1, 2] : Fin 3 → Fin S28x32x64.rank)
  bcast_S28x1x64_S28x32x64_0_1_2 : S28x1x64.BroadcastsInDim S28x32x64 (![0, 1, 2] : Fin 3 → Fin S28x32x64.rank)
  bcast_S28x32x64_S28x32x64x1_0_1_2 : S28x32x64.BroadcastsInDim S28x32x64x1 (![0, 1, 2] : Fin 3 → Fin S28x32x64x1.rank)
  concatenates_S28x32x64x1_S28x32x64x1_S28x32x64x2_d3 : Shape.Concatenates [S28x32x64x1, S28x32x64x1] S28x32x64x2 3
  bitsLt_bf16_f32 : FTy.bits .bf16 < FTy.bits .f32
  transposes_S28x32x32_S28x32x32_0_2_1 : S28x32x32.Transposes [0, 2, 1] S28x32x32
  bcast_S_S256x256 : S_.BroadcastsInDim S256x256 (![] : Fin 0 → Fin S256x256.rank)
  bcast_S28x32_S28x1x32_0_2 : S28x32.BroadcastsInDim S28x1x32 (![0, 2] : Fin 2 → Fin S28x1x32.rank)
  bcast_S_S28x1x32 : S_.BroadcastsInDim S28x1x32 (![] : Fin 0 → Fin S28x1x32.rank)
  bcast_S28x32x1_S28x32x32_0_1_2 : S28x32x1.BroadcastsInDim S28x32x32 (![0, 1, 2] : Fin 3 → Fin S28x32x32.rank)
  bcast_S28x1x32_S28x32x32_0_1_2 : S28x1x32.BroadcastsInDim S28x32x32 (![0, 1, 2] : Fin 3 → Fin S28x32x32.rank)
  bcast_S28x32x32_S28x32x32x1_0_1_2 : S28x32x32.BroadcastsInDim S28x32x32x1 (![0, 1, 2] : Fin 3 → Fin S28x32x32x1.rank)
  concatenates_S28x32x32x1_S28x32x32x1_S28x32x32x2_d3 : Shape.Concatenates [S28x32x32x1, S28x32x32x1] S28x32x32x2 3
  inb_S8x1024x32_S1x1024x32_0_0_0 : ∀ a, (![0, 0, 0] : Fin 3 → Nat) a + S1x1024x32.size a ≤ S8x1024x32.size a
  h_S1x1024x32 : 0 < S1x1024x32.numel
  shapeCasts_S1x1024x32_S1024x32 : S1x1024x32.ShapeCasts S1024x32
  inb_S8x1024x32_S1x1024x32_1_0_0 : ∀ a, (![1, 0, 0] : Fin 3 → Nat) a + S1x1024x32.size a ≤ S8x1024x32.size a
  inb_S8x1024x32_S1x1024x32_2_0_0 : ∀ a, (![2, 0, 0] : Fin 3 → Nat) a + S1x1024x32.size a ≤ S8x1024x32.size a
  inb_S8x1024x32_S1x1024x32_3_0_0 : ∀ a, (![3, 0, 0] : Fin 3 → Nat) a + S1x1024x32.size a ≤ S8x1024x32.size a
  inb_S8x1024x32_S1x1024x32_4_0_0 : ∀ a, (![4, 0, 0] : Fin 3 → Nat) a + S1x1024x32.size a ≤ S8x1024x32.size a
  inb_S8x1024x32_S1x1024x32_5_0_0 : ∀ a, (![5, 0, 0] : Fin 3 → Nat) a + S1x1024x32.size a ≤ S8x1024x32.size a
  inb_S8x1024x32_S1x1024x32_6_0_0 : ∀ a, (![6, 0, 0] : Fin 3 → Nat) a + S1x1024x32.size a ≤ S8x1024x32.size a
  inb_S8x1024x32_S1x1024x32_7_0_0 : ∀ a, (![7, 0, 0] : Fin 3 → Nat) a + S1x1024x32.size a ≤ S8x1024x32.size a
  concatenates_S1024x32_S1024x32_S1024x32_S1024x32_S1024x32_S1024x32_S1024x32_S1024x32_S1024x256_d1 : Shape.Concatenates [S1024x32, S1024x32, S1024x32, S1024x32, S1024x32, S1024x32, S1024x32, S1024x32] S1024x256 1
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S1024x512_o0_0_S1024x64 : S1024x512.Slices ![0, 0] S1024x64
  inb_S8x1024x96_S1x1024x64_0_0_0 : ∀ a, (![0, 0, 0] : Fin 3 → Nat) a + S1x1024x64.size a ≤ S8x1024x96.size a
  h_S1x1024x64 : 0 < S1x1024x64.numel
  shapeCasts_S1x1024x64_S1024x64 : S1x1024x64.ShapeCasts S1024x64
  shapeCasts_S1024x64_S1x1024x64 : S1024x64.ShapeCasts S1x1024x64
  slices_S1024x256_o0_0_S1024x32 : S1024x256.Slices ![0, 0] S1024x32
  inb_S8x1024x96_S1x1024x32_0_0_64 : ∀ a, (![0, 0, 64] : Fin 3 → Nat) a + S1x1024x32.size a ≤ S8x1024x96.size a
  shapeCasts_S1024x32_S1x1024x32 : S1024x32.ShapeCasts S1x1024x32
  slices_S1024x512_o0_64_S1024x64 : S1024x512.Slices ![0, 64] S1024x64
  inb_S8x1024x96_S1x1024x64_1_0_0 : ∀ a, (![1, 0, 0] : Fin 3 → Nat) a + S1x1024x64.size a ≤ S8x1024x96.size a
  slices_S1024x256_o0_32_S1024x32 : S1024x256.Slices ![0, 32] S1024x32
  inb_S8x1024x96_S1x1024x32_1_0_64 : ∀ a, (![1, 0, 64] : Fin 3 → Nat) a + S1x1024x32.size a ≤ S8x1024x96.size a
  slices_S1024x512_o0_128_S1024x64 : S1024x512.Slices ![0, 128] S1024x64
  inb_S8x1024x96_S1x1024x64_2_0_0 : ∀ a, (![2, 0, 0] : Fin 3 → Nat) a + S1x1024x64.size a ≤ S8x1024x96.size a
  slices_S1024x256_o0_64_S1024x32 : S1024x256.Slices ![0, 64] S1024x32
  inb_S8x1024x96_S1x1024x32_2_0_64 : ∀ a, (![2, 0, 64] : Fin 3 → Nat) a + S1x1024x32.size a ≤ S8x1024x96.size a
  slices_S1024x512_o0_192_S1024x64 : S1024x512.Slices ![0, 192] S1024x64
  inb_S8x1024x96_S1x1024x64_3_0_0 : ∀ a, (![3, 0, 0] : Fin 3 → Nat) a + S1x1024x64.size a ≤ S8x1024x96.size a
  slices_S1024x256_o0_96_S1024x32 : S1024x256.Slices ![0, 96] S1024x32
  inb_S8x1024x96_S1x1024x32_3_0_64 : ∀ a, (![3, 0, 64] : Fin 3 → Nat) a + S1x1024x32.size a ≤ S8x1024x96.size a
  slices_S1024x512_o0_256_S1024x64 : S1024x512.Slices ![0, 256] S1024x64
  inb_S8x1024x96_S1x1024x64_4_0_0 : ∀ a, (![4, 0, 0] : Fin 3 → Nat) a + S1x1024x64.size a ≤ S8x1024x96.size a
  slices_S1024x256_o0_128_S1024x32 : S1024x256.Slices ![0, 128] S1024x32
  inb_S8x1024x96_S1x1024x32_4_0_64 : ∀ a, (![4, 0, 64] : Fin 3 → Nat) a + S1x1024x32.size a ≤ S8x1024x96.size a
  slices_S1024x512_o0_320_S1024x64 : S1024x512.Slices ![0, 320] S1024x64
  inb_S8x1024x96_S1x1024x64_5_0_0 : ∀ a, (![5, 0, 0] : Fin 3 → Nat) a + S1x1024x64.size a ≤ S8x1024x96.size a
  slices_S1024x256_o0_160_S1024x32 : S1024x256.Slices ![0, 160] S1024x32
  inb_S8x1024x96_S1x1024x32_5_0_64 : ∀ a, (![5, 0, 64] : Fin 3 → Nat) a + S1x1024x32.size a ≤ S8x1024x96.size a
  slices_S1024x512_o0_384_S1024x64 : S1024x512.Slices ![0, 384] S1024x64
  inb_S8x1024x96_S1x1024x64_6_0_0 : ∀ a, (![6, 0, 0] : Fin 3 → Nat) a + S1x1024x64.size a ≤ S8x1024x96.size a
  slices_S1024x256_o0_192_S1024x32 : S1024x256.Slices ![0, 192] S1024x32
  inb_S8x1024x96_S1x1024x32_6_0_64 : ∀ a, (![6, 0, 64] : Fin 3 → Nat) a + S1x1024x32.size a ≤ S8x1024x96.size a
  slices_S1024x512_o0_448_S1024x64 : S1024x512.Slices ![0, 448] S1024x64
  inb_S8x1024x96_S1x1024x64_7_0_0 : ∀ a, (![7, 0, 0] : Fin 3 → Nat) a + S1x1024x64.size a ≤ S8x1024x96.size a
  slices_S1024x256_o0_224_S1024x32 : S1024x256.Slices ![0, 224] S1024x32
  inb_S8x1024x96_S1x1024x32_7_0_64 : ∀ a, (![7, 0, 64] : Fin 3 → Nat) a + S1x1024x32.size a ≤ S8x1024x96.size a
  scatter_S256x512_S28x32x64x2_S28x32x64_n_01_01_3_wf : ScatterDims.WF S256x512 S28x32x64x2 S28x32x64 [] [0, 1] [0, 1] 3
  scatter_S256x256_S28x32x32x2_S28x32x32_n_01_01_3_wf : ScatterDims.WF S256x256 S28x32x32x2 S28x32x32 [] [0, 1] [0, 1] 3
  dot_S1024x256_S256x512_S1024x512_1_0_0_1_n_n_wf : DotDims.WF S1024x256 S256x512 S1024x512 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x32.size a ≤ S8x65536x32.size a
  hwx0_0 : ∀ i : grid0.Coords, EltTy.bits .f32 = 32 ∨ (Rect.block (s := S8x65536x32) S8x1024x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024x32.size a ≤ S8x65536x32.size a
  hwx0_1 : ∀ i : grid0.Coords, EltTy.bits .f32 = 32 ∨ (Rect.block (s := S8x65536x32) S8x1024x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1024x96.size a ≤ S8x65536x96.size a
  hwx0_4 : ∀ i : grid0.Coords, EltTy.bits .f32 = 32 ∨ (Rect.block (s := S8x65536x96) S8x1024x96.size (cc0_transform_4 i) (hinb0_4 i)).WholeWords (EltTy.packing .f32)

variable [Facts₀]

def scatter_S256x512_S28x32x64x2_S28x32x64_n_01_01_3 : ScatterDims S256x512 S28x32x64x2 S28x32x64 where
  updateWindowDims := []
  insertedWindowDims := [0, 1]
  scatterDimsToOperandDims := [0, 1]
  indexVectorDim := 3
  wf := scatter_S256x512_S28x32x64x2_S28x32x64_n_01_01_3_wf
def scatter_S256x256_S28x32x32x2_S28x32x32_n_01_01_3 : ScatterDims S256x256 S28x32x32x2 S28x32x32 where
  updateWindowDims := []
  insertedWindowDims := [0, 1]
  scatterDimsToOperandDims := [0, 1]
  indexVectorDim := 3
  wf := scatter_S256x256_S28x32x32x2_S28x32x32_n_01_01_3_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S8x1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v71) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v72) S8x1024x96.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x65536x32 : Shape := ⟨3, ![8, 65536, 32]⟩
abbrev S28x64x32 : Shape := ⟨3, ![28, 64, 32]⟩
abbrev S28x32x32 : Shape := ⟨3, ![28, 32, 32]⟩
abbrev S28 : Shape := ⟨1, ![28]⟩
abbrev S_ : Shape := ⟨0, ![]⟩
abbrev S28x1 : Shape := ⟨2, ![28, 1]⟩
abbrev S28x65536x32 : Shape := ⟨3, ![28, 65536, 32]⟩
abbrev S28x65536x64 : Shape := ⟨3, ![28, 65536, 64]⟩
abbrev S8x65536x64 : Shape := ⟨3, ![8, 65536, 64]⟩
abbrev S8x65536x96 : Shape := ⟨3, ![8, 65536, 96]⟩

abbrev nBuf : Space → Nat
  | .hbm => 37
  | .vmem => 0
  | .smem => 0
  | _ => 0

abbrev bufTy : (tb : Table) → Fin (tcTables nBuf tb) → BufTy
  | .hbm, ⟨0, _⟩ => ⟨S8x65536x32, .f32⟩
  | .hbm, ⟨1, _⟩ => ⟨S8x65536x32, .f32⟩
  | .hbm, ⟨2, _⟩ => ⟨S28x64x32, .f32⟩
  | .hbm, ⟨3, _⟩ => ⟨S28x32x32, .f32⟩
  | .hbm, ⟨4, _⟩ => ⟨S28, .i32⟩
  | .hbm, ⟨5, _⟩ => ⟨S28, .i32⟩
  | .hbm, ⟨6, _⟩ => ⟨S28, .i32⟩
  | .hbm, ⟨7, _⟩ => ⟨S28, .i32⟩
  | .hbm, ⟨8, _⟩ => ⟨S_, .i32⟩
  | .hbm, ⟨9, _⟩ => ⟨S28, .i32⟩
  | .hbm, ⟨10, _⟩ => ⟨S28, .i1⟩
  | .hbm, ⟨11, _⟩ => ⟨S_, .i32⟩
  | .hbm, ⟨12, _⟩ => ⟨S28, .i32⟩
  | .hbm, ⟨13, _⟩ => ⟨S28, .i32⟩
  | .hbm, ⟨14, _⟩ => ⟨S28, .i32⟩
  | .hbm, ⟨15, _⟩ => ⟨S28x1, .i32⟩
  | .hbm, ⟨16, _⟩ => ⟨S28x65536x32, .f32⟩
  | .hbm, ⟨17, _⟩ => ⟨S28x65536x64, .f32⟩
  | .hbm, ⟨18, _⟩ => ⟨S_, .f32⟩
  | .hbm, ⟨19, _⟩ => ⟨S8x65536x64, .f32⟩
  | .hbm, ⟨20, _⟩ => ⟨S28x1, .i32⟩
  | .hbm, ⟨21, _⟩ => ⟨S8x65536x64, .f32⟩
  | .hbm, ⟨22, _⟩ => ⟨S_, .i32⟩
  | .hbm, ⟨23, _⟩ => ⟨S28, .i32⟩
  | .hbm, ⟨24, _⟩ => ⟨S28, .i1⟩
  | .hbm, ⟨25, _⟩ => ⟨S_, .i32⟩
  | .hbm, ⟨26, _⟩ => ⟨S28, .i32⟩
  | .hbm, ⟨27, _⟩ => ⟨S28, .i32⟩
  | .hbm, ⟨28, _⟩ => ⟨S28, .i32⟩
  | .hbm, ⟨29, _⟩ => ⟨S28x1, .i32⟩
  | .hbm, ⟨30, _⟩ => ⟨S28x65536x32, .f32⟩
  | .hbm, ⟨31, _⟩ => ⟨S28x65536x32, .f32⟩
  | .hbm, ⟨32, _⟩ => ⟨S_, .f32⟩
  | .hbm, ⟨33, _⟩ => ⟨S8x65536x32, .f32⟩
  | .hbm, ⟨34, _⟩ => ⟨S28x1, .i32⟩
  | .hbm, ⟨35, _⟩ => ⟨S8x65536x32, .f32⟩
  | .hbm, ⟨36, _⟩ => ⟨S8x65536x96, .f32⟩
  | _, _ => ⟨S8x65536x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]

class Facts₀ : Prop where
  bcast_S_S28 : S_.BroadcastsInDim S28 (![] : Fin 0 → Fin S28.rank)
  bcast_S28_S28x1_0 : S28.BroadcastsInDim S28x1 (![0] : Fin 1 → Fin S28x1.rank)
  bcast_S_S8x65536x64 : S_.BroadcastsInDim S8x65536x64 (![] : Fin 0 → Fin S8x65536x64.rank)
  bcast_S_S8x65536x32 : S_.BroadcastsInDim S8x65536x32 (![] : Fin 0 → Fin S8x65536x32.rank)
  concatenates_S8x65536x64_S8x65536x32_S8x65536x96_d2 : Shape.Concatenates [S8x65536x64, S8x65536x32] S8x65536x96 2
  gather_S8x65536x32_S28x1_S28x65536x32_12_0_n_n_0_1_16553632_wf : GatherDims.WF S8x65536x32 S28x1 S28x65536x32 [1, 2] [0] [] [0] [] 1 ![1, 65536, 32]
  dot_S28x65536x32_S28x64x32_S28x65536x64_2_2_1_1_0_0_wf : DotDims.WF S28x65536x32 S28x64x32 S28x65536x64 [2] [2] [1] [1] [0] [0]
  scatter_S8x65536x64_S28x1_S28x65536x64_12_0_0_1_wf : ScatterDims.WF S8x65536x64 S28x1 S28x65536x64 [1, 2] [0] [0] 1
  dot_S28x65536x32_S28x32x32_S28x65536x32_2_2_1_1_0_0_wf : DotDims.WF S28x65536x32 S28x32x32 S28x65536x32 [2] [2] [1] [1] [0] [0]
  scatter_S8x65536x32_S28x1_S28x65536x32_12_0_0_1_wf : ScatterDims.WF S8x65536x32 S28x1 S28x65536x32 [1, 2] [0] [0] 1

variable [Facts₀]

def gather_S8x65536x32_S28x1_S28x65536x32_12_0_n_n_0_1_16553632 : GatherDims S8x65536x32 S28x1 S28x65536x32 where
  offsetDims := [1, 2]
  collapsedSliceDims := [0]
  operandBatchingDims := []
  startIndicesBatchingDims := []
  startIndexMap := [0]
  indexVectorDim := 1
  sliceSizes := ![1, 65536, 32]
  wf := gather_S8x65536x32_S28x1_S28x65536x32_12_0_n_n_0_1_16553632_wf
def dot_S28x65536x32_S28x64x32_S28x65536x64_2_2_1_1_0_0 : DotDims S28x65536x32 S28x64x32 S28x65536x64 where
  lhsContracting := [2]
  rhsContracting := [2]
  lhsNonContracting := [1]
  rhsNonContracting := [1]
  lhsBatch := [0]
  rhsBatch := [0]
  wf := dot_S28x65536x32_S28x64x32_S28x65536x64_2_2_1_1_0_0_wf
def scatter_S8x65536x64_S28x1_S28x65536x64_12_0_0_1 : ScatterDims S8x65536x64 S28x1 S28x65536x64 where
  updateWindowDims := [1, 2]
  insertedWindowDims := [0]
  scatterDimsToOperandDims := [0]
  indexVectorDim := 1
  wf := scatter_S8x65536x64_S28x1_S28x65536x64_12_0_0_1_wf
def dot_S28x65536x32_S28x32x32_S28x65536x32_2_2_1_1_0_0 : DotDims S28x65536x32 S28x32x32 S28x65536x32 where
  lhsContracting := [2]
  rhsContracting := [2]
  lhsNonContracting := [1]
  rhsNonContracting := [1]
  lhsBatch := [0]
  rhsBatch := [0]
  wf := dot_S28x65536x32_S28x32x32_S28x65536x32_2_2_1_1_0_0_wf
def scatter_S8x65536x32_S28x1_S28x65536x32_12_0_0_1 : ScatterDims S8x65536x32 S28x1 S28x65536x32 where
  updateWindowDims := [1, 2]
  insertedWindowDims := [0]
  scatterDimsToOperandDims := [0]
  indexVectorDim := 1
  wf := scatter_S8x65536x32_S28x1_S28x65536x32_12_0_0_1_wf

class Facts : Prop extends Facts₀ where

variable [Facts]
-- ==== Proof.Spec.lean ====
/-
  Inter-column synapse sums: the result array as one function of the argument arrays.

  Eight columns exchange messages along 28 feed-forward and 28 feedback edges. Edge `e` of a family has a source
  column `src e`, a target column `tgt e` and a weight matrix `w e` (rows `q`, 32 columns `p`). Its message at batch
  row `b` is the matrix–vector product `∑ p, x[src e, b, p] · w[e, q, p]`, and column `t` receives the sum of the
  messages of the edges whose target is `t` (`msgSum`). The result holds, for column `t` and row `b`, the 64
  feed-forward sums (over the first activity array and the first weight family) followed by the 32 feedback sums
  (over the second activity array and the second family): `G`.

  The same number can be reached through a dense matrix: lay the weight matrices of the edges from source `s` to
  target `t` into block `(s, t)` of a [256, 8·Q] matrix, adding where edges repeat (`dense`), and multiply row `b`
  of the activities, the eight columns side by side, by that matrix. That the two agree for real entries is
  `Cert.Synapse.dense_dot_eq_msgSum` (module DenseSum).

  The edge endpoints arrive as 32-bit words. `Ranged v` says every word of `v` names one of the eight columns;
  `colOf v e` is the column word `e` names (total: reduced mod 8, which changes nothing on ranged words).
-/
import Idealize.ShloMosaic.PureOps.Ideal
import Idealize.ShloMosaic.Lib.ValueIdx

noncomputable section

open scoped BigOperators

namespace Cert.Synapse

open Idealize.ShloMosaic Idealize.ShloMosaic.ValueIdx

/-- Activities: [column, batch row, unit]. -/
abbrev SAct : Shape := ⟨3, ![8, 65536, 32]⟩
/-- One word per edge. -/
abbrev SEdge : Shape := ⟨1, ![28]⟩
/-- Feed-forward weights: [edge, output unit, input unit]. -/
abbrev SWff : Shape := ⟨3, ![28, 64, 32]⟩
/-- Feedback weights: [edge, output unit, input unit]. -/
abbrev SWfb : Shape := ⟨3, ![28, 32, 32]⟩
/-- The result: [column, batch row, 64 feed-forward sums then 32 feedback sums]. -/
abbrev SOut : Shape := ⟨3, ![8, 65536, 96]⟩

/-- Every word names one of the eight columns. -/
def Ranged (v : IVec SEdge 32) : Prop := ∀ e : Fin 28, (v (ix1 e)).toNat < 8

/-- The column word `e` names. -/
def colOf (v : IVec SEdge 32) (e : Fin 28) : Fin 8 := ⟨(v (ix1 e)).toNat % 8, Nat.mod_lt _ (by decide)⟩

theorem colOf_val {v : IVec SEdge 32} (h : Ranged v) (e : Fin 28) : (colOf v e).val = (v (ix1 e)).toNat :=
  Nat.mod_eq_of_lt (h e)

/-- Every entry is a real number. -/
def AllReal {s : Shape} (x : s.Idx → EReal) : Prop := ∀ i, ∃ r : ℝ, x i = (r : EReal)

/-- What column `t` receives at batch row `b`, output unit `q`: over the edges into `t`, the source column's row
    `b` against row `q` of the edge's weights. -/
def msgSum {Q : Nat} (x : SAct.Idx → EReal) (w : (⟨3, ![28, Q, 32]⟩ : Shape).Idx → EReal) (src tgt : Fin 28 → Fin 8)
    (t : Fin 8) (b : Fin 65536) (q : Fin Q) : EReal :=
  ∑ e ∈ Finset.univ.filter (fun e : Fin 28 => tgt e = t), ∑ p : Fin 32, x (ix3 (src e) b p) * w (ix3 e q p)

/-- Entry `(k, c)` of the dense block matrix: row `k` is input unit `k % 32` of source column `k / 32`, column `c`
    is output unit `c % Q` of target column `c / Q`; the entry adds the weights of every edge between the two. -/
def dense {Q : Nat} (hQ : 0 < Q) (w : (⟨3, ![28, Q, 32]⟩ : Shape).Idx → EReal) (src tgt : Fin 28 → Fin 8)
    (k : Fin 256) (c : Fin (8 * Q)) : EReal :=
  ∑ e ∈ Finset.univ.filter (fun e : Fin 28 => (src e).val = k.val / 32 ∧ (tgt e).val = c.val / Q),
    w (ix3 e ⟨c.val % Q, Nat.mod_lt _ hQ⟩ ⟨k.val % 32, Nat.mod_lt _ (by decide)⟩)

/-- Row `b` of the activities, the eight columns side by side, against column `(t, q)` of a [256, 8·Q] matrix. -/
def rowDot {Q : Nat} (x : SAct.Idx → EReal) (W : Fin 256 → Fin (8 * Q) → EReal) (t : Fin 8) (b : Fin 65536) (q : Fin Q) : EReal :=
  ∑ k : Fin 256, x (ix3 ⟨k.val / 32, by have := k.isLt; omega⟩ b ⟨k.val % 32, Nat.mod_lt _ (by decide)⟩)
    * W k ⟨t.val * Q + q.val, by
        have ht := t.isLt; have hq := q.isLt
        calc t.val * Q + q.val < t.val * Q + Q := by omega
          _ = (t.val + 1) * Q := by ring
          _ ≤ 8 * Q := Nat.mul_le_mul_right Q (by omega)⟩

/-- The result at column `t`, batch row `b`, position `j`. -/
def Gat (x0 x1 : SAct.Idx → EReal) (w2 : SWff.Idx → EReal) (w3 : SWfb.Idx → EReal) (s4 t5 s6 t7 : IVec SEdge 32)
    (t : Fin 8) (b : Fin 65536) (j : Fin 96) : EReal :=
  if h : j.val < 64 then msgSum x0 w2 (colOf s4) (colOf t5) t b ⟨j.val, h⟩
  else msgSum x1 w3 (colOf s6) (colOf t7) t b ⟨j.val - 64, by have := j.isLt; omega⟩

/-- The result array. -/
def G (x0 x1 : SAct.Idx → EReal) (w2 : SWff.Idx → EReal) (w3 : SWfb.Idx → EReal) (s4 t5 s6 t7 : IVec SEdge 32) :
    SOut.Idx → EReal :=
  fun i => Gat x0 x1 w2 w3 s4 t5 s6 t7 (i 0) (i 1) (i 2)

end Cert.Synapse

end
-- ==== Proof.BlockSpec.lean ====
/-
  One grid point's block of the result, as a function of the point's input blocks.

  A grid point sees 1024 batch rows: its two activity blocks `x0 x1 : [8, 1024, 32]` and the two dense block
  matrices whole, `x2 : [256, 512]` and `x3 : [256, 256]`. Entry `(t, r, j)` of its result block is row `r` of the
  activities, the eight columns side by side (position `k` is unit `k % 32` of column `k / 32`), against column
  `t·64 + j` of `x2` when `j < 64`, and against column `t·32 + (j − 64)` of `x3` otherwise.

  `arrFn` is the same over the whole arrays (65536 batch rows), in the vocabulary of the specification (`rowDot`).
-/
import proofs.«401551_j56624848830930_3_alg».proof.Proof.Spec

noncomputable section

open scoped BigOperators

namespace Cert.Synapse

open Idealize.ShloMosaic Idealize.ShloMosaic.ValueIdx

/-- One grid point's activity block: [column, row in the block, unit]. -/
abbrev SActBlk : Shape := ⟨3, ![8, 1024, 32]⟩
/-- One grid point's result block. -/
abbrev SOutBlk : Shape := ⟨3, ![8, 1024, 96]⟩
/-- The dense feed-forward matrix. -/
abbrev SDff : Shape := ⟨2, ![256, 512]⟩
/-- The dense feedback matrix. -/
abbrev SDfb : Shape := ⟨2, ![256, 256]⟩

/-- Row `r` of an activity block, the eight columns side by side, against column `c` of a dense matrix. -/
def blkDot {B : Nat} (x : SActBlk.Idx → EReal) (W : (⟨2, ![256, B]⟩ : Shape).Idx → EReal) (r : Fin 1024) (c : Fin B) : EReal :=
  ∑ k : Fin 256, x (ix3 (⟨k.val / 32, by have := k.isLt; omega⟩ : Fin 8) r (⟨k.val % 32, Nat.mod_lt _ (by decide)⟩ : Fin 32)) * W (ix2 k c)

/-- The result block of one grid point at `(t, r, j)`. -/
def blockAt (x0 x1 : SActBlk.Idx → EReal) (x2 : SDff.Idx → EReal) (x3 : SDfb.Idx → EReal) (t : Fin 8) (r : Fin 1024) (j : Fin 96) : EReal :=
  if h : j.val < 64 then blkDot x0 x2 r (⟨t.val * 64 + j.val, by have := t.isLt; omega⟩ : Fin 512)
  else blkDot x1 x3 r (⟨t.val * 32 + (j.val - 64), by have := t.isLt; have := j.isLt; omega⟩ : Fin 256)

/-- The result block of one grid point. -/
def blockFn (x0 x1 : SActBlk.Idx → EReal) (x2 : SDff.Idx → EReal) (x3 : SDfb.Idx → EReal) : SOutBlk.Idx → EReal :=
  fun y => blockAt x0 x1 x2 x3 (y 0) (y 1) (y 2)

/-- The whole result at `(t, b, j)` from the whole activity arrays and the two dense matrices. -/
def arrAt' (X0 X1 : SAct.Idx → EReal) (Wff : SDff.Idx → EReal) (Wfb : SDfb.Idx → EReal) (t : Fin 8) (b : Fin 65536) (j : Fin 96) : EReal :=
  if h : j.val < 64 then rowDot (Q := 64) X0 (fun k c => Wff (ix2 k c)) t b ⟨j.val, h⟩
  else rowDot (Q := 32) X1 (fun k c => Wfb (ix2 k c)) t b ⟨j.val - 64, by have := j.isLt; omega⟩

/-- The whole result array from the whole activity arrays and the two dense matrices. -/
def arrFn (X0 X1 : SAct.Idx → EReal) (Wff : SDff.Idx → EReal) (Wfb : SDfb.Idx → EReal) : SOut.Idx → EReal :=
  fun i => arrAt' X0 X1 Wff Wfb (i 0) (i 1) (i 2)

end Cert.Synapse

end
-- ==== Proof.KernelBlock.lean ====
/-
  What one run of the kernel body leaves in its output block.

  The body loads the eight [1, 1024, 32] row blocks of an activity block, drops their unit axis, narrows them to bf16
  (the identity on extended reals) and lays them side by side into a [1024, 256] matrix: position `k` of row `r` is
  unit `k % 32` of column `k / 32`. The matrix of the first activity block is multiplied by the dense feed-forward
  matrix [256, 512], the matrix of the second by the dense feedback matrix [256, 256], each into a zero accumulator.
  Then, for each target column `t`, columns `t·64 … t·64 + 63` of the first product are stored at `(t, ·, 0 … 63)` and
  columns `t·32 … t·32 + 31` of the second at `(t, ·, 64 … 95)`. These sixteen pieces cover the block, and each of them
  reads `blockFn` where it lands; so the block read back after the run is `blockFn`, whatever it held before.
-/
import proofs.«401551_j56624848830930_3_alg».proof.Proof.Gen.KernelIdeal.Frame
import proofs.«401551_j56624848830930_3_alg».proof.Proof.BlockSpec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators

namespace Cert.Synapse

open Cert.KernelIdeal Cert.KernelIdeal.Gen Idealize.ShloMosaic Idealize.ShloMosaic.TcCoe Idealize.SL.Sem
open Idealize.ShloMosaic.ValueIdx Idealize.ShloMosaic.Tactic

/-! ## A column slice with a unit axis put in front -/

/-- Columns `o … o + 63` of a [1024, 512] matrix, given a unit axis in front, read the matrix at `(r, o + j)`. -/
theorem sliceFf_at (v : FVec Ideal S1024x512 .f32) (o : Nat) (h : S1024x512.Slices ![0, o] S1024x64)
    (h' : S1024x64.ShapeCasts S1x1024x64) (ho : o + 64 ≤ 512) (u : Fin 1) (r : Fin 1024) (j : Fin 64) :
    shapeCast S1x1024x64 (extractStridedSlice S1024x64 ![0, o] v h) h' (ix3 u r j)
      = v (ix2 r (⟨o + j.val, by have := j.isLt; omega⟩ : Fin 512)) := by
  rw [shapeCast_ab_1ab_apply]
  refine extractStridedSlice_apply _ v h _ _ fun a => ?_
  match a with
  | ⟨0, _⟩ => exact (Nat.zero_add _).symm
  | ⟨1, _⟩ => rfl

/-- Columns `o … o + 31` of a [1024, 256] matrix, given a unit axis in front, read the matrix at `(r, o + j)`. -/
theorem sliceFb_at (v : FVec Ideal S1024x256 .f32) (o : Nat) (h : S1024x256.Slices ![0, o] S1024x32)
    (h' : S1024x32.ShapeCasts S1x1024x32) (ho : o + 32 ≤ 256) (u : Fin 1) (r : Fin 1024) (j : Fin 32) :
    shapeCast S1x1024x32 (extractStridedSlice S1024x32 ![0, o] v h) h' (ix3 u r j)
      = v (ix2 r (⟨o + j.val, by have := j.isLt; omega⟩ : Fin 256)) := by
  rw [shapeCast_ab_1ab_apply]
  refine extractStridedSlice_apply _ v h _ _ fun a => ?_
  match a with
  | ⟨0, _⟩ => exact (Nat.zero_add _).symm
  | ⟨1, _⟩ => rfl

/-! ## The two matrix products at an index -/

/-! The operand indices of the feed-forward product at output index `i` and contraction index `q`, axis by axis:
    the left operand is read at `(i 0, q)`, the right at `(q, i 1)`. -/

theorem lhs_ff_0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide),
    dif_pos (show (0 : Fin S1024x256.rank) ∈ dot_S1024x256_S256x512_S1024x512_1_0_0_1_n_n.lhsNonContracting by decide)]
  rfl
theorem lhs_ff_1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
theorem rhs_ff_0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
theorem rhs_ff_1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide),
    dif_pos (show (1 : Fin S256x512.rank) ∈ dot_S1024x256_S256x512_S1024x512_1_0_0_1_n_n.rhsNonContracting by decide)]
  rfl

/-- A [1024, 256] × [256, 512] product into a zero accumulator is, at `(r, c)`, the sum over `k` of the products. -/
theorem matmulFf_at (A : FVec Ideal S1024x256 .bf16) (B : FVec Ideal S256x512 .bf16) (r : Fin 1024) (c : Fin 512) :
    matmul dot_S1024x256_S256x512_S1024x512_1_0_0_1_n_n none A B (constant (F := Ideal) S1024x512 .f32 0x00000000#32) (ix2 r c)
      = ∑ k : Fin 256, A (ix2 r k) * B (ix2 k c) := by
  simp only [matmul]
  rw [Ideal.matmul_constant_zero_apply,
    ← Equiv.sum_comp (ValueIdx.contrEquiv1 dot_S1024x256_S256x512_S1024x512_1_0_0_1_n_n 256 rfl rfl).symm]
  refine Finset.sum_congr rfl fun k _ => ?_
  have hk := ValueIdx.contrEquiv1_symm_val dot_S1024x256_S256x512_S1024x512_1_0_0_1_n_n 256 rfl rfl k
  have el : dot_S1024x256_S256x512_S1024x512_1_0_0_1_n_n.lhsIdx (ix2 r c) ((ValueIdx.contrEquiv1 dot_S1024x256_S256x512_S1024x512_1_0_0_1_n_n 256 rfl rfl).symm k) = ix2 r k :=
    funext fun a => Fin.ext (by
      match a with
      | ⟨0, _⟩ => exact lhs_ff_0 _ _
      | ⟨1, _⟩ => exact (lhs_ff_1 _ _).trans hk)
  have er : dot_S1024x256_S256x512_S1024x512_1_0_0_1_n_n.rhsIdx (ix2 r c) ((ValueIdx.contrEquiv1 dot_S1024x256_S256x512_S1024x512_1_0_0_1_n_n 256 rfl rfl).symm k) = ix2 k c :=
    funext fun a => Fin.ext (by
      match a with
      | ⟨0, _⟩ => exact (rhs_ff_0 _ _).trans hk
      | ⟨1, _⟩ => exact rhs_ff_1 _ _)
  rw [el, er]

/-! The same for the feedback product. -/

theorem lhs_fb_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide),
    dif_pos (show (0 : Fin S1024x256.rank) ∈ dot_S1024x256_S256x256_S1024x256_1_0_0_1_n_n.lhsNonContracting by decide)]
  rfl
theorem lhs_fb_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhs_fb_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhs_fb_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide),
    dif_pos (show (1 : Fin S256x256.rank) ∈ dot_S1024x256_S256x256_S1024x256_1_0_0_1_n_n.rhsNonContracting by decide)]
  rfl

/-- A [1024, 256] × [256, 256] product into a zero accumulator is, at `(r, c)`, the sum over `k` of the products. -/
theorem matmulFb_at (A : FVec Ideal S1024x256 .bf16) (B : FVec Ideal S256x256 .bf16) (r : Fin 1024) (c : Fin 256) :
    matmul dot_S1024x256_S256x256_S1024x256_1_0_0_1_n_n none A B (constant (F := Ideal) S1024x256 .f32 0x00000000#32) (ix2 r c)
      = ∑ k : Fin 256, A (ix2 r k) * B (ix2 k c) := by
  simp only [matmul]
  rw [Ideal.matmul_constant_zero_apply,
    ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 r c) ((ValueIdx.contrEquiv1 dot_S1024x256_S256x256_S1024x256_1_0_0_1_n_n 256 rfl rfl).symm k) = ix2 r k :=
    funext fun a => Fin.ext (by
      match a with
      | ⟨0, _⟩ => exact lhs_fb_0 _ _
      | ⟨1, _⟩ => exact (lhs_fb_1 _ _).trans hk)
  have er : dot_S1024x256_S256x256_S1024x256_1_0_0_1_n_n.rhsIdx (ix2 r c) ((ValueIdx.contrEquiv1 dot_S1024x256_S256x256_S1024x256_1_0_0_1_n_n 256 rfl rfl).symm k) = ix2 k c :=
    funext fun a => Fin.ext (by
      match a with
      | ⟨0, _⟩ => exact (rhs_fb_0 _ _).trans hk
      | ⟨1, _⟩ => exact rhs_fb_1 _ _)
  rw [el, er]

/-! ## Eight [1024, 32] pieces side by side -/

/-- Eight pieces, each with its shape, in the order a concatenation lists them. -/
abbrev lanes8 (P : Fin 8 → FVec Ideal S1024x32 .bf16) : List ((s : Shape) × (s.Idx → Ideal .bf16)) :=
  [⟨S1024x32, P 0⟩, ⟨S1024x32, P 1⟩, ⟨S1024x32, P 2⟩, ⟨S1024x32, P 3⟩, ⟨S1024x32, P 4⟩, ⟨S1024x32, P 5⟩,
    ⟨S1024x32, P 6⟩, ⟨S1024x32, P 7⟩]

/-- Column `s·32 + q` of the concatenation is column `q` of piece `s`. -/
theorem concat8_at (P : Fin 8 → FVec Ideal S1024x32 .bf16)
    (h : Shape.Concatenates [S1024x32, S1024x32, S1024x32, S1024x32, S1024x32, S1024x32, S1024x32, S1024x32] S1024x256 1)
    (r : Fin 1024) (s : Fin 8) (q : Fin 32) :
    concatenate S1024x256 1 (lanes8 P) h
      (ix2 r (⟨s.val * 32 + q.val, by have := s.isLt; have := q.isLt; omega⟩ : Fin 256)) = P s (ix2 r q) := by
  match s with
  | ⟨0, _⟩ =>
    exact concatenate_apply_piece (1 : Fin S1024x256.rank) (lanes8 P) h _ 0 (show 0 < 8 by decide) S1024x32 (P 0) rfl rfl 0 rfl
      (ix2 r q) (fun b hb => match b, hb with | ⟨0, _⟩, _ => rfl | ⟨1, _⟩, hb => absurd rfl hb) rfl
  | ⟨1, _⟩ =>
    exact concatenate_apply_piece (1 : Fin S1024x256.rank) (lanes8 P) h _ 1 (show 1 < 8 by decide) S1024x32 (P 1) rfl rfl 32 rfl
      (ix2 r q) (fun b hb => match b, hb with | ⟨0, _⟩, _ => rfl | ⟨1, _⟩, hb => absurd rfl hb) rfl
  | ⟨2, _⟩ =>
    exact concatenate_apply_piece (1 : Fin S1024x256.rank) (lanes8 P) h _ 2 (show 2 < 8 by decide) S1024x32 (P 2) rfl rfl 64 rfl
      (ix2 r q) (fun b hb => match b, hb with | ⟨0, _⟩, _ => rfl | ⟨1, _⟩, hb => absurd rfl hb) rfl
  | ⟨3, _⟩ =>
    exact concatenate_apply_piece (1 : Fin S1024x256.rank) (lanes8 P) h _ 3 (show 3 < 8 by decide) S1024x32 (P 3) rfl rfl 96 rfl
      (ix2 r q) (fun b hb => match b, hb with | ⟨0, _⟩, _ => rfl | ⟨1, _⟩, hb => absurd rfl hb) rfl
  | ⟨4, _⟩ =>
    exact concatenate_apply_piece (1 : Fin S1024x256.rank) (lanes8 P) h _ 4 (show 4 < 8 by decide) S1024x32 (P 4) rfl rfl 128 rfl
      (ix2 r q) (fun b hb => match b, hb with | ⟨0, _⟩, _ => rfl | ⟨1, _⟩, hb => absurd rfl hb) rfl
  | ⟨5, _⟩ =>
    exact concatenate_apply_piece (1 : Fin S1024x256.rank) (lanes8 P) h _ 5 (show 5 < 8 by decide) S1024x32 (P 5) rfl rfl 160 rfl
      (ix2 r q) (fun b hb => match b, hb with | ⟨0, _⟩, _ => rfl | ⟨1, _⟩, hb => absurd rfl hb) rfl
  | ⟨6, _⟩ =>
    exact concatenate_apply_piece (1 : Fin S1024x256.rank) (lanes8 P) h _ 6 (show 6 < 8 by decide) S1024x32 (P 6) rfl rfl 192 rfl
      (ix2 r q) (fun b hb => match b, hb with | ⟨0, _⟩, _ => rfl | ⟨1, _⟩, hb => absurd rfl hb) rfl
  | ⟨7, _⟩ =>
    exact concatenate_apply_piece (1 : Fin S1024x256.rank) (lanes8 P) h _ 7 (show 7 < 8 by decide) S1024x32 (P 7) rfl rfl 224 rfl
      (ix2 r q) (fun b hb => match b, hb with | ⟨0, _⟩, _ => rfl | ⟨1, _⟩, hb => absurd rfl hb) rfl

/-! ## The loaded row blocks -/

/-- Row block `s` of an activity block lies inside it. -/
theorem rowBlock_inb (s : Fin 8) : ∀ a, (![s.val, 0, 0] : Fin 3 → Nat) a + S1x1024x32.size a ≤ S8x1024x32.size a := fun a =>
  match a with
  | ⟨0, _⟩ => show s.val + 1 ≤ 8 from s.isLt
  | ⟨1, _⟩ => show 0 + 1024 ≤ 1024 by decide
  | ⟨2, _⟩ => show 0 + 32 ≤ 32 by decide

/-- Row block `s`, loaded, its unit axis dropped and narrowed to bf16 (the identity on extended reals), reads the block
    at `(s, r, q)`. -/
theorem loadRow_at (x : Vec Ideal S8x1024x32 .f32) (s : Fin 8)
    (inb : ∀ a, (![s.val, 0, 0] : Fin 3 → Nat) a + S1x1024x32.size a ≤ S8x1024x32.size a)
    (hc : S1x1024x32.ShapeCasts S1024x32) (hb : FTy.bits .bf16 < FTy.bits .f32) (r : Fin 1024) (q : Fin 32) :
    (truncf .bf16 (shapeCast S1024x32 (View.ld x (Rect.unit (s := S8x1024x32) ![s.val, 0, 0] S1x1024x32.size inb)) hc) hb
      : FVec Ideal S1024x32 .bf16) (ix2 r q) = x (ix3 s r q) := by
  rw [truncf_apply, shapeCast_1ab_ab_apply]
  show x ((Rect.unit (s := S8x1024x32) ![s.val, 0, 0] S1x1024x32.size inb).idx (ix3 0 r q)) = _
  refine congrArg x (funext fun a => Fin.ext ?_)
  match a with
  | ⟨0, _⟩ => show s.val + 1 * 0 = s.val; omega
  | ⟨1, _⟩ => show 0 + 1 * r.val = r.val; omega
  | ⟨2, _⟩ => show 0 + 1 * q.val = q.val; omega

/-- Column `k` is column `k % 32` of piece `k / 32`. -/
theorem col_split (k : Fin 256) : k = (⟨(⟨k.val / 32, by have := k.isLt; omega⟩ : Fin 8).val * 32 + (⟨k.val % 32, Nat.mod_lt _ (by decide)⟩ : Fin 32).val,
      by have := k.isLt; show k.val / 32 * 32 + k.val % 32 < 256; omega⟩ : Fin 256) :=
  Fin.ext (by show k.val = k.val / 32 * 32 + k.val % 32; omega)

/-- The feed-forward left operand at `(r, k)`: the first activity block at `(k / 32, r, k % 32)`. -/
theorem lanesFf_at (x : Vec Ideal S8x1024x32 .f32) (r : Fin 1024) (k : Fin 256) :
    k0_pay2 (F := Ideal)
      (View.ld x (Rect.unit (s := S8x1024x32) ![0, 0, 0] S1x1024x32.size inb_S8x1024x32_S1x1024x32_0_0_0))
      (View.ld x (Rect.unit (s := S8x1024x32) ![1, 0, 0] S1x1024x32.size inb_S8x1024x32_S1x1024x32_1_0_0))
      (View.ld x (Rect.unit (s := S8x1024x32) ![2, 0, 0] S1x1024x32.size inb_S8x1024x32_S1x1024x32_2_0_0))
      (View.ld x (Rect.unit (s := S8x1024x32) ![3, 0, 0] S1x1024x32.size inb_S8x1024x32_S1x1024x32_3_0_0))
      (View.ld x (Rect.unit (s := S8x1024x32) ![4, 0, 0] S1x1024x32.size inb_S8x1024x32_S1x1024x32_4_0_0))
      (View.ld x (Rect.unit (s := S8x1024x32) ![5, 0, 0] S1x1024x32.size inb_S8x1024x32_S1x1024x32_5_0_0))
      (View.ld x (Rect.unit (s := S8x1024x32) ![6, 0, 0] S1x1024x32.size inb_S8x1024x32_S1x1024x32_6_0_0))
      (View.ld x (Rect.unit (s := S8x1024x32) ![7, 0, 0] S1x1024x32.size inb_S8x1024x32_S1x1024x32_7_0_0))
      (ix2 r k) = x (ix3 (⟨k.val / 32, by have := k.isLt; omega⟩ : Fin 8) r (⟨k.val % 32, Nat.mod_lt _ (by decide)⟩ : Fin 32)) := by
  unfold k0_pay2
  conv_lhs => rw [col_split k]
  exact (concat8_at (fun s' => truncf .bf16 (shapeCast S1024x32
      (View.ld x (Rect.unit (s := S8x1024x32) ![s'.val, 0, 0] S1x1024x32.size (rowBlock_inb s'))) shapeCasts_S1x1024x32_S1024x32)
      bitsLt_bf16_f32) _ r _ _).trans (loadRow_at x _ _ _ _ r _)

/-- The feedback left operand at `(r, k)`: the second activity block at `(k / 32, r, k % 32)`. -/
theorem lanesFb_at (x : Vec Ideal S8x1024x32 .f32) (r : Fin 1024) (k : Fin 256) :
    concatenate S1024x256 1
      [⟨S1024x32, k0_pay3 (F := Ideal) (View.ld x (Rect.unit (s := S8x1024x32) ![0, 0, 0] S1x1024x32.size inb_S8x1024x32_S1x1024x32_0_0_0))⟩,
        ⟨S1024x32, truncf .bf16 (shapeCast S1024x32 (View.ld x (Rect.unit (s := S8x1024x32) ![1, 0, 0] S1x1024x32.size inb_S8x1024x32_S1x1024x32_1_0_0)) shapeCasts_S1x1024x32_S1024x32) bitsLt_bf16_f32⟩,
        ⟨S1024x32, truncf .bf16 (shapeCast S1024x32 (View.ld x (Rect.unit (s := S8x1024x32) ![2, 0, 0] S1x1024x32.size inb_S8x1024x32_S1x1024x32_2_0_0)) shapeCasts_S1x1024x32_S1024x32) bitsLt_bf16_f32⟩,
        ⟨S1024x32, truncf .bf16 (shapeCast S1024x32 (View.ld x (Rect.unit (s := S8x1024x32) ![3, 0, 0] S1x1024x32.size inb_S8x1024x32_S1x1024x32_3_0_0)) shapeCasts_S1x1024x32_S1024x32) bitsLt_bf16_f32⟩,
        ⟨S1024x32, truncf .bf16 (shapeCast S1024x32 (View.ld x (Rect.unit (s := S8x1024x32) ![4, 0, 0] S1x1024x32.size inb_S8x1024x32_S1x1024x32_4_0_0)) shapeCasts_S1x1024x32_S1024x32) bitsLt_bf16_f32⟩,
        ⟨S1024x32, truncf .bf16 (shapeCast S1024x32 (View.ld x (Rect.unit (s := S8x1024x32) ![5, 0, 0] S1x1024x32.size inb_S8x1024x32_S1x1024x32_5_0_0)) shapeCasts_S1x1024x32_S1024x32) bitsLt_bf16_f32⟩,
        ⟨S1024x32, truncf .bf16 (shapeCast S1024x32 (View.ld x (Rect.unit (s := S8x1024x32) ![6, 0, 0] S1x1024x32.size inb_S8x1024x32_S1x1024x32_6_0_0)) shapeCasts_S1x1024x32_S1024x32) bitsLt_bf16_f32⟩,
        ⟨S1024x32, truncf .bf16 (shapeCast S1024x32 (View.ld x (Rect.unit (s := S8x1024x32) ![7, 0, 0] S1x1024x32.size inb_S8x1024x32_S1x1024x32_7_0_0)) shapeCasts_S1x1024x32_S1024x32) bitsLt_bf16_f32⟩]
      concatenates_S1024x32_S1024x32_S1024x32_S1024x32_S1024x32_S1024x32_S1024x32_S1024x32_S1024x256_d1 (ix2 r k)
      = x (ix3 (⟨k.val / 32, by have := k.isLt; omega⟩ : Fin 8) r (⟨k.val % 32, Nat.mod_lt _ (by decide)⟩ : Fin 32)) := by
  unfold k0_pay3
  conv_lhs => rw [col_split k]
  exact (concat8_at (fun s' => truncf .bf16 (shapeCast S1024x32
      (View.ld x (Rect.unit (s := S8x1024x32) ![s'.val, 0, 0] S1x1024x32.size (rowBlock_inb s'))) shapeCasts_S1x1024x32_S1024x32)
      bitsLt_bf16_f32) _ r _ _).trans (loadRow_at x _ _ _ _ r _)

/-! ## The two products against the dense matrices -/

/-- The zero offsets of a whole-matrix load. -/
theorem zero2 : (![0, 0] : Fin 2 → Nat) = fun _ => 0 := by
  funext a; match a with | ⟨0, _⟩ => rfl | ⟨1, _⟩ => rfl

/-- The feed-forward product at `(r, c)` is row `r` of the first activity block against column `c` of the first matrix. -/
theorem prodFf_at (x0 : Vec Ideal S8x1024x32 .f32) (x2 : Vec Ideal S256x512 .bf16) (r : Fin 1024) (c : Fin 512) :
    k0_pay4 (F := Ideal)
      (k0_pay2 (F := Ideal)
      (View.ld x0 (Rect.unit (s := S8x1024x32) ![0, 0, 0] S1x1024x32.size inb_S8x1024x32_S1x1024x32_0_0_0))
      (View.ld x0 (Rect.unit (s := S8x1024x32) ![1, 0, 0] S1x1024x32.size inb_S8x1024x32_S1x1024x32_1_0_0))
      (View.ld x0 (Rect.unit (s := S8x1024x32) ![2, 0, 0] S1x1024x32.size inb_S8x1024x32_S1x1024x32_2_0_0))
      (View.ld x0 (Rect.unit (s := S8x1024x32) ![3, 0, 0] S1x1024x32.size inb_S8x1024x32_S1x1024x32_3_0_0))
      (View.ld x0 (Rect.unit (s := S8x1024x32) ![4, 0, 0] S1x1024x32.size inb_S8x1024x32_S1x1024x32_4_0_0))
      (View.ld x0 (Rect.unit (s := S8x1024x32) ![5, 0, 0] S1x1024x32.size inb_S8x1024x32_S1x1024x32_5_0_0))
      (View.ld x0 (Rect.unit (s := S8x1024x32) ![6, 0, 0] S1x1024x32.size inb_S8x1024x32_S1x1024x32_6_0_0))
      (View.ld x0 (Rect.unit (s := S8x1024x32) ![7, 0, 0] S1x1024x32.size inb_S8x1024x32_S1x1024x32_7_0_0)))
      (View.ld x2 (Rect.unit (s := S256x512) ![0, 0] S256x512.size inb_S256x512_S256x512_0_0)) (ix2 r c)
      = blkDot x0 x2 r c := by
  unfold k0_pay4
  rw [shapeCast_self, matmulFf_at]
  unfold blkDot
  refine Finset.sum_congr rfl fun k _ => ?_
  rw [lanesFf_at x0 r k, View.ld_unit_zero zero2]

/-- The feedback product at `(r, c)` is row `r` of the second activity block against column `c` of the second matrix. -/
theorem prodFb_at (x1 : Vec Ideal S8x1024x32 .f32) (x3 : Vec Ideal S256x256 .bf16) (r : Fin 1024) (c : Fin 256) :
    k0_pay5 (F := Ideal) (k0_pay3 (F := Ideal) (View.ld x1 (Rect.unit (s := S8x1024x32) ![0, 0, 0] S1x1024x32.size inb_S8x1024x32_S1x1024x32_0_0_0)))
      (View.ld x1 (Rect.unit (s := S8x1024x32) ![1, 0, 0] S1x1024x32.size inb_S8x1024x32_S1x1024x32_1_0_0))
      (View.ld x1 (Rect.unit (s := S8x1024x32) ![2, 0, 0] S1x1024x32.size inb_S8x1024x32_S1x1024x32_2_0_0))
      (View.ld x1 (Rect.unit (s := S8x1024x32) ![3, 0, 0] S1x1024x32.size inb_S8x1024x32_S1x1024x32_3_0_0))
      (View.ld x1 (Rect.unit (s := S8x1024x32) ![4, 0, 0] S1x1024x32.size inb_S8x1024x32_S1x1024x32_4_0_0))
      (View.ld x1 (Rect.unit (s := S8x1024x32) ![5, 0, 0] S1x1024x32.size inb_S8x1024x32_S1x1024x32_5_0_0))
      (View.ld x1 (Rect.unit (s := S8x1024x32) ![6, 0, 0] S1x1024x32.size inb_S8x1024x32_S1x1024x32_6_0_0))
      (View.ld x1 (Rect.unit (s := S8x1024x32) ![7, 0, 0] S1x1024x32.size inb_S8x1024x32_S1x1024x32_7_0_0))
      (View.ld x3 (Rect.unit (s := S256x256) ![0, 0] S256x256.size inb_S256x256_S256x256_0_0)) (ix2 r c)
      = blkDot x1 x3 r c := by
  unfold k0_pay5
  rw [shapeCast_self, matmulFb_at]
  unfold blkDot
  refine Finset.sum_congr rfl fun k _ => ?_
  rw [lanesFb_at x1 r k, View.ld_unit_zero zero2]

/-! ## The stored pieces -/

/-- The feed-forward piece of target `t`: columns `t·64 …` of the feed-forward product, stored at `(t, ·, 0 …)`. -/
theorem pieceFf_at (x0 x1 : Vec Ideal S8x1024x32 .f32) (x2 : Vec Ideal S256x512 .bf16) (x3 : Vec Ideal S256x256 .bf16)
    (t : Nat) (ht : t < 8) (o : Nat) (ho : o = t * 64) (h : S1024x512.Slices ![0, o] S1024x64)
    (h' : S1024x64.ShapeCasts S1x1024x64)
    (inb : ∀ a, (![t, 0, 0] : Fin 3 → Nat) a + (![1, 1024, 64] : Fin 3 → Nat) a ≤ S8x1024x96.size a)
    (y : S1x1024x64.Idx) :
    shapeCast S1x1024x64 (extractStridedSlice S1024x64 ![0, o]
      (k0_pay4 (F := Ideal)
        (k0_pay2 (F := Ideal)
      (View.ld x0 (Rect.unit (s := S8x1024x32) ![0, 0, 0] S1x1024x32.size inb_S8x1024x32_S1x1024x32_0_0_0))
      (View.ld x0 (Rect.unit (s := S8x1024x32) ![1, 0, 0] S1x1024x32.size inb_S8x1024x32_S1x1024x32_1_0_0))
      (View.ld x0 (Rect.unit (s := S8x1024x32) ![2, 0, 0] S1x1024x32.size inb_S8x1024x32_S1x1024x32_2_0_0))
      (View.ld x0 (Rect.unit (s := S8x1024x32) ![3, 0, 0] S1x1024x32.size inb_S8x1024x32_S1x1024x32_3_0_0))
      (View.ld x0 (Rect.unit (s := S8x1024x32) ![4, 0, 0] S1x1024x32.size inb_S8x1024x32_S1x1024x32_4_0_0))
      (View.ld x0 (Rect.unit (s := S8x1024x32) ![5, 0, 0] S1x1024x32.size inb_S8x1024x32_S1x1024x32_5_0_0))
      (View.ld x0 (Rect.unit (s := S8x1024x32) ![6, 0, 0] S1x1024x32.size inb_S8x1024x32_S1x1024x32_6_0_0))
      (View.ld x0 (Rect.unit (s := S8x1024x32) ![7, 0, 0] S1x1024x32.size inb_S8x1024x32_S1x1024x32_7_0_0)))
        (View.ld x2 (Rect.unit (s := S256x512) ![0, 0] S256x512.size inb_S256x512_S256x512_0_0))) h) h' y
      = blockFn x0 x1 x2 x3 ((Rect.unit (s := S8x1024x96) ![t, 0, 0] ![1, 1024, 64] inb).emb y) := by
  obtain ⟨u, r, j, rfl⟩ : ∃ (u : Fin 1) (r : Fin 1024) (j : Fin 64), y = ix3 u r j := ⟨y 0, y 1, y 2, eq_ix3 y⟩
  subst ho
  have hemb : (Rect.unit (s := S8x1024x96) ![t, 0, 0] ![1, 1024, 64] inb).emb (ix3 u r j)
      = ix3 (⟨t, ht⟩ : Fin 8) r (⟨j.val, by have := j.isLt; omega⟩ : Fin 96) := funext fun a => Fin.ext (by
    match a with
    | ⟨0, _⟩ => show t + 1 * u.val = t; omega
    | ⟨1, _⟩ => show 0 + 1 * r.val = r.val; omega
    | ⟨2, _⟩ => show 0 + 1 * j.val = j.val; omega)
  rw [hemb, sliceFf_at _ _ h h' (by omega) u r j, prodFf_at]
  show _ = blockAt x0 x1 x2 x3 (⟨t, ht⟩ : Fin 8) r (⟨j.val, by have := j.isLt; omega⟩ : Fin 96)
  unfold blockAt
  split
  · rfl
  · rename_i hn; exact absurd j.isLt hn

/-- The feedback piece of target `t`: columns `t·32 …` of the feedback product, stored at `(t, ·, 64 …)`. -/
theorem pieceFb_at (x0 x1 : Vec Ideal S8x1024x32 .f32) (x2 : Vec Ideal S256x512 .bf16) (x3 : Vec Ideal S256x256 .bf16)
    (t : Nat) (ht : t < 8) (o : Nat) (ho : o = t * 32) (h : S1024x256.Slices ![0, o] S1024x32)
    (h' : S1024x32.ShapeCasts S1x1024x32)
    (inb : ∀ a, (![t, 0, 64] : Fin 3 → Nat) a + (![1, 1024, 32] : Fin 3 → Nat) a ≤ S8x1024x96.size a)
    (y : S1x1024x32.Idx) :
    shapeCast S1x1024x32 (extractStridedSlice S1024x32 ![0, o]
      (k0_pay5 (F := Ideal) (k0_pay3 (F := Ideal) (View.ld x1 (Rect.unit (s := S8x1024x32) ![0, 0, 0] S1x1024x32.size inb_S8x1024x32_S1x1024x32_0_0_0)))
      (View.ld x1 (Rect.unit (s := S8x1024x32) ![1, 0, 0] S1x1024x32.size inb_S8x1024x32_S1x1024x32_1_0_0))
      (View.ld x1 (Rect.unit (s := S8x1024x32) ![2, 0, 0] S1x1024x32.size inb_S8x1024x32_S1x1024x32_2_0_0))
      (View.ld x1 (Rect.unit (s := S8x1024x32) ![3, 0, 0] S1x1024x32.size inb_S8x1024x32_S1x1024x32_3_0_0))
      (View.ld x1 (Rect.unit (s := S8x1024x32) ![4, 0, 0] S1x1024x32.size inb_S8x1024x32_S1x1024x32_4_0_0))
      (View.ld x1 (Rect.unit (s := S8x1024x32) ![5, 0, 0] S1x1024x32.size inb_S8x1024x32_S1x1024x32_5_0_0))
      (View.ld x1 (Rect.unit (s := S8x1024x32) ![6, 0, 0] S1x1024x32.size inb_S8x1024x32_S1x1024x32_6_0_0))
      (View.ld x1 (Rect.unit (s := S8x1024x32) ![7, 0, 0] S1x1024x32.size inb_S8x1024x32_S1x1024x32_7_0_0))
        (View.ld x3 (Rect.unit (s := S256x256) ![0, 0] S256x256.size inb_S256x256_S256x256_0_0))) h) h' y
      = blockFn x0 x1 x2 x3 ((Rect.unit (s := S8x1024x96) ![t, 0, 64] ![1, 1024, 32] inb).emb y) := by
  obtain ⟨u, r, j, rfl⟩ : ∃ (u : Fin 1) (r : Fin 1024) (j : Fin 32), y = ix3 u r j := ⟨y 0, y 1, y 2, eq_ix3 y⟩
  subst ho
  have hemb : (Rect.unit (s := S8x1024x96) ![t, 0, 64] ![1, 1024, 32] inb).emb (ix3 u r j)
      = ix3 (⟨t, ht⟩ : Fin 8) r (⟨64 + j.val, by have := j.isLt; omega⟩ : Fin 96) := funext fun a => Fin.ext (by
    match a with
    | ⟨0, _⟩ => show t + 1 * u.val = t; omega
    | ⟨1, _⟩ => show 0 + 1 * r.val = r.val; omega
    | ⟨2, _⟩ => show 64 + 1 * j.val = 64 + j.val; omega)
  rw [hemb, sliceFb_at _ _ h h' (by omega) u r j, prodFb_at]
  show _ = blockAt x0 x1 x2 x3 (⟨t, ht⟩ : Fin 8) r (⟨64 + j.val, by have := j.isLt; omega⟩ : Fin 96)
  unfold blockAt
  split
  · rename_i hp; exact absurd hp (show ¬ (64 + j.val < 64) by omega)
  · exact congrArg (blkDot x1 x3 r) (Fin.ext (by show t * 32 + j.val = t * 32 + (64 + j.val - 64); omega))

/-! ## One run of the body -/

/-- What one run of the kernel body leaves in its output block: sixteen stores, a feed-forward and a feedback piece
    for each target column, which together cover the block and each of which reads the block function. -/
theorem out_block_eq (c : Dev nD) (i : grid0.Coords) (arg1 : Memref sig .tc .vmem S8x1024x32 .f32) (harg1 : arg1.IsWhole)
    (arg2 : Memref sig .tc .vmem S8x1024x32 .f32) (harg2 : arg2.IsWhole) (arg3 : Memref sig .tc .vmem S256x512 .bf16)
    (harg3 : arg3.IsWhole) (arg4 : Memref sig .tc .vmem S256x256 .bf16) (harg4 : arg4.IsWhole)
    (arg5 : Memref sig .tc .vmem S8x1024x96 .f32) (harg5 : arg5.IsWhole)
    (x0 x1 : Vec Ideal S8x1024x32 .f32) (x2 : Vec Ideal S256x512 .bf16) (x3 : Vec Ideal S256x256 .bf16) :
    out0_A_4 (F := Ideal) c i arg1 harg1 arg2 harg2 arg3 harg3 arg4 harg4 arg5 harg5 x0 x1 x2 x3 = blockFn x0 x1 x2 x3 := by
  funext y
  unfold out0_A_4
  refine View.read_writes_apply_of_pieces _ _ (blockFn x0 x1 x2 x3) _ ?_ y
    (cover0_A_4 c i arg1 harg1 arg2 harg2 arg3 harg3 arg4 harg4 arg5 harg5 x0 x1 x2 x3 y)
  unfold kernelRun0_A
  dsimp only
  sl_unfold_words
  simp only [View.readAt_eq_ld, harg1.read_unread, harg2.read_unread, harg3.read_unread, harg4.read_unread]
  refine List.forall_mem_cons.mpr ⟨fun z => pieceFb_at x0 x1 x2 x3 7 (by decide) 224 rfl slices_S1024x256_o0_224_S1024x32
    shapeCasts_S1024x32_S1x1024x32 inb_S8x1024x96_S1x1024x32_7_0_64 z, ?_⟩
  refine List.forall_mem_cons.mpr ⟨fun z => pieceFf_at x0 x1 x2 x3 7 (by decide) 448 rfl slices_S1024x512_o0_448_S1024x64
    shapeCasts_S1024x64_S1x1024x64 inb_S8x1024x96_S1x1024x64_7_0_0 z, ?_⟩
  refine List.forall_mem_cons.mpr ⟨fun z => pieceFb_at x0 x1 x2 x3 6 (by decide) 192 rfl slices_S1024x256_o0_192_S1024x32
    shapeCasts_S1024x32_S1x1024x32 inb_S8x1024x96_S1x1024x32_6_0_64 z, ?_⟩
  refine List.forall_mem_cons.mpr ⟨fun z => pieceFf_at x0 x1 x2 x3 6 (by decide) 384 rfl slices_S1024x512_o0_384_S1024x64
    shapeCasts_S1024x64_S1x1024x64 inb_S8x1024x96_S1x1024x64_6_0_0 z, ?_⟩
  refine List.forall_mem_cons.mpr ⟨fun z => pieceFb_at x0 x1 x2 x3 5 (by decide) 160 rfl slices_S1024x256_o0_160_S1024x32
    shapeCasts_S1024x32_S1x1024x32 inb_S8x1024x96_S1x1024x32_5_0_64 z, ?_⟩
  refine List.forall_mem_cons.mpr ⟨fun z => pieceFf_at x0 x1 x2 x3 5 (by decide) 320 rfl slices_S1024x512_o0_320_S1024x64
    shapeCasts_S1024x64_S1x1024x64 inb_S8x1024x96_S1x1024x64_5_0_0 z, ?_⟩
  refine List.forall_mem_cons.mpr ⟨fun z => pieceFb_at x0 x1 x2 x3 4 (by decide) 128 rfl slices_S1024x256_o0_128_S1024x32
    shapeCasts_S1024x32_S1x1024x32 inb_S8x1024x96_S1x1024x32_4_0_64 z, ?_⟩
  refine List.forall_mem_cons.mpr ⟨fun z => pieceFf_at x0 x1 x2 x3 4 (by decide) 256 rfl slices_S1024x512_o0_256_S1024x64
    shapeCasts_S1024x64_S1x1024x64 inb_S8x1024x96_S1x1024x64_4_0_0 z, ?_⟩
  refine List.forall_mem_cons.mpr ⟨fun z => pieceFb_at x0 x1 x2 x3 3 (by decide) 96 rfl slices_S1024x256_o0_96_S1024x32
    shapeCasts_S1024x32_S1x1024x32 inb_S8x1024x96_S1x1024x32_3_0_64 z, ?_⟩
  refine List.forall_mem_cons.mpr ⟨fun z => pieceFf_at x0 x1 x2 x3 3 (by decide) 192 rfl slices_S1024x512_o0_192_S1024x64
    shapeCasts_S1024x64_S1x1024x64 inb_S8x1024x96_S1x1024x64_3_0_0 z, ?_⟩
  refine List.forall_mem_cons.mpr ⟨fun z => pieceFb_at x0 x1 x2 x3 2 (by decide) 64 rfl slices_S1024x256_o0_64_S1024x32
    shapeCasts_S1024x32_S1x1024x32 inb_S8x1024x96_S1x1024x32_2_0_64 z, ?_⟩
  refine List.forall_mem_cons.mpr ⟨fun z => pieceFf_at x0 x1 x2 x3 2 (by decide) 128 rfl slices_S1024x512_o0_128_S1024x64
    shapeCasts_S1024x64_S1x1024x64 inb_S8x1024x96_S1x1024x64_2_0_0 z, ?_⟩
  refine List.forall_mem_cons.mpr ⟨fun z => pieceFb_at x0 x1 x2 x3 1 (by decide) 32 rfl slices_S1024x256_o0_32_S1024x32
    shapeCasts_S1024x32_S1x1024x32 inb_S8x1024x96_S1x1024x32_1_0_64 z, ?_⟩
  refine List.forall_mem_cons.mpr ⟨fun z => pieceFf_at x0 x1 x2 x3 1 (by decide) 64 rfl slices_S1024x512_o0_64_S1024x64
    shapeCasts_S1024x64_S1x1024x64 inb_S8x1024x96_S1x1024x64_1_0_0 z, ?_⟩
  refine List.forall_mem_cons.mpr ⟨fun z => pieceFb_at x0 x1 x2 x3 0 (by decide) 0 rfl slices_S1024x256_o0_0_S1024x32
    shapeCasts_S1024x32_S1x1024x32 inb_S8x1024x96_S1x1024x32_0_0_64 z, ?_⟩
  refine List.forall_mem_cons.mpr ⟨fun z => pieceFf_at x0 x1 x2 x3 0 (by decide) 0 rfl slices_S1024x512_o0_0_S1024x64
    shapeCasts_S1024x64_S1x1024x64 inb_S8x1024x96_S1x1024x64_0_0_0 z, ?_⟩
  exact fun _ hp => absurd hp List.not_mem_nil

end Cert.Synapse

end
-- ==== Proof.KernelValue.lean ====
/-
  From one grid point's block to the whole result array.

  The grid has 64 points; point `t` sees batch rows `1024·t … 1024·t + 1023` of the two activity arrays, the two
  dense matrices whole, and writes back the same rows of the result. What it writes back is the block function of
  its input blocks (`blockFn`), and that is the restriction to those rows of ONE function of the whole arrays
  (`arrFn`): the blocks are disjoint and together cover every batch row, so the result array after the run is
  `arrFn` of the region's arrays.
-/
import proofs.«401551_j56624848830930_3_alg».proof.Proof.Gen.KernelIdeal.Value
import proofs.«401551_j56624848830930_3_alg».proof.Proof.BlockSpec
import proofs.«401551_j56624848830930_3_alg».proof.Proof.KernelBlock

set_option maxRecDepth 16384

noncomputable section

open scoped BigOperators

namespace Cert.Synapse

open Cert.KernelIdeal Cert.KernelIdeal.Gen Idealize.ShloMosaic Idealize.ShloMosaic.TcCoe Idealize.SL.Sem Idealize.ShloMosaic.ValueIdx
open Idealize.ShloMosaic.Pipeline (Dat)

/-! ## A block of the whole-array function -/

/-- If the activity blocks are rows `1024·n …` of the activity arrays and the dense blocks are the dense matrices,
    the block function at row `r` is the whole-array function at row `1024·n + r`. -/
theorem blockAt_eq_arrAt (X0 X1 : SAct.Idx → EReal) (Wff : SDff.Idx → EReal) (Wfb : SDfb.Idx → EReal)
    (x0 x1 : SActBlk.Idx → EReal) (x2 : SDff.Idx → EReal) (x3 : SDfb.Idx → EReal) (n : Nat) (hn : n < 64)
    (h0 : ∀ (s : Fin 8) (r : Fin 1024) (p : Fin 32), x0 (ix3 s r p) = X0 (ix3 s (⟨n * 1024 + r.val, by have := r.isLt; omega⟩ : Fin 65536) p))
    (h1 : ∀ (s : Fin 8) (r : Fin 1024) (p : Fin 32), x1 (ix3 s r p) = X1 (ix3 s (⟨n * 1024 + r.val, by have := r.isLt; omega⟩ : Fin 65536) p))
    (h2 : ∀ (k : Fin 256) (cc : Fin 512), x2 (ix2 k cc) = Wff (ix2 k cc))
    (h3 : ∀ (k : Fin 256) (cc : Fin 256), x3 (ix2 k cc) = Wfb (ix2 k cc))
    (t : Fin 8) (r : Fin 1024) (j : Fin 96) :
    blockAt x0 x1 x2 x3 t r j = arrAt' X0 X1 Wff Wfb t (⟨n * 1024 + r.val, by have := r.isLt; omega⟩ : Fin 65536) j := by
  unfold blockAt arrAt'
  by_cases h : j.val < 64
  · rw [dif_pos h, dif_pos h]
    unfold blkDot rowDot
    refine Finset.sum_congr rfl fun k _ => ?_
    rw [h0, h2]
  · rw [dif_neg h, dif_neg h]
    unfold blkDot rowDot
    refine Finset.sum_congr rfl fun k _ => ?_
    rw [h1, h3]

/-- The whole-array function depends on its three coordinates only through their values. -/
theorem arrAt'_congr (X0 X1 : SAct.Idx → EReal) (Wff : SDff.Idx → EReal) (Wfb : SDfb.Idx → EReal)
    {t t' : Fin 8} {b b' : Fin 65536} {j j' : Fin 96} (ht : t.val = t'.val) (hb : b.val = b'.val) (hj : j.val = j'.val) :
    arrAt' X0 X1 Wff Wfb t b j = arrAt' X0 X1 Wff Wfb t' b' j' := by
  obtain rfl := Fin.ext ht; obtain rfl := Fin.ext hb; obtain rfl := Fin.ext hj; rfl

variable (m : (ℓ : Loc nD τ sig) → Buf (Elt Ideal) ℓ) (ρ : Dev nD → PrngReg)

/-! ## The grid -/

/-- The printed index maps, decided over the 64 grid points: the activity windows and the result window sit at the
    same block of batch rows, at block 0 on the other axes; the dense matrices are fetched whole. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = t.val ∧ win0_4.index t (2 : Fin 3) = 0 :=
  (by decide +kernel : ∀ t : Fin grid0.N, _)

theorem t_lt (t : Fin cfg0.N) : t.val < 64 := lt_of_lt_of_eq t.isLt N_0

/-- Point `t`'s first activity block is rows `1024·t …` of the first activity array. -/
theorem blk0_apply (c : Dev nD) (t : Fin cfg0.N) (s : Fin 8) (r : Fin 1024) (p : Fin 32) :
    iblk m c 0 t (ix3 s r p) = V m c main_arg0 (ix3 s (⟨t.val * 1024 + r.val, by have := t_lt t; have := r.isLt; omega⟩ : Fin 65536) p) := by
  obtain ⟨a0, a1, a2, -⟩ := idx_facts t
  show V m c main_arg0 (((cfg0.win 0).blk t).view.emb (ix3 s r p)) = _
  refine congrArg (V m c main_arg0) (funext fun a => Fin.ext ?_)
  match a with
  | ⟨0, _⟩ => show win0_0.index t (0 : Fin 3) * 8 + 1 * s.val = s.val; omega
  | ⟨1, _⟩ => show win0_0.index t (1 : Fin 3) * 1024 + 1 * r.val = t.val * 1024 + r.val; omega
  | ⟨2, _⟩ => show win0_0.index t (2 : Fin 3) * 32 + 1 * p.val = p.val; omega

/-- Point `t`'s second activity block is rows `1024·t …` of the second activity array. -/
theorem blk1_apply (c : Dev nD) (t : Fin cfg0.N) (s : Fin 8) (r : Fin 1024) (p : Fin 32) :
    iblk m c 1 t (ix3 s r p) = V m c main_arg1 (ix3 s (⟨t.val * 1024 + r.val, by have := t_lt t; have := r.isLt; omega⟩ : Fin 65536) p) := by
  obtain ⟨-, -, -, b0, b1, b2, -⟩ := idx_facts t
  show V m c main_arg1 (((cfg0.win 1).blk t).view.emb (ix3 s r p)) = _
  refine congrArg (V m c main_arg1) (funext fun a => Fin.ext ?_)
  match a with
  | ⟨0, _⟩ => show win0_1.index t (0 : Fin 3) * 8 + 1 * s.val = s.val; omega
  | ⟨1, _⟩ => show win0_1.index t (1 : Fin 3) * 1024 + 1 * r.val = t.val * 1024 + r.val; omega
  | ⟨2, _⟩ => show win0_1.index t (2 : Fin 3) * 32 + 1 * p.val = p.val; omega

/-- Every point sees the dense feed-forward matrix whole. -/
theorem blk2_apply (c : Dev nD) (t : Fin cfg0.N) (k : Fin 256) (cc : Fin 512) :
    iblk m c 2 t (ix2 k cc) = V m c main_v36 (ix2 k cc) := by
  obtain ⟨-, -, -, -, -, -, c0, c1, -⟩ := idx_facts t
  show V m c main_v36 (((cfg0.win 2).blk t).view.emb (ix2 k cc)) = _
  refine congrArg (V m c main_v36) (funext fun a => Fin.ext ?_)
  match a with
  | ⟨0, _⟩ => show win0_2.index t (0 : Fin 2) * 256 + 1 * k.val = k.val; omega
  | ⟨1, _⟩ => show win0_2.index t (1 : Fin 2) * 512 + 1 * cc.val = cc.val; omega

/-- Every point sees the dense feedback matrix whole. -/
theorem blk3_apply (c : Dev nD) (t : Fin cfg0.N) (k : Fin 256) (cc : Fin 256) :
    iblk m c 3 t (ix2 k cc) = V m c main_v71 (ix2 k cc) := by
  obtain ⟨-, -, -, -, -, -, -, -, d0, d1, -⟩ := idx_facts t
  show V m c main_v71 (((cfg0.win 3).blk t).view.emb (ix2 k cc)) = _
  refine congrArg (V m c main_v71) (funext fun a => Fin.ext ?_)
  match a with
  | ⟨0, _⟩ => show win0_3.index t (0 : Fin 2) * 256 + 1 * k.val = k.val; omega
  | ⟨1, _⟩ => show win0_3.index t (1 : Fin 2) * 256 + 1 * cc.val = cc.val; omega

/-! ## What a point writes back, and the array after the run -/

/-- WHAT POINT `t` WRITES BACK is block `t` of `arrFn` of the arrays as the region finds them. -/
theorem flushed_eq (c : Dev nD) (t : Fin cfg0.N) :
    (dats m 0 c).flushed 4 t = ((cfg0.win 4).blk t).view.read (Elt Ideal)
      (arrFn (V m c main_arg0) (V m c main_arg1) (V m c main_v36) (V m c main_v71)) := by
  rw [Cert.KernelIdeal.Value.flushed4_A, out_block_eq]
  obtain ⟨-, -, -, -, -, -, -, -, -, -, e0, e1, e2⟩ := idx_facts t
  funext j
  refine (blockAt_eq_arrAt (V m c main_arg0) (V m c main_arg1) (V m c main_v36) (V m c main_v71)
    (iblk m c 0 t) (iblk m c 1 t) (iblk m c 2 t) (iblk m c 3 t) t.val (t_lt t)
    (blk0_apply m c t) (blk1_apply m c t) (blk2_apply m c t) (blk3_apply m c t) (j 0) (j 1) (j 2)).trans ?_
  exact arrAt'_congr _ _ _ _
    (by show (j 0).val = win0_4.index t (0 : Fin 3) * 8 + 1 * (j 0).val; omega)
    (by show t.val * 1024 + (j 1).val = win0_4.index t (1 : Fin 3) * 1024 + 1 * (j 1).val; omega)
    (by show (j 2).val = win0_4.index t (2 : Fin 3) * 96 + 1 * (j 2).val; omega)

/-- An index of the result is in point `t`'s block iff each coordinate is in the block's range on its axis. -/
theorem mem_blk (t : Fin cfg0.N) (i : S8x65536x96.Idx) :
    i ∈ ((cfg0.win 4).blk t).view.set ↔ ∀ a : Fin 3, win0_4.index t a * S8x1024x96.size a ≤ (i a).val ∧ (i a).val < win0_4.index t a * S8x1024x96.size a + S8x1024x96.size a := by
  show i ∈ ((View.whole main_v72).slice (win0_4.rect t)).set ↔ _
  rw [View.set_slice_whole, Rect.mem_set_unit]
  exact Iff.rfl

/-- THE ARRAY after the run: the point `b / 1024` covers batch row `b`. -/
theorem final (c : Dev nD) : (dats m 0 c).arrAt 4 cfg0.N
    = arrFn (V m c main_arg0) (V m c main_arg1) (V m c main_v36) (V m c main_v71) :=
  (dats m 0 c).arrAt_eq_of_cover 4 _ (fun t _ => flushed_eq m c t) fun i => by
    have hi0 : (i 0).val < 8 := (i 0).isLt
    have hi1 : (i 1).val < 65536 := (i 1).isLt
    have hi2 : (i 2).val < 96 := (i 2).isLt
    let t : Fin cfg0.N := ⟨(i 1).val / 1024, by rw [show cfg0.N = 64 from N_0]; omega⟩
    obtain ⟨-, -, -, -, -, -, -, -, -, -, e0, e1, e2⟩ := idx_facts t
    have e1' : win0_4.index t (1 : Fin 3) = (i 1).val / 1024 := e1
    refine ⟨t, flush0_4 t, (mem_blk t i).mpr fun a => ?_⟩
    match a with
    | ⟨0, _⟩ => show win0_4.index t (0 : Fin 3) * 8 ≤ (i 0).val ∧ (i 0).val < win0_4.index t (0 : Fin 3) * 8 + 8; omega
    | ⟨1, _⟩ => show win0_4.index t (1 : Fin 3) * 1024 ≤ (i 1).val ∧ (i 1).val < win0_4.index t (1 : Fin 3) * 1024 + 1024; omega
    | ⟨2, _⟩ => show win0_4.index t (2 : Fin 3) * 96 ≤ (i 2).val ∧ (i 2).val < win0_4.index t (2 : Fin 3) * 96 + 96; omega

/-- The run, read: the result array at `arrFn` of the region's arrays, the arguments unchanged. -/
theorem kernel_run : θ_run defs (onTc (τ := τ) (main (F := Ideal))) ⟨m, fun _ => 0, ρ⟩ fun r => ∀ c : Dev nD,
      r.2.mem ((c : Thread nD τ).loc main_v72) = arrFn (V m c main_arg0) (V m c main_arg1) (V m c main_v36) (V m c main_v71)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.Synapse

end
-- ==== Proof.PreFacts.lean ====
/-
  The precondition, read back as facts about the arguments.

  The precondition is one bit: the conjunction of twelve "for all entries" tests. Four of them say, for a float
  array, that the absolute value of every entry is strictly below +∞; in the extended reals that leaves exactly
  the real numbers, since both infinities have absolute value +∞. The other eight come in pairs, one pair for
  each array of edge words: every word is at least 0 and every word is below 8, both read as signed integers.
  A 32-bit word that is non-negative as a signed integer has the same value unsigned, so the pair says that the
  word, read unsigned, is below 8: it names one of the eight columns.

  A "for all entries" test is a reduction by "and" over every axis; its result has a single index, and when the
  result is 1 every entry reduced into it was 1.
-/
import proofs.«401551_j56624848830930_3_alg».proof.Proof.Gen.Pre_finite_inputs
import proofs.«401551_j56624848830930_3_alg».proof.Proof.Spec
import Idealize.ShloMosaic.Lib.ReduceAll
import Idealize.ShloMosaic.Lib.IdealHost

noncomputable section

namespace Cert.Synapse

open Idealize.ShloMosaic Idealize.ShloMosaic.ValueIdx

/-- The rank-0 shape has one index. -/
instance : Subsingleton Cert.Pre_finite_inputs.S_.Idx := ⟨fun a b => funext fun d => d.elim0⟩

/-- The pattern with all exponent bits set, sign and significand clear, is +∞. -/
theorem ofBits_inf : Ideal.ofBits .f32 0x7F800000#32 = (⊤ : EReal) := by
  simp [Ideal.ofBits, Ideal.ieee]

/-- An extended real whose absolute value is below +∞ is a real number: both infinities have absolute value +∞. -/
theorem real_of_abs_lt_top (x : EReal) (h : max x (-x) < ⊤) : ∃ r : ℝ, x = (r : EReal) := by
  induction x using EReal.rec with
  | bot => simp at h
  | coe r => exact ⟨r, rfl⟩
  | top => simp at h

/-- A one-bit word made from a Boolean is 1 exactly when the Boolean is true. -/
theorem ofBool_one (b : Bool) : BitVec.ofBool b = 1#1 ↔ b = true := by cases b <;> decide

/-- A word that is at least 0 and below 8 as a signed integer is below 8 unsigned: were its top bit set it would
    read as a negative integer. -/
theorem toNat_lt_eight (w : BitVec 32) (h0 : IntOp.cmpi .sge w 0#32 = 1#1) (h8 : IntOp.cmpi .slt w 8#32 = 1#1) :
    w.toNat < 8 := by
  have a0 : (0#32 : BitVec 32).toInt ≤ w.toInt := BitVec.sle_iff_toInt_le.1 ((ofBool_one _).1 h0)
  have a8 : w.toInt < (8#32 : BitVec 32).toInt := BitVec.slt_iff_toInt_lt.1 ((ofBool_one _).1 h8)
  have z0 : (0#32 : BitVec 32).toInt = 0 := by decide
  have z8 : (8#32 : BitVec 32).toInt = 8 := by decide
  have hw := w.isLt
  rw [z0] at a0
  rw [z8] at a8
  rw [BitVec.toInt_eq_toNat_cond] at a0 a8
  split at a0 <;> omega

open Cert.Pre_finite_inputs (S_) in
/-- A float array whose "every |entry| is strictly below +∞" test came out 1 holds real numbers only. -/
theorem allReal_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf x) (broadcastInDim s ![] hb (constant (F := Ideal) S_ .f32 0x7F800000#32))) init hr hu j
        = 1#1) :
    AllReal x := by
  intro i
  -- the test at entry i: the comparison of |x i| with the constant, as a one-bit word
  have hi : BitVec.ofBool (decide (max (x i) (-(x i)) < Ideal.ofBits .f32 0x7F800000#32)) = 1#1 :=
    Host.reduce_andi_all _ init hr hu j e i
  rw [ofBool_one, decide_eq_true_eq, ofBits_inf] at hi
  exact real_of_abs_lt_top _ hi

open Cert.Pre_finite_inputs (S_) in
/-- An array of edge words whose two tests "every word ≥ 0" and "every word < 8" (signed) came out 1 is ranged. -/
theorem ranged_of_all {axes : List (Fin SEdge.rank)} (v : IVec SEdge 32)
    (hb : S_.BroadcastsInDim SEdge (![] : Fin 0 → Fin SEdge.rank)) (hr : SEdge.ReducesTo axes S_) (hu : 0 < S_.numel)
    (i0 i8 : IVec S_ 1) (j : S_.Idx)
    (e0 : Host.reduce IntOp.andi (cmpi .sge v (broadcastInDim SEdge ![] hb (constantI S_ 32 0#32))) i0 hr hu j = 1#1)
    (e8 : Host.reduce IntOp.andi (cmpi .slt v (broadcastInDim SEdge ![] hb (constantI S_ 32 8#32))) i8 hr hu j = 1#1) :
    Ranged v := fun e =>
  -- at word e both comparisons are against the broadcast scalar, which reads the constant everywhere
  toNat_lt_eight (v (ix1 e)) (Host.reduce_andi_all _ i0 hr hu j e0 (ix1 e)) (Host.reduce_andi_all _ i8 hr hu j e8 (ix1 e))

/-- The precondition read back: the four float arrays hold reals, the four arrays of edge words name columns. -/
theorem facts_of_pre [Cert.Pre_finite_inputs.Facts] (a0 a1 : FVec Ideal SAct .f32) (a2 : FVec Ideal SWff .f32)
    (a3 : FVec Ideal SWfb .f32) (a4 a5 a6 a7 : IVec SEdge 32)
    (h : Cert.Pre_finite_inputs.fn (F := Ideal) a0 a1 a2 a3 a4 a5 a6 a7 = fun _ => 1#1) :
    AllReal a0 ∧ AllReal a1 ∧ AllReal a2 ∧ AllReal a3 ∧ Ranged a4 ∧ Ranged a5 ∧ Ranged a6 ∧ Ranged a7 := by
  have h1 := congrFun h ix0
  dsimp only [Cert.Pre_finite_inputs.fn, Cert.Pre_finite_inputs.fn_part1, Cert.Pre_finite_inputs.fn_part2,
    Cert.Pre_finite_inputs.fn_part3, andi] at h1
  -- the one bit is a left-nested conjunction of the twelve tests
  simp only [IntOp.andi_eq_one] at h1
  obtain ⟨⟨⟨⟨⟨⟨⟨⟨⟨⟨⟨f0, f1⟩, f2⟩, f3⟩, l4⟩, u4⟩, l5⟩, u5⟩, l6⟩, u6⟩, l7⟩, u7⟩ := h1
  exact ⟨allReal_of_all a0 _ _ _ _ _ f0, allReal_of_all a1 _ _ _ _ _ f1, allReal_of_all a2 _ _ _ _ _ f2,
    allReal_of_all a3 _ _ _ _ _ f3, ranged_of_all a4 _ _ _ _ _ _ l4 u4, ranged_of_all a5 _ _ _ _ _ _ l5 u5,
    ranged_of_all a6 _ _ _ _ _ _ l6 u6, ranged_of_all a7 _ _ _ _ _ _ l7 u7⟩

end Cert.Synapse

end
-- ==== Proof.DenseSum.lean ====
/-
  The algebraic law behind the dense block matrix.

  A row of activities, the eight columns side by side, against column (t, q) of the dense block matrix equals the
  sum of the messages of the edges into t:

    ∑ k, x[k / 32, b, k % 32] · (∑ e with src e = k / 32 and tgt e = t, w[e, q, k % 32])
      = ∑ e with tgt e = t, ∑ p, x[src e, b, p] · w[e, q, p].

  The index k of a row of the matrix is split as k = 32·s + p. For real entries the left side distributes
  (x · ∑ = ∑ x ·), the sums over p and over e change places, inside the fibre src e = s the factor x[s, b, p] is
  x[src e, b, p], and the sum over s of the sums over the fibres src e = s is the sum over all edges into t.
  Distribution is where finiteness matters: on the extended reals x · (a + b) = x · a + x · b can fail at the
  infinities, so the law is first proved over ℝ and then carried over along the coercion ℝ → EReal, which respects
  products and finite sums.
-/
import proofs.«401551_j56624848830930_3_alg».proof.Proof.Spec
import Mathlib.Data.EReal.Basic
import Mathlib.Data.Fintype.BigOperators
import Mathlib.Logic.Equiv.Fin.Basic
import Mathlib.Algebra.BigOperators.Group.Finset.Basic
import Mathlib.Algebra.BigOperators.Ring.Finset

noncomputable section

open scoped BigOperators

namespace Cert.Synapse

open Idealize.ShloMosaic Idealize.ShloMosaic.ValueIdx

namespace DenseSum

/-- The coercion of the reals into the extended reals commutes with finite sums. -/
theorem coe_finset_sum {ι : Type*} (S : Finset ι) (f : ι → ℝ) :
    (∑ i ∈ S, (f i : EReal)) = ((∑ i ∈ S, f i : ℝ) : EReal) := by
  classical
  induction S using Finset.induction_on with
  | empty => simp
  | insert a S ha ih => rw [Finset.sum_insert ha, Finset.sum_insert ha, ih, EReal.coe_add]

/-- The law over the reals, for abstract families: activities x' s p of column s, weights w' e p of edge e.
    Summing, over all (s, p), x' s p against the total weight of the edges from s to t gives the sum over the edges
    into t of the dot products of the source's activities with the edge's weights. -/
theorem real_dense_law (x' : Fin 8 → Fin 32 → ℝ) (w' : Fin 28 → Fin 32 → ℝ) (src tgt : Fin 28 → Fin 8) (t : Fin 8) :
    ∑ s : Fin 8, ∑ p : Fin 32, x' s p * (∑ e ∈ Finset.univ.filter (fun e : Fin 28 => src e = s ∧ tgt e = t), w' e p)
      = ∑ e ∈ Finset.univ.filter (fun e : Fin 28 => tgt e = t), ∑ p : Fin 32, x' (src e) p * w' e p := by
  classical
  -- for one source column s: distribute, exchange the sums over p and e, and read x' s p as x' (src e) p in the fibre
  have h1 : ∀ s : Fin 8,
      ∑ p : Fin 32, x' s p * (∑ e ∈ Finset.univ.filter (fun e : Fin 28 => src e = s ∧ tgt e = t), w' e p)
        = ∑ e ∈ (Finset.univ.filter (fun e : Fin 28 => tgt e = t)).filter (fun e => src e = s),
            ∑ p : Fin 32, x' (src e) p * w' e p := by
    intro s
    simp_rw [Finset.mul_sum]
    rw [Finset.sum_comm, Finset.filter_filter]
    refine Finset.sum_congr ?_ (fun e he => ?_)
    · ext e
      simp only [Finset.mem_filter, Finset.mem_univ, true_and]
      exact and_comm
    · have hs : src e = s := (Finset.mem_filter.mp he).2.2
      rw [hs]
  simp_rw [h1]
  -- the fibres src e = s, s ranging over all columns, partition the edges into t
  exact Finset.sum_fiberwise _ _ _

/-- A sum over the 256 rows of the matrix, split by source column s and input unit p: row 32·s + p. -/
theorem sum_rows {M : Type*} [AddCommMonoid M] (f : Fin 256 → M) :
    ∑ k : Fin 256, f k
      = ∑ s : Fin 8, ∑ p : Fin 32, f ⟨32 * s.val + p.val, by have := s.isLt; have := p.isLt; omega⟩ := by
  rw [← Fintype.sum_prod_type' (f := fun (s : Fin 8) (p : Fin 32) =>
        f ⟨32 * s.val + p.val, by have := s.isLt; have := p.isLt; omega⟩)]
  symm
  refine Fintype.sum_equiv (finProdFinEquiv (m := 8) (n := 32)) _ _ ?_
  rintro ⟨s, p⟩
  congr 1
  exact Fin.ext (Nat.add_comm _ _)

/-- Column t·Q + q of the matrix belongs to target column t … -/
theorem col_div {Q : Nat} (hQ : 0 < Q) (t : Fin 8) (q : Fin Q) : (t.val * Q + q.val) / Q = t.val := by
  rw [Nat.add_comm, Nat.add_mul_div_right _ _ hQ, Nat.div_eq_of_lt q.isLt, Nat.zero_add]

/-- … and to its output unit q. -/
theorem col_mod {Q : Nat} (t : Fin 8) (q : Fin Q) : (t.val * Q + q.val) % Q = q.val := by
  rw [Nat.add_comm, Nat.add_mul_mod_self_right, Nat.mod_eq_of_lt q.isLt]

/-- The entry of the dense matrix at row 32·s + p and column t·Q + q: the weights w[e, q, p] of the edges from
    s to t, added. -/
theorem dense_at {Q : Nat} (hQ : 0 < Q) (w : (⟨3, ![28, Q, 32]⟩ : Shape).Idx → EReal) (src tgt : Fin 28 → Fin 8)
    (s : Fin 8) (p : Fin 32) (t : Fin 8) (q : Fin Q) (hk : 32 * s.val + p.val < 256) (hc : t.val * Q + q.val < 8 * Q) :
    dense hQ w src tgt ⟨32 * s.val + p.val, hk⟩ ⟨t.val * Q + q.val, hc⟩
      = ∑ e ∈ Finset.univ.filter (fun e : Fin 28 => src e = s ∧ tgt e = t), w (ix3 e q p) := by
  have h1 : (32 * s.val + p.val) / 32 = s.val := by have := p.isLt; omega
  have h2 : (32 * s.val + p.val) % 32 = p.val := by have := p.isLt; omega
  have e1 : (⟨(t.val * Q + q.val) % Q, Nat.mod_lt _ hQ⟩ : Fin Q) = q := Fin.ext (col_mod t q)
  have e2 : (⟨(32 * s.val + p.val) % 32, Nat.mod_lt _ (by decide)⟩ : Fin 32) = p := Fin.ext h2
  unfold dense
  refine Finset.sum_congr ?_ (fun e _ => ?_)
  · ext e
    simp only [Finset.mem_filter, Finset.mem_univ, true_and, Fin.ext_iff, h1, col_div hQ t q]
  · simp only [e1, e2]

end DenseSum

open DenseSum in
/-- A row of activities against column (t, q) of the dense block matrix is the sum of the edge messages into t,
    when all entries are real. -/
theorem rowDot_dense_eq_msgSum {Q : Nat} (hQ : 0 < Q) (x : SAct.Idx → EReal) (w : (⟨3, ![28, Q, 32]⟩ : Shape).Idx → EReal)
    (hx : AllReal x) (hw : AllReal w) (src tgt : Fin 28 → Fin 8) (t : Fin 8) (b : Fin 65536) (q : Fin Q) :
    rowDot x (dense hQ w src tgt) t b q = msgSum x w src tgt t b q := by
  classical
  -- every entry is the coercion of a real number
  choose rx hrx using hx
  choose rw' hrw using hw
  -- the right side is the coercion of the real right side of the law
  have hR : msgSum x w src tgt t b q
      = ((∑ e ∈ Finset.univ.filter (fun e : Fin 28 => tgt e = t),
            ∑ p : Fin 32, rx (ix3 (src e) b p) * rw' (ix3 e q p) : ℝ) : EReal) := by
    unfold msgSum
    rw [← coe_finset_sum]
    refine Finset.sum_congr rfl (fun e _ => ?_)
    rw [← coe_finset_sum]
    refine Finset.sum_congr rfl (fun p _ => ?_)
    rw [hrx, hrw, EReal.coe_mul]
  -- the left side, rows split as 32·s + p, is the coercion of the real left side
  have hL : rowDot x (dense hQ w src tgt) t b q
      = ((∑ s : Fin 8, ∑ p : Fin 32, rx (ix3 s b p)
            * ∑ e ∈ Finset.univ.filter (fun e : Fin 28 => src e = s ∧ tgt e = t), rw' (ix3 e q p) : ℝ) : EReal) := by
    unfold rowDot
    rw [sum_rows, ← coe_finset_sum]
    refine Finset.sum_congr rfl (fun s _ => ?_)
    rw [← coe_finset_sum]
    refine Finset.sum_congr rfl (fun p _ => ?_)
    have h1 : (32 * s.val + p.val) / 32 = s.val := by have := p.isLt; omega
    have h2 : (32 * s.val + p.val) % 32 = p.val := by have := p.isLt; omega
    have e1 : ∀ h, (⟨(32 * s.val + p.val) / 32, h⟩ : Fin 8) = s := fun _ => Fin.ext h1
    have e2 : ∀ h, (⟨(32 * s.val + p.val) % 32, h⟩ : Fin 32) = p := fun _ => Fin.ext h2
    rw [dense_at hQ w src tgt s p t q]
    simp only [e1, e2]
    rw [EReal.coe_mul, ← coe_finset_sum, hrx]
    congr 1
    exact Finset.sum_congr rfl (fun e _ => hrw _)
  rw [hL, hR, real_dense_law]

/-- The same law under the name the interface's description uses. -/
theorem dense_dot_eq_msgSum {Q : Nat} (hQ : 0 < Q) (x : SAct.Idx → EReal) (w : (⟨3, ![28, Q, 32]⟩ : Shape).Idx → EReal)
    (hx : AllReal x) (hw : AllReal w) (src tgt : Fin 28 → Fin 8) (t : Fin 8) (b : Fin 65536) (q : Fin Q) :
    rowDot x (dense hQ w src tgt) t b q = msgSum x w src tgt t b q :=
  rowDot_dense_eq_msgSum hQ x w hx hw src tgt t b q

end Cert.Synapse

end
-- ==== Proof.LibScatterRows.lean ====
/-
  The host's accumulating scatter and its row gather, read at one index, over the extended reals.

  An accumulating scatter adds to each element of its operand the sum of the update elements that land on it. An update
  element lands on the element whose coordinate, on every axis, is the update's start (an entry of the index array read
  as a SIGNED integer, and not clamped) plus its window coordinate; when that point is outside the operand on some axis
  the update is dropped. `resultIdx?_eq_some_iff` says this for any dimension numbers: landing on `i` is the system of
  equations "start + window = coordinate of `i`", one per axis, the range conditions being `i`'s own.

  Two shapes of dimension numbers are then solved, for sizes that are variables.
  * POINTS: updates `[N]`, index pairs `[N, 2]`, operand `[A, B]`. Update `j` lands on `(p, q)` iff its pair is
    `(p, q)`, so element `(p, q)` of the result is `x (p, q) + ∑ {j | pair j = (p, q)} upd j`
    (`scatterAdd_point_apply`).
  * ROWS: updates `[N, C]`, row indices `[N, 1]`, operand `[A, C]`. Element `(j, b')` of the updates lands on
    `(p, b)` iff row `j`'s index is `p` and `b' = b`, so element `(p, b)` of the result is
    `x (p, b) + ∑ {j | index j = p} upd (j, b)` (`scatterAdd_rows_apply`): the sum over update elements collapses
    onto column `b`.
  Last, the gather that takes rows of a table `[A, C]` at indices `[N, 1]`: element `(j, b)` of the result is the table
  at row `min (index j)⁺ (A − 1)` and column `b`, the index read signed and clamped into the table (`gather_rows_apply`).
-/
import Idealize.ShloMosaic.PureOps.Ideal
import Idealize.ShloMosaic.Lib.ValueIdx

noncomputable section

open scoped BigOperators

namespace Cert.ScatterRows

open Idealize.ShloMosaic Idealize.ShloMosaic.ValueIdx

/-- An update lands on element `i` exactly when, on every axis, its signed start plus its window coordinate
    is `i`'s coordinate: the range conditions are then `i`'s own. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hr
      have hi := congrFun (Option.some.inj h) a
      have hv := congrArg Fin.val hi
      simp only at hv
      have := (hr a).1
      omega
    · exact absurd h (by simp)
  · intro h
    have hr : ∀ a, 0 ≤ d.start j idx a + (d.window j a : Int) ∧ d.start j idx a + (d.window j a : Int) < s.size a := by
      intro a
      have := h a
      have := (i a).isLt
      omega
    rw [dif_pos hr]
    congr 1
    funext a
    refine Fin.ext ?_
    have := h a
    simp only
    omega

/-! ## One scalar update per index pair -/

/-- one scalar update per index pair: updates [N], indices [N,2] (index vector on axis 1), operand [A,B] -/
abbrev pointDims (A B N : Nat) (wf : ScatterDims.WF ⟨2, ![A, B]⟩ ⟨2, ![N, 2]⟩ ⟨1, ![N]⟩ [] [0, 1] [0, 1] 1) :
    ScatterDims ⟨2, ![A, B]⟩ ⟨2, ![N, 2]⟩ ⟨1, ![N]⟩ := ⟨[], [0, 1], [0, 1], 1, wf⟩

section Point
variable {A B N w : Nat} (wf : ScatterDims.WF ⟨2, ![A, B]⟩ ⟨2, ![N, 2]⟩ ⟨1, ![N]⟩ [] [0, 1] [0, 1] 1)

/-- Update `j` reads component `k` of its index pair at position `(j, k)` of the index array. -/
theorem point_siIdx (j : Fin N) (c : Fin (pointDims A B N wf).scatterDimsToOperandDims.length) (k : Fin 2)
    (hc : c.val = k.val) : (pointDims A B N wf).siIdx (ix1 j) c = ix2 j k := by
  funext b; refine Fin.ext ?_
  match b with
  | ⟨0, _⟩ => rfl
  | ⟨1, _⟩ => exact hc

/-- On the operand's first axis the start is the pair's first component, read signed. -/
theorem point_start0 (idx : IVec ⟨2, ![N, 2]⟩ w) (j : Fin N) :
    (pointDims A B N wf).start (ix1 j) idx (0 : Fin 2) = (idx (ix2 j (0 : Fin 2))).toInt := by
  unfold ScatterDims.start
  rw [dif_pos (show (0 : Fin 2) ∈ (pointDims A B N wf).scatterDimsToOperandDims from List.mem_cons_self)]
  rw [point_siIdx wf j _ (0 : Fin 2)]
  rfl

/-- On the operand's second axis the start is the pair's second component, read signed. -/
theorem point_start1 (idx : IVec ⟨2, ![N, 2]⟩ w) (j : Fin N) :
    (pointDims A B N wf).start (ix1 j) idx (1 : Fin 2) = (idx (ix2 j (1 : Fin 2))).toInt := by
  unfold ScatterDims.start
  rw [dif_pos (show (1 : Fin 2) ∈ (pointDims A B N wf).scatterDimsToOperandDims from List.mem_cons_of_mem _ List.mem_cons_self)]
  rw [point_siIdx wf j _ (1 : Fin 2)]
  rfl

/-- Both operand axes are inserted: a scalar update has no window coordinate. -/
theorem point_window (j : (⟨1, ![N]⟩ : Shape).Idx) (a : Fin 2) : (pointDims A B N wf).window j a = 0 := by
  unfold ScatterDims.window
  rw [dif_neg (show a ∉ (pointDims A B N wf).sKept from by
    have : (pointDims A B N wf).sKept = [] := rfl
    rw [this]; exact List.not_mem_nil)]

/-- Update `j` lands on `(p, q)` exactly when its index pair, read signed, is `(p, q)`. -/
theorem point_resultIdx?_iff (idx : IVec ⟨2, ![N, 2]⟩ w) (j : Fin N) (p : Fin A) (q : Fin B) :
    (pointDims A B N wf).resultIdx? (ix1 j) idx = some (ix2 p q)
      ↔ (idx (ix2 j (0 : Fin 2))).toInt = (p.val : Int) ∧ (idx (ix2 j (1 : Fin 2))).toInt = (q.val : Int) := by
  rw [resultIdx?_eq_some_iff, Fin.forall_fin_two, point_start0, point_start1, point_window, point_window]
  simp only [Nat.cast_zero, add_zero]

end Point

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- THE POINT SCATTER READ AT `(p, q)`: the operand's element plus the sum of the updates whose index pair, read
    signed, is `(p, q)`; an update whose pair is outside the operand is in no such sum. -/
theorem scatterAdd_point_apply {A B N w : Nat} {φ : FTy} (wf : ScatterDims.WF ⟨2, ![A, B]⟩ ⟨2, ![N, 2]⟩ ⟨1, ![N]⟩ [] [0, 1] [0, 1] 1)
    (x : FVec Ideal ⟨2, ![A, B]⟩ φ) (idx : IVec ⟨2, ![N, 2]⟩ w) (upd : FVec Ideal ⟨1, ![N]⟩ φ) (p : Fin A) (q : Fin B) :
    Host.scatterAdd (pointDims A B N wf) x idx upd (ix2 p q)
      = x (ix2 p q) + ∑ j ∈ Finset.univ.filter (fun j : Fin N => (idx (ix2 j (0 : Fin 2))).toInt = (p.val : Int) ∧ (idx (ix2 j (1 : Fin 2))).toInt = (q.val : Int)), upd (ix1 j) := by
  show Ideal.hostScatterAdd (pointDims A B N wf) x idx upd (ix2 p q) = _
  unfold Ideal.hostScatterAdd
  congr 1
  refine Finset.sum_equiv idxEquiv1 ?_ ?_
  · intro j'
    obtain ⟨j, rfl⟩ : ∃ j, j' = ix1 j := ⟨j' 0, eq_ix1 j'⟩
    simp only [Finset.mem_filter, Finset.mem_univ, true_and]
    exact point_resultIdx?_iff wf idx j p q
  · intro j' _
    exact congrArg upd (eq_ix1 j')

/-! ## One row update per index -/

/-- one row update per index: updates [N,C] (window axis 1), indices [N,1] (index vector on axis 1), operand [A,C], rows inserted on axis 0 -/
abbrev rowDims (A C N : Nat) (wf : ScatterDims.WF ⟨2, ![A, C]⟩ ⟨2, ![N, 1]⟩ ⟨2, ![N, C]⟩ [1] [0] [0] 1) :
    ScatterDims ⟨2, ![A, C]⟩ ⟨2, ![N, 1]⟩ ⟨2, ![N, C]⟩ := ⟨[1], [0], [0], 1, wf⟩

section Rows
variable {A C N w : Nat} (wf : ScatterDims.WF ⟨2, ![A, C]⟩ ⟨2, ![N, 1]⟩ ⟨2, ![N, C]⟩ [1] [0] [0] 1)

/-- Every element of update row `j` reads its one start component at position `(j, 0)` of the index array. -/
theorem rows_siIdx (j : Fin N) (b : Fin C) (c : Fin (rowDims A C N wf).scatterDimsToOperandDims.length) :
    (rowDims A C N wf).siIdx (ix2 j b) c = ix2 j (0 : Fin 1) := by
  funext k; refine Fin.ext ?_
  match k with
  | ⟨0, _⟩ => rfl
  | ⟨1, _⟩ =>
    show c.val = 0
    have : c.val < 1 := c.isLt
    omega

/-- On the row axis the start is the row index, read signed. -/
theorem rows_start0 (idx : IVec ⟨2, ![N, 1]⟩ w) (j : Fin N) (b : Fin C) :
    (rowDims A C N wf).start (ix2 j b) idx (0 : Fin 2) = (idx (ix2 j (0 : Fin 1))).toInt := by
  unfold ScatterDims.start
  rw [dif_pos (show (0 : Fin 2) ∈ (rowDims A C N wf).scatterDimsToOperandDims from List.mem_cons_self)]
  rw [rows_siIdx]

/-- The column axis is not indexed: its start is zero. -/
theorem rows_start1 (idx : IVec ⟨2, ![N, 1]⟩ w) (j : Fin N) (b : Fin C) :
    (rowDims A C N wf).start (ix2 j b) idx (1 : Fin 2) = 0 := by
  unfold ScatterDims.start
  rw [dif_neg (show (1 : Fin 2) ∉ (rowDims A C N wf).scatterDimsToOperandDims from by
    show (1 : Fin 2) ∉ ([0] : List (Fin 2))
    decide)]

/-- The row axis is inserted: no window coordinate there. -/
theorem rows_window0 (j : Fin N) (b : Fin C) : (rowDims A C N wf).window (ix2 j b) (0 : Fin 2) = 0 := by
  unfold ScatterDims.window
  rw [dif_neg (show (0 : Fin 2) ∉ (rowDims A C N wf).sKept from by
    show (0 : Fin 2) ∉ ([1] : List (Fin 2))
    decide)]

/-- On the column axis the window coordinate is the update's column. -/
theorem rows_window1 (j : Fin N) (b : Fin C) : (rowDims A C N wf).window (ix2 j b) (1 : Fin 2) = b.val := by
  unfold ScatterDims.window
  rw [dif_pos (show (1 : Fin 2) ∈ (rowDims A C N wf).sKept from by
    have : (rowDims A C N wf).sKept = [1] := rfl
    rw [this]; exact List.mem_cons_self)]
  rfl

/-- An update element lands on `(p, b)` exactly when its row's index, read signed, is `p` and its column is `b`. -/
theorem rows_resultIdx?_iff (idx : IVec ⟨2, ![N, 1]⟩ w) (j' : (⟨2, ![N, C]⟩ : Shape).Idx) (p : Fin A) (b : Fin C) :
    (rowDims A C N wf).resultIdx? j' idx = some (ix2 p b)
      ↔ (idx (ix2 (j' 0) (0 : Fin 1))).toInt = (p.val : Int) ∧ j' 1 = b := by
  obtain ⟨j, b', rfl⟩ : ∃ j b', j' = ix2 j b' := ⟨j' 0, j' 1, eq_ix2 j'⟩
  show _ ↔ (idx (ix2 j (0 : Fin 1))).toInt = (p.val : Int) ∧ b' = b
  rw [resultIdx?_eq_some_iff, Fin.forall_fin_two, rows_start0, rows_start1, rows_window0, rows_window1]
  simp only [Nat.cast_zero, add_zero, zero_add]
  constructor
  · rintro ⟨h0, h1⟩
    exact ⟨h0, Fin.ext (Int.ofNat_inj.mp h1)⟩
  · rintro ⟨h0, rfl⟩
    exact ⟨h0, rfl⟩

end Rows

/-- THE ROW SCATTER READ AT `(p, b)`: the operand's element plus the sum, over the update rows whose index read
    signed is `p`, of that row's element in column `b`; a row whose index is outside the operand is in no such sum. -/
theorem scatterAdd_rows_apply {A C N w : Nat} {φ : FTy} (wf : ScatterDims.WF ⟨2, ![A, C]⟩ ⟨2, ![N, 1]⟩ ⟨2, ![N, C]⟩ [1] [0] [0] 1)
    (x : FVec Ideal ⟨2, ![A, C]⟩ φ) (idx : IVec ⟨2, ![N, 1]⟩ w) (upd : FVec Ideal ⟨2, ![N, C]⟩ φ) (p : Fin A) (b : Fin C) :
    Host.scatterAdd (rowDims A C N wf) x idx upd (ix2 p b)
      = x (ix2 p b) + ∑ j ∈ Finset.univ.filter (fun j : Fin N => (idx (ix2 j (0 : Fin 1))).toInt = (p.val : Int)), upd (ix2 j b) := by
  show Ideal.hostScatterAdd (rowDims A C N wf) x idx upd (ix2 p b) = _
  unfold Ideal.hostScatterAdd
  congr 1
  have hcol : ∀ j' ∈ Finset.univ.filter (fun j' => (rowDims A C N wf).resultIdx? j' idx = some (ix2 p b)),
      ix2 (j' 0) b = j' := by
    intro j' hj'
    rw [Finset.mem_filter] at hj'
    have h := ((rows_resultIdx?_iff wf idx j' p b).mp hj'.2).2
    rw [← h]
    exact (eq_ix2 j').symm
  refine Finset.sum_nbij' (fun j' => j' 0) (fun j => ix2 j b) ?_ ?_ ?_ ?_ ?_
  · intro j' hj'
    rw [Finset.mem_filter] at hj'
    exact Finset.mem_filter.mpr ⟨Finset.mem_univ _, ((rows_resultIdx?_iff wf idx j' p b).mp hj'.2).1⟩
  · intro j hj
    rw [Finset.mem_filter] at hj
    exact Finset.mem_filter.mpr ⟨Finset.mem_univ _, (rows_resultIdx?_iff wf idx (ix2 j b) p b).mpr ⟨hj.2, rfl⟩⟩
  · exact hcol
  · intro j _
    rfl
  · intro j' hj'
    exact congrArg upd (hcol j' hj').symm

/-! ## Taking rows of a table -/

/-- take rows of a table [A,C] at indices [N,1]: result [N,C]; offset_dims [1], collapsed [0], start_index_map [0], index vector on axis 1, slice sizes [1, C] -/
abbrev rowGather (A C N : Nat) (wf : GatherDims.WF ⟨2, ![A, C]⟩ ⟨2, ![N, 1]⟩ ⟨2, ![N, C]⟩ [1] [0] [] [0] [] 1 ![1, C]) :
    GatherDims ⟨2, ![A, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

section Gather
variable {A C N w : Nat} (wf : GatherDims.WF ⟨2, ![A, C]⟩ ⟨2, ![N, 1]⟩ ⟨2, ![N, C]⟩ [1] [0] [] [0] [] 1 ![1, C])

/-- Every element of result row `j` reads its one start component at position `(j, 0)` of the index array. -/
theorem gather_siIdx (j : Fin N) (b : Fin C) (c : Fin (rowGather A C N wf).startIndexMap.length) :
    (rowGather A C N wf).siIdx (ix2 j b) c = ix2 j (0 : Fin 1) := by
  funext k; refine Fin.ext ?_
  match k with
  | ⟨0, _⟩ => rfl
  | ⟨1, _⟩ =>
    show c.val = 0
    have : c.val < 1 := c.isLt
    omega

/-- On the row axis the operand coordinate is the row index, read signed and clamped into `[0, A − 1]`. -/
theorem gather_coord0 (idx : IVec ⟨2, ![N, 1]⟩ w) (j : Fin N) (b : Fin C) :
    (rowGather A C N wf).start (ix2 j b) idx (0 : Fin 2) + (rowGather A C N wf).batchCoord (ix2 j b) (0 : Fin 2)
        + (rowGather A C N wf).offCoord (ix2 j b) (0 : Fin 2)
      = min (idx (ix2 j (0 : Fin 1))).toInt.toNat (A - 1) := by
  rw [GatherDims.batchCoord_eq_zero _ _ _ List.not_mem_nil,
    GatherDims.offCoord_eq_zero _ _ _ (fun h => ((GatherDims.mem_sKept _ _).mp h).1 List.mem_cons_self)]
  simp only [Nat.add_zero]
  unfold GatherDims.start
  rw [dif_pos (show (0 : Fin 2) ∈ (rowGather A C N wf).startIndexMap from List.mem_cons_self)]
  rw [gather_siIdx]
  rfl

/-- On the column axis the operand coordinate is the result's column. -/
theorem gather_coord1 (idx : IVec ⟨2, ![N, 1]⟩ w) (j : Fin N) (b : Fin C) :
    (rowGather A C N wf).start (ix2 j b) idx (1 : Fin 2) + (rowGather A C N wf).batchCoord (ix2 j b) (1 : Fin 2)
        + (rowGather A C N wf).offCoord (ix2 j b) (1 : Fin 2)
      = b.val := by
  have hs : (rowGather A C N wf).start (ix2 j b) idx (1 : Fin 2) = 0 := by
    unfold GatherDims.start
    rw [dif_neg (show (1 : Fin 2) ∉ (rowGather A C N wf).startIndexMap from by
      show (1 : Fin 2) ∉ ([0] : List (Fin 2))
      decide)]
  rw [hs, GatherDims.batchCoord_eq_zero _ _ _ List.not_mem_nil]
  simp only [Nat.add_zero, Nat.zero_add]
  unfold GatherDims.offCoord
  rw [dif_pos (show (1 : Fin 2) ∈ (rowGather A C N wf).sKept from by
    rw [GatherDims.mem_sKept]
    exact ⟨by show (1 : Fin 2) ∉ ([0] : List (Fin 2)); decide, List.not_mem_nil⟩)]
  rfl

end Gather

/-- THE ROW GATHER READ AT `(j, b)`: the table's element in column `b` of the row whose number is index `j`, read
    signed and clamped into `[0, A − 1]`. -/
theorem gather_rows_apply {α : Type} {A C N w : Nat} (hA : 0 < A) (wf : GatherDims.WF ⟨2, ![A, C]⟩ ⟨2, ![N, 1]⟩ ⟨2, ![N, C]⟩ [1] [0] [] [0] [] 1 ![1, C])
    (x : (⟨2, ![A, C]⟩ : Shape).Idx → α) (idx : IVec ⟨2, ![N, 1]⟩ w) (j : Fin N) (b : Fin C) :
    Host.gather (rowGather A C N wf) x idx (ix2 j b)
      = x (ix2 ⟨min (idx (ix2 j (0 : Fin 1))).toInt.toNat (A - 1), by omega⟩ b) := by
  unfold Host.gather
  congr 1
  funext a
  refine Fin.ext ?_
  match a with
  | ⟨0, _⟩ => exact gather_coord0 wf idx j b
  | ⟨1, _⟩ => exact gather_coord1 wf idx j b

end Cert.ScatterRows

end
-- ==== Proof.LibScatterGrid.lean ====
/-
  The host's accumulating scatter of scalar updates laid out on a grid, read at one entry, over the extended reals.

  Updates `[N, P, Q]`, one index pair per update in an array `[N, P, Q, 2]` (the pair along the last axis), operand
  `[A, B]`. Update `u` lands on `(r, c)` exactly when its pair, read as signed integers, is `(r, c)`; a pair outside
  the operand lands nowhere. So entry `(r, c)` of the result is the operand's entry plus the sum of the updates whose
  pair is `(r, c)`.
-/
import Idealize.ShloMosaic.PureOps.Ideal
import Idealize.ShloMosaic.Lib.ValueIdx
import proofs.«401551_j56624848830930_3_alg».proof.Proof.LibScatterRows

noncomputable section

open scoped BigOperators

namespace Cert.ScatterGrid

open Idealize.ShloMosaic Idealize.ShloMosaic.ValueIdx

/-- one scalar update per index pair: updates [N,P,Q], pairs [N,P,Q,2] (the pair on axis 3), operand [A,B] -/
abbrev gridDims (A B N P Q : Nat) (wf : ScatterDims.WF ⟨2, ![A, B]⟩ ⟨4, ![N, P, Q, 2]⟩ ⟨3, ![N, P, Q]⟩ [] [0, 1] [0, 1] 3) :
    ScatterDims ⟨2, ![A, B]⟩ ⟨4, ![N, P, Q, 2]⟩ ⟨3, ![N, P, Q]⟩ := ⟨[], [0, 1], [0, 1], 3, wf⟩

section Grid
variable {A B N P Q w : Nat} (wf : ScatterDims.WF ⟨2, ![A, B]⟩ ⟨4, ![N, P, Q, 2]⟩ ⟨3, ![N, P, Q]⟩ [] [0, 1] [0, 1] 3)

/-- Update `(n, p, q)` reads component `k` of its pair at position `(n, p, q, k)` of the index array: the three grid
    coordinates go, in order, to the three axes that are not the pair's, and the component to the pair's axis. -/
theorem grid_siIdx (n : Fin N) (p : Fin P) (q : Fin Q) (c : Fin (gridDims A B N P Q wf).scatterDimsToOperandDims.length)
    (k : Fin 2) (hc : c.val = k.val) : (gridDims A B N P Q wf).siIdx (ix3 n p q) c = ix4 n p q k := by
  funext b; refine Fin.ext ?_
  match b with
  | ⟨0, _⟩ => rfl
  | ⟨1, _⟩ => rfl
  | ⟨2, _⟩ => rfl
  | ⟨3, _⟩ => exact hc

/-- On the operand's row axis the start is the pair's first component, read signed. -/
theorem grid_start0 (idx : IVec ⟨4, ![N, P, Q, 2]⟩ w) (n : Fin N) (p : Fin P) (q : Fin Q) :
    (gridDims A B N P Q wf).start (ix3 n p q) idx (0 : Fin 2) = (idx (ix4 n p q (0 : Fin 2))).toInt := by
  unfold ScatterDims.start
  rw [dif_pos (show (0 : Fin 2) ∈ (gridDims A B N P Q wf).scatterDimsToOperandDims from List.mem_cons_self)]
  rw [grid_siIdx wf n p q _ (0 : Fin 2)]
  rfl

/-- On the operand's column axis the start is the pair's second component, read signed. -/
theorem grid_start1 (idx : IVec ⟨4, ![N, P, Q, 2]⟩ w) (n : Fin N) (p : Fin P) (q : Fin Q) :
    (gridDims A B N P Q wf).start (ix3 n p q) idx (1 : Fin 2) = (idx (ix4 n p q (1 : Fin 2))).toInt := by
  unfold ScatterDims.start
  rw [dif_pos (show (1 : Fin 2) ∈ (gridDims A B N P Q wf).scatterDimsToOperandDims from
    List.mem_cons_of_mem _ List.mem_cons_self)]
  rw [grid_siIdx wf n p q _ (1 : Fin 2)]
  rfl

/-- Both operand axes are inserted, so no operand axis is kept for a window: the window coordinate is zero. -/
theorem grid_window (u : (⟨3, ![N, P, Q]⟩ : Shape).Idx) (a : Fin 2) : (gridDims A B N P Q wf).window u a = 0 := by
  unfold ScatterDims.window
  rw [dif_neg (show a ∉ (gridDims A B N P Q wf).sKept from by
    have hk : (gridDims A B N P Q wf).sKept = [] := rfl
    rw [hk]; exact List.not_mem_nil)]

/-- Update `(n, p, q)` lands on `(r, c)` exactly when its pair, read signed, is `(r, c)`. -/
theorem grid_resultIdx?_iff (idx : IVec ⟨4, ![N, P, Q, 2]⟩ w) (n : Fin N) (p : Fin P) (q : Fin Q) (r : Fin A) (c : Fin B) :
    (gridDims A B N P Q wf).resultIdx? (ix3 n p q) idx = some (ix2 r c)
      ↔ (idx (ix4 n p q (0 : Fin 2))).toInt = (r.val : Int) ∧ (idx (ix4 n p q (1 : Fin 2))).toInt = (c.val : Int) := by
  rw [Cert.ScatterRows.resultIdx?_eq_some_iff, Fin.forall_fin_two, grid_start0, grid_start1, grid_window, grid_window]
  simp only [Nat.cast_zero, add_zero]

end Grid

/-- THE GRID SCATTER READ AT `(r, c)`: the operand's entry plus the sum of the updates whose index pair, read
    signed, is `(r, c)`. -/
theorem scatterAdd_grid_apply {A B N P Q w : Nat} {φ : FTy}
    (wf : ScatterDims.WF ⟨2, ![A, B]⟩ ⟨4, ![N, P, Q, 2]⟩ ⟨3, ![N, P, Q]⟩ [] [0, 1] [0, 1] 3)
    (x : FVec Ideal ⟨2, ![A, B]⟩ φ) (idx : IVec ⟨4, ![N, P, Q, 2]⟩ w) (upd : FVec Ideal ⟨3, ![N, P, Q]⟩ φ)
    (r : Fin A) (c : Fin B) :
    Host.scatterAdd (gridDims A B N P Q wf) x idx upd (ix2 r c)
      = x (ix2 r c) + ∑ u ∈ Finset.univ.filter (fun u : (⟨3, ![N, P, Q]⟩ : Shape).Idx =>
          (idx (ix4 (u 0) (u 1) (u 2) (0 : Fin 2))).toInt = (r.val : Int)
            ∧ (idx (ix4 (u 0) (u 1) (u 2) (1 : Fin 2))).toInt = (c.val : Int)), upd u := by
  show Ideal.hostScatterAdd (gridDims A B N P Q wf) x idx upd (ix2 r c) = _
  unfold Ideal.hostScatterAdd
  congr 1
  refine Finset.sum_congr (Finset.filter_congr ?_) (fun _ _ => rfl)
  intro u _
  have hu : (gridDims A B N P Q wf).resultIdx? u idx
      = (gridDims A B N P Q wf).resultIdx? (ix3 (u 0) (u 1) (u 2)) idx :=
    congrArg (fun v => (gridDims A B N P Q wf).resultIdx? v idx) (eq_ix3 u)
  rw [hu]
  exact grid_resultIdx?_iff wf idx (u 0) (u 1) (u 2) r c

end Cert.ScatterGrid

end
-- ==== Proof.DenseScatter.lean ====
/-
  From the scattered grid to the dense block matrix.

  When update `(e, p, q)` carries weight `w[e, q, p]` and its index pair is `(src e · 32 + p, tgt e · Q + q)`, the
  updates whose pair is `(k, c)` are those of the edges from column `k / 32` to column `c / Q`, at `p = k % 32` and
  `q = c % Q`: their sum is entry `(k, c)` of the dense block matrix.
-/
import proofs.«401551_j56624848830930_3_alg».proof.Proof.Spec
import proofs.«401551_j56624848830930_3_alg».proof.Proof.LibScatterGrid

noncomputable section

open scoped BigOperators

namespace Cert.Synapse

open Idealize.ShloMosaic Idealize.ShloMosaic.ValueIdx

/-- Writing `c = t · Q + q` with `q < Q` determines `t` and `q`: they are the quotient and the remainder of `c` by `Q`. -/
theorem mul_add_eq_iff_div_mod {Q t q c : Nat} (hq : q < Q) : t * Q + q = c ↔ t = c / Q ∧ q = c % Q := by
  constructor
  · rintro rfl
    have hQ : 0 < Q := by omega
    refine ⟨?_, ?_⟩
    · rw [Nat.add_comm, Nat.add_mul_div_right _ _ hQ, Nat.div_eq_of_lt hq, Nat.zero_add]
    · rw [Nat.add_comm, Nat.add_mul_mod_self_right, Nat.mod_eq_of_lt hq]
  · rintro ⟨rfl, rfl⟩
    rw [Nat.mul_comm]
    exact Nat.div_add_mod c Q

theorem grid_sum_eq_dense {Q : Nat} (hQ : 0 < Q) (w : (⟨3, ![28, Q, 32]⟩ : Shape).Idx → EReal) (src tgt : Fin 28 → Fin 8)
    (idx : IVec ⟨4, ![28, 32, Q, 2]⟩ 32)
    (hrow : ∀ (e : Fin 28) (p : Fin 32) (q : Fin Q),
      (idx (ix4 e p q (0 : Fin 2))).toInt = (((src e).val * 32 + p.val : Nat) : Int))
    (hcol : ∀ (e : Fin 28) (p : Fin 32) (q : Fin Q),
      (idx (ix4 e p q (1 : Fin 2))).toInt = (((tgt e).val * Q + q.val : Nat) : Int))
    (upd : (⟨3, ![28, 32, Q]⟩ : Shape).Idx → EReal) (hupd : ∀ (e : Fin 28) (p : Fin 32) (q : Fin Q), upd (ix3 e p q) = w (ix3 e q p))
    (k : Fin 256) (c : Fin (8 * Q)) :
    ∑ u ∈ Finset.univ.filter (fun u : (⟨3, ![28, 32, Q]⟩ : Shape).Idx =>
        (idx (ix4 (u 0) (u 1) (u 2) (0 : Fin 2))).toInt = (k.val : Int)
          ∧ (idx (ix4 (u 0) (u 1) (u 2) (1 : Fin 2))).toInt = (c.val : Int)), upd u
      = dense hQ w src tgt k c := by
  -- an update's pair is `(k, c)` exactly when its edge runs from column `k / 32` to column `c / Q` and its two
  -- grid coordinates are the remainders `k % 32` and `c % Q`
  have key : ∀ (e : Fin 28) (p : Fin 32) (q : Fin Q),
      ((idx (ix4 e p q (0 : Fin 2))).toInt = (k.val : Int) ∧ (idx (ix4 e p q (1 : Fin 2))).toInt = (c.val : Int))
        ↔ (((src e).val = k.val / 32 ∧ (tgt e).val = c.val / Q) ∧ p.val = k.val % 32 ∧ q.val = c.val % Q) := by
    intro e p q
    rw [hrow e p q, hcol e p q, Int.ofNat_inj, Int.ofNat_inj,
      mul_add_eq_iff_div_mod p.isLt, mul_add_eq_iff_div_mod q.isLt]
    tauto
  unfold dense
  refine Finset.sum_nbij' (fun u => u 0)
    (fun e => ix3 e (⟨k.val % 32, Nat.mod_lt _ (by decide)⟩ : Fin 32) (⟨c.val % Q, Nat.mod_lt _ hQ⟩ : Fin Q)) ?_ ?_ ?_ ?_ ?_
  · -- an update in the filter belongs to an edge between the two columns
    intro u hu
    rw [Finset.mem_filter] at hu
    exact Finset.mem_filter.mpr ⟨Finset.mem_univ _, ((key (u 0) (u 1) (u 2)).mp hu.2).1⟩
  · -- such an edge's update at the two remainders is in the filter
    intro e he
    rw [Finset.mem_filter] at he
    refine Finset.mem_filter.mpr ⟨Finset.mem_univ _, ?_⟩
    exact (key e ⟨k.val % 32, Nat.mod_lt _ (by decide)⟩ ⟨c.val % Q, Nat.mod_lt _ hQ⟩).mpr ⟨he.2, rfl, rfl⟩
  · -- an update in the filter is determined by its edge
    intro u hu
    rw [Finset.mem_filter] at hu
    obtain ⟨_, hp, hq⟩ := (key (u 0) (u 1) (u 2)).mp hu.2
    have h1 : (⟨k.val % 32, Nat.mod_lt _ (by decide)⟩ : Fin 32) = u 1 := Fin.ext hp.symm
    have h2 : (⟨c.val % Q, Nat.mod_lt _ hQ⟩ : Fin Q) = u 2 := Fin.ext hq.symm
    show ix3 (u 0) _ _ = u
    rw [h1, h2]
    exact (eq_ix3 u).symm
  · intro e _
    rfl
  · -- the update carries the weight with its two last coordinates exchanged
    intro u hu
    rw [Finset.mem_filter] at hu
    obtain ⟨_, hp, hq⟩ := (key (u 0) (u 1) (u 2)).mp hu.2
    have h1 : (⟨k.val % 32, Nat.mod_lt _ (by decide)⟩ : Fin 32) = u 1 := Fin.ext hp.symm
    have h2 : (⟨c.val % Q, Nat.mod_lt _ hQ⟩ : Fin Q) = u 2 := Fin.ext hq.symm
    show upd u = w (ix3 (u 0) _ _)
    rw [h1, h2, ← hupd (u 0) (u 1) (u 2)]
    exact congrArg upd (eq_ix3 u)

end Cert.Synapse

end
-- ==== Proof.WeightsFF.lean ====
/-
  The feed-forward dense block matrix.

  Before the region the host lays the 28 feed-forward weight matrices into a [256, 512] matrix: weight
  `w[e, q, p]` is added at row `src e · 32 + p` and column `tgt e · 64 + q`. Read at one entry `(k, c)` this is
  the sum of `w[e, c % 64, k % 32]` over the edges from column `k / 32` to column `c / 64`: the entry `dense` of
  the specification.

  The row and column positions are computed in 32-bit words (an endpoint word times 32 or 64, plus the position
  inside the block, wrapped by the extent when negative); with endpoint words below 8 these words are small
  non-negative numbers, the wrap does nothing, and read as signed integers they are the positions themselves.
-/
import proofs.«401551_j56624848830930_3_alg».proof.Proof.Gen.KernelIdeal.Frame
import proofs.«401551_j56624848830930_3_alg».proof.Proof.Spec
import proofs.«401551_j56624848830930_3_alg».proof.Proof.LibScatterGrid
import proofs.«401551_j56624848830930_3_alg».proof.Proof.DenseScatter
import Idealize.ShloMosaic.Lib.StableHlo.Run
import Idealize.ShloMosaic.Lib.Pipeline.Value
import Idealize.ShloMosaic.Lib.StableHlo.Predicate
import Idealize.ShloMosaic.PureOps.Ideal.Laws

noncomputable section

open scoped BigOperators

namespace Cert.Synapse.FF

open Cert.KernelIdeal Cert.KernelIdeal.Gen Idealize.ShloMosaic Idealize.ShloMosaic.TcCoe Idealize.SL.Sem
open Idealize.ShloMosaic.ValueIdx Idealize.ShloMosaic.StableHlo.Predicate

/-! ## The host's index arithmetic, as functions of the endpoint words -/

/-- Row positions on the [28, 32] grid: endpoint word times 32 plus the position `p`. -/
def rowW (v : IVec S28 32) : IVec S28x32 32 :=
  addi
    (broadcastInDim S28x32 ![0, 1] bcast_S28x1_S28x32_0_1
      (muli (broadcastInDim S28x1 ![0] bcast_S28_S28x1_0 v)
        (broadcastInDim S28x1 ![] bcast_S_S28x1 (constantI S_ 32 32#32))))
    (broadcastInDim S28x32 ![0, 1] bcast_S1x32_S28x32_0_1
      (broadcastInDim S1x32 ![1] bcast_S32_S1x32_1 (iotaInDim S32 32 0)))

/-- Column positions on the [28, 64] grid: endpoint word times 64 plus the position `q`. -/
def colW (v : IVec S28 32) : IVec S28x64 32 :=
  addi
    (broadcastInDim S28x64 ![0, 1] bcast_S28x1_S28x64_0_1
      (muli (broadcastInDim S28x1 ![0] bcast_S28_S28x1_0 v)
        (broadcastInDim S28x1 ![] bcast_S_S28x1 (constantI S_ 32 64#32))))
    (broadcastInDim S28x64 ![0, 1] bcast_S1x64_S28x64_0_1
      (broadcastInDim S1x64 ![1] bcast_S64_S1x64_1 (iotaInDim S64 32 0)))

/-- The row positions with a unit axis appended, a negative one wrapped by the 256 rows. -/
def wrapRow (r : IVec S28x32 32) : IVec S28x32x1 32 :=
  select
    (cmpi CmpIPredicate.slt (broadcastInDim S28x32x1 ![0, 1] bcast_S28x32_S28x32x1_0_1 r)
      (broadcastInDim S28x32x1 ![] bcast_S_S28x32x1 (constantI S_ 32 0#32)))
    (addi (broadcastInDim S28x32x1 ![0, 1] bcast_S28x32_S28x32x1_0_1 r)
      (broadcastInDim S28x32x1 ![] bcast_S_S28x32x1 (constantI S_ 32 256#32)))
    (broadcastInDim S28x32x1 ![0, 1] bcast_S28x32_S28x32x1_0_1 r)

/-- The column positions with a unit axis inserted, a negative one wrapped by the 512 columns. -/
def wrapCol (r : IVec S28x64 32) : IVec S28x1x64 32 :=
  select
    (cmpi CmpIPredicate.slt (broadcastInDim S28x1x64 ![0, 2] bcast_S28x64_S28x1x64_0_2 r)
      (broadcastInDim S28x1x64 ![] bcast_S_S28x1x64 (constantI S_ 32 0#32)))
    (addi (broadcastInDim S28x1x64 ![0, 2] bcast_S28x64_S28x1x64_0_2 r)
      (broadcastInDim S28x1x64 ![] bcast_S_S28x1x64 (constantI S_ 32 512#32)))
    (broadcastInDim S28x1x64 ![0, 2] bcast_S28x64_S28x1x64_0_2 r)

/-- The row half of the index pairs: the wrapped row positions spread over the [28, 32, 64] grid, a unit axis last. -/
def rowPart (s : IVec S28 32) : IVec S28x32x64x1 32 :=
  broadcastInDim S28x32x64x1 ![0, 1, 2] bcast_S28x32x64_S28x32x64x1_0_1_2
    (broadcastInDim S28x32x64 ![0, 1, 2] bcast_S28x32x1_S28x32x64_0_1_2 (wrapRow (rowW s)))

/-- The column half of the index pairs. -/
def colPart (t : IVec S28 32) : IVec S28x32x64x1 32 :=
  broadcastInDim S28x32x64x1 ![0, 1, 2] bcast_S28x32x64_S28x32x64x1_0_1_2
    (broadcastInDim S28x32x64 ![0, 1, 2] bcast_S28x1x64_S28x32x64_0_1_2 (wrapCol (colW t)))

/-- The index pairs [28, 32, 64, 2]: row position then column position along the last axis. -/
def pairs (s t : IVec S28 32) : IVec S28x32x64x2 32 :=
  concatenate S28x32x64x2 3 [⟨S28x32x64x1, rowPart s⟩, ⟨S28x32x64x1, colPart t⟩]
    concatenates_S28x32x64x1_S28x32x64x1_S28x32x64x2_d3

/-- The updates: the weights with their last two axes exchanged, [edge, input unit, output unit]. -/
def upds (w : FVec Ideal S28x64x32 .f32) : FVec Ideal S28x32x64 .f32 :=
  transpose S28x32x64 [0, 2, 1] w transposes_S28x64x32_S28x32x64_0_2_1

/-- The matrix of zeros the updates are added into. -/
def zeros : FVec Ideal S256x512 .f32 :=
  broadcastInDim S256x512 ![] bcast_S_S256x512 (constant (F := Ideal) S_ FTy.f32 0#32)

/-- The dense matrix as the host builds it. -/
def hostDense (w : FVec Ideal S28x64x32 .f32) (s t : IVec S28 32) : FVec Ideal S256x512 .bf16 :=
  truncf FTy.bf16
    (Host.scatterAdd scatter_S256x512_S28x32x64x2_S28x32x64_n_01_01_3 zeros (pairs s t) (upds w))
    bitsLt_bf16_f32

/-! ## The positions read at explicit coordinates -/

/-- Row position `(e, p)`: the endpoint word of edge `e` times 32, plus `p`. -/
theorem rowW_apply (v : IVec S28 32) (e : Fin 28) (p : Fin 32) :
    rowW v (ix2 e p) = v (ix1 e) * 32#32 + BitVec.ofNat 32 p.val := by
  have hA : broadcastInDim S28x32 ![0, 1] bcast_S28x1_S28x32_0_1
      (muli (broadcastInDim S28x1 ![0] bcast_S28_S28x1_0 v)
        (broadcastInDim S28x1 ![] bcast_S_S28x1 (constantI S_ 32 32#32))) (ix2 e p)
      = v (ix1 e) * 32#32 := by
    refine (broadcastInDim_apply _ _ _ (ix2 e p) (ix2 e (0 : Fin 1))
      (fun a => match a with | ⟨0, _⟩ => rfl | ⟨1, _⟩ => rfl)).trans ?_
    show broadcastInDim S28x1 ![0] bcast_S28_S28x1_0 v (ix2 e (0 : Fin 1)) * 32#32 = _
    rw [broadcastInDim_apply _ _ v (ix2 e (0 : Fin 1)) (ix1 e) (fun a => match a with | ⟨0, _⟩ => rfl)]
  have hB : broadcastInDim S28x32 ![0, 1] bcast_S1x32_S28x32_0_1
      (broadcastInDim S1x32 ![1] bcast_S32_S1x32_1 (iotaInDim S32 32 0)) (ix2 e p)
      = BitVec.ofNat 32 p.val := by
    refine (broadcastInDim_apply _ _ _ (ix2 e p) (ix2 (0 : Fin 1) p)
      (fun a => match a with | ⟨0, _⟩ => rfl | ⟨1, _⟩ => rfl)).trans ?_
    exact broadcastInDim_apply _ _ (iotaInDim S32 32 0) (ix2 (0 : Fin 1) p) (ix1 p)
      (fun a => match a with | ⟨0, _⟩ => rfl)
  show _ + _ = _
  rw [hA, hB]

/-- Column position `(e, q)`: the endpoint word of edge `e` times 64, plus `q`. -/
theorem colW_apply (v : IVec S28 32) (e : Fin 28) (q : Fin 64) :
    colW v (ix2 e q) = v (ix1 e) * 64#32 + BitVec.ofNat 32 q.val := by
  have hA : broadcastInDim S28x64 ![0, 1] bcast_S28x1_S28x64_0_1
      (muli (broadcastInDim S28x1 ![0] bcast_S28_S28x1_0 v)
        (broadcastInDim S28x1 ![] bcast_S_S28x1 (constantI S_ 32 64#32))) (ix2 e q)
      = v (ix1 e) * 64#32 := by
    refine (broadcastInDim_apply _ _ _ (ix2 e q) (ix2 e (0 : Fin 1))
      (fun a => match a with | ⟨0, _⟩ => rfl | ⟨1, _⟩ => rfl)).trans ?_
    show broadcastInDim S28x1 ![0] bcast_S28_S28x1_0 v (ix2 e (0 : Fin 1)) * 64#32 = _
    rw [broadcastInDim_apply _ _ v (ix2 e (0 : Fin 1)) (ix1 e) (fun a => match a with | ⟨0, _⟩ => rfl)]
  have hB : broadcastInDim S28x64 ![0, 1] bcast_S1x64_S28x64_0_1
      (broadcastInDim S1x64 ![1] bcast_S64_S1x64_1 (iotaInDim S64 32 0)) (ix2 e q)
      = BitVec.ofNat 32 q.val := by
    refine (broadcastInDim_apply _ _ _ (ix2 e q) (ix2 (0 : Fin 1) q)
      (fun a => match a with | ⟨0, _⟩ => rfl | ⟨1, _⟩ => rfl)).trans ?_
    exact broadcastInDim_apply _ _ (iotaInDim S64 32 0) (ix2 (0 : Fin 1) q) (ix1 q)
      (fun a => match a with | ⟨0, _⟩ => rfl)
  show _ + _ = _
  rw [hA, hB]

/-- A word that is not negative passes the wrap unchanged. -/
theorem wrap_of_nonneg (r K : BitVec 32) (hr : r.toNat < 2 ^ 31) :
    Scalar.select (IntOp.cmpi CmpIPredicate.slt r 0#32) (IntOp.addi r K) r = r := by
  have h : ¬ IntOp.cmpi CmpIPredicate.slt r 0#32 = 1#1 := by
    rw [slt_iff_toNat hr (by decide)]
    exact Nat.not_lt_zero _
  exact if_neg h

/-- The wrapped row position at `(e, p, 0)`, in terms of the position `(e, p)`. -/
theorem wrapRow_apply (r : IVec S28x32 32) (e : Fin 28) (p : Fin 32) :
    wrapRow r (ix3 e p (0 : Fin 1))
      = Scalar.select (IntOp.cmpi CmpIPredicate.slt (r (ix2 e p)) 0#32) (IntOp.addi (r (ix2 e p)) 256#32) (r (ix2 e p)) := by
  have h : broadcastInDim S28x32x1 ![0, 1] bcast_S28x32_S28x32x1_0_1 r (ix3 e p (0 : Fin 1)) = r (ix2 e p) :=
    broadcastInDim_apply _ _ r (ix3 e p (0 : Fin 1)) (ix2 e p)
      (fun a => match a with | ⟨0, _⟩ => rfl | ⟨1, _⟩ => rfl)
  show Scalar.select (IntOp.cmpi CmpIPredicate.slt
      (broadcastInDim S28x32x1 ![0, 1] bcast_S28x32_S28x32x1_0_1 r (ix3 e p (0 : Fin 1))) 0#32)
    (IntOp.addi (broadcastInDim S28x32x1 ![0, 1] bcast_S28x32_S28x32x1_0_1 r (ix3 e p (0 : Fin 1))) 256#32)
    (broadcastInDim S28x32x1 ![0, 1] bcast_S28x32_S28x32x1_0_1 r (ix3 e p (0 : Fin 1))) = _
  rw [h]

/-- The wrapped column position at `(e, 0, q)`, in terms of the position `(e, q)`. -/
theorem wrapCol_apply (r : IVec S28x64 32) (e : Fin 28) (q : Fin 64) :
    wrapCol r (ix3 e (0 : Fin 1) q)
      = Scalar.select (IntOp.cmpi CmpIPredicate.slt (r (ix2 e q)) 0#32) (IntOp.addi (r (ix2 e q)) 512#32) (r (ix2 e q)) := by
  have h : broadcastInDim S28x1x64 ![0, 2] bcast_S28x64_S28x1x64_0_2 r (ix3 e (0 : Fin 1) q) = r (ix2 e q) :=
    broadcastInDim_apply _ _ r (ix3 e (0 : Fin 1) q) (ix2 e q)
      (fun a => match a with | ⟨0, _⟩ => rfl | ⟨1, _⟩ => rfl)
  show Scalar.select (IntOp.cmpi CmpIPredicate.slt
      (broadcastInDim S28x1x64 ![0, 2] bcast_S28x64_S28x1x64_0_2 r (ix3 e (0 : Fin 1) q)) 0#32)
    (IntOp.addi (broadcastInDim S28x1x64 ![0, 2] bcast_S28x64_S28x1x64_0_2 r (ix3 e (0 : Fin 1) q)) 512#32)
    (broadcastInDim S28x1x64 ![0, 2] bcast_S28x64_S28x1x64_0_2 r (ix3 e (0 : Fin 1) q)) = _
  rw [h]

/-- The row half of the pairs at `(e, p, q, 0)` is the wrapped row position `(e, p, 0)`. -/
theorem rowPart_apply (s : IVec S28 32) (e : Fin 28) (p : Fin 32) (q : Fin 64) :
    rowPart s (ix4 e p q (0 : Fin 1)) = wrapRow (rowW s) (ix3 e p (0 : Fin 1)) := by
  unfold rowPart
  refine (broadcastInDim_apply _ _ _ (ix4 e p q (0 : Fin 1)) (ix3 e p q)
    (fun a => match a with | ⟨0, _⟩ => rfl | ⟨1, _⟩ => rfl | ⟨2, _⟩ => rfl)).trans ?_
  exact broadcastInDim_apply _ _ _ (ix3 e p q) (ix3 e p (0 : Fin 1))
    (fun a => match a with | ⟨0, _⟩ => rfl | ⟨1, _⟩ => rfl | ⟨2, _⟩ => rfl)

/-- The column half of the pairs at `(e, p, q, 0)` is the wrapped column position `(e, 0, q)`. -/
theorem colPart_apply (t : IVec S28 32) (e : Fin 28) (p : Fin 32) (q : Fin 64) :
    colPart t (ix4 e p q (0 : Fin 1)) = wrapCol (colW t) (ix3 e (0 : Fin 1) q) := by
  unfold colPart
  refine (broadcastInDim_apply _ _ _ (ix4 e p q (0 : Fin 1)) (ix3 e p q)
    (fun a => match a with | ⟨0, _⟩ => rfl | ⟨1, _⟩ => rfl | ⟨2, _⟩ => rfl)).trans ?_
  exact broadcastInDim_apply _ _ _ (ix3 e p q) (ix3 e (0 : Fin 1) q)
    (fun a => match a with | ⟨0, _⟩ => rfl | ⟨1, _⟩ => rfl | ⟨2, _⟩ => rfl)

/-- The pair's first word is the row half … -/
theorem pairs_apply_row (s t : IVec S28 32) (e : Fin 28) (p : Fin 32) (q : Fin 64) :
    pairs s t (ix4 e p q (0 : Fin 2)) = rowPart s (ix4 e p q (0 : Fin 1)) := by
  unfold pairs
  exact concatenate_pair_apply_left (3 : Fin S28x32x64x2.rank) (rowPart s) (colPart t) _ (ix4 e p q (0 : Fin 2)) rfl
    (ix4 e p q (0 : Fin 1)) (fun b => match b with | ⟨0, _⟩ => rfl | ⟨1, _⟩ => rfl | ⟨2, _⟩ => rfl | ⟨3, _⟩ => rfl)

/-- … and its second word the column half. -/
theorem pairs_apply_col (s t : IVec S28 32) (e : Fin 28) (p : Fin 32) (q : Fin 64) :
    pairs s t (ix4 e p q (1 : Fin 2)) = colPart t (ix4 e p q (0 : Fin 1)) := by
  unfold pairs
  exact concatenate_pair_apply_right (3 : Fin S28x32x64x2.rank) (rowPart s) (colPart t) _ (ix4 e p q (1 : Fin 2)) rfl rfl
    (ix4 e p q (0 : Fin 1))
    (fun b => match b with
      | ⟨0, _⟩ => fun _ => rfl | ⟨1, _⟩ => fun _ => rfl | ⟨2, _⟩ => fun _ => rfl
      | ⟨3, _⟩ => fun h => absurd rfl h)
    rfl

/-! ## The words as numbers -/

/-- An endpoint word below 8 times 32, plus a position below 32, as a natural number. -/
theorem toNat_row (w : BitVec 32) (p : Nat) (hw : w.toNat < 8) (hp : p < 32) :
    (w * 32#32 + BitVec.ofNat 32 p).toNat = w.toNat * 32 + p := by
  simp only [BitVec.toNat_add, BitVec.toNat_mul, BitVec.toNat_ofNat]
  omega

/-- An endpoint word below 8 times 64, plus a position below 64, as a natural number. -/
theorem toNat_col (w : BitVec 32) (q : Nat) (hw : w.toNat < 8) (hq : q < 64) :
    (w * 64#32 + BitVec.ofNat 32 q).toNat = w.toNat * 64 + q := by
  simp only [BitVec.toNat_add, BitVec.toNat_mul, BitVec.toNat_ofNat]
  omega

/-- The pair's row word, read signed, is `src e · 32 + p`. -/
theorem pairs_row_toInt (s t : IVec S28 32) (hs : Ranged s) (e : Fin 28) (p : Fin 32) (q : Fin 64) :
    (pairs s t (ix4 e p q (0 : Fin 2))).toInt = (((colOf s e).val * 32 + p.val : Nat) : Int) := by
  have hn : (s (ix1 e) * 32#32 + BitVec.ofNat 32 p.val).toNat = (colOf s e).val * 32 + p.val := by
    rw [toNat_row _ _ (hs e) p.isLt, colOf_val hs]
  have hlt : (s (ix1 e) * 32#32 + BitVec.ofNat 32 p.val).toNat < 2 ^ 31 := by
    rw [toNat_row _ _ (hs e) p.isLt]; have := hs e; have := p.isLt; omega
  rw [pairs_apply_row, rowPart_apply, wrapRow_apply, rowW_apply, wrap_of_nonneg _ _ hlt,
    toInt_eq_toNat_of_lt hlt, hn]

/-- The pair's column word, read signed, is `tgt e · 64 + q`. -/
theorem pairs_col_toInt (s t : IVec S28 32) (ht : Ranged t) (e : Fin 28) (p : Fin 32) (q : Fin 64) :
    (pairs s t (ix4 e p q (1 : Fin 2))).toInt = (((colOf t e).val * 64 + q.val : Nat) : Int) := by
  have hn : (t (ix1 e) * 64#32 + BitVec.ofNat 32 q.val).toNat = (colOf t e).val * 64 + q.val := by
    rw [toNat_col _ _ (ht e) q.isLt, colOf_val ht]
  have hlt : (t (ix1 e) * 64#32 + BitVec.ofNat 32 q.val).toNat < 2 ^ 31 := by
    rw [toNat_col _ _ (ht e) q.isLt]; have := ht e; have := q.isLt; omega
  rw [pairs_apply_col, colPart_apply, wrapCol_apply, colW_apply, wrap_of_nonneg _ _ hlt,
    toInt_eq_toNat_of_lt hlt, hn]

/-- Update `(e, p, q)` is weight `(e, q, p)`. -/
theorem upds_apply (w : FVec Ideal S28x64x32 .f32) (e : Fin 28) (p : Fin 32) (q : Fin 64) :
    upds w (ix3 e p q) = w (ix3 e q p) := by
  unfold upds
  exact transpose_apply _ w _ (ix3 e p q) (ix3 e q p)
    (fun b => match b with | ⟨0, _⟩ => rfl | ⟨1, _⟩ => rfl | ⟨2, _⟩ => rfl)

/-- Every entry of the matrix the updates are added into is zero. -/
theorem zeros_apply (i : S256x512.Idx) : zeros i = 0 := by
  show Ideal.ofBits .f32 0x00000000#32 = 0
  exact Ideal.ofBits_zero_f32

/-! ## The dense matrix -/

/-- The matrix the host builds, read at one entry, is the dense block matrix of the specification. -/
theorem hostDense_apply (w : FVec Ideal S28x64x32 .f32) (s t : IVec S28 32) (hs : Ranged s) (ht : Ranged t)
    (k : Fin 256) (cc : Fin 512) :
    hostDense w s t (ix2 k cc) = dense (Q := 64) (by decide) w (colOf s) (colOf t) k cc := by
  have h1 : hostDense w s t (ix2 k cc)
      = Host.scatterAdd (Cert.ScatterGrid.gridDims 256 512 28 32 64 _) zeros (pairs s t) (upds w) (ix2 k cc) := rfl
  rw [h1, Cert.ScatterGrid.scatterAdd_grid_apply, zeros_apply, zero_add]
  exact grid_sum_eq_dense (Q := 64) (by decide) w (colOf s) (colOf t) (pairs s t)
    (pairs_row_toInt s t hs) (pairs_col_toInt s t ht) (upds w) (upds_apply w) k cc

/-! ## The array the region finds -/

variable (m : (ℓ : Loc Cert.KernelIdeal.nD Cert.KernelIdeal.τ Cert.KernelIdeal.sig) → Buf (Elt Ideal) ℓ)

/-- Two concatenated pieces may be replaced by equal ones. -/
theorem concat_congr {x x' y y' : IVec S28x32x64x1 32} (hx : x = x') (hy : y = y') :
    concatenate S28x32x64x2 3 [⟨S28x32x64x1, x⟩, ⟨S28x32x64x1, y⟩]
        concatenates_S28x32x64x1_S28x32x64x1_S28x32x64x2_d3
      = concatenate S28x32x64x2 3 [⟨S28x32x64x1, x'⟩, ⟨S28x32x64x1, y'⟩]
        concatenates_S28x32x64x1_S28x32x64x1_S28x32x64x2_d3 := by
  rw [hx, hy]

/-- What the region finds in the dense matrix's array: the host's operations composed. -/
theorem host_eq (c : Dev nD) :
    (V m c main_v36 : S256x512.Idx → EReal)
      = hostDense (m ((c : Thread nD τ).loc main_arg2)) (m ((c : Thread nD τ).loc main_arg4))
          (m ((c : Thread nD τ).loc main_arg5)) := by
  dsimp only [Cert.KernelIdeal.Gen.V, Cert.KernelIdeal.Gen.hostOps0]
  after_results_simp
  unfold hostDense pairs
  rw [concat_congr (x' := rowPart (m ((c : Thread nD τ).loc main_arg4)))
    (y' := colPart (m ((c : Thread nD τ).loc main_arg5))) ?_ ?_]
  · rfl
  · after_results_simp
    rfl
  · after_results_simp
    rfl

/-- THE FEED-FORWARD WEIGHTS AS THE REGION FINDS THEM: entry `(k, c)` of the dense matrix's array is `dense` of the
    feed-forward weights and the two endpoint arrays, when every endpoint word names one of the eight columns. -/
theorem wff_eq (c : Dev nD) (hs : Ranged (m ((c : Thread nD τ).loc main_arg4)))
    (ht : Ranged (m ((c : Thread nD τ).loc main_arg5))) (k : Fin 256) (cc : Fin 512) :
    (V m c main_v36 : S256x512.Idx → EReal) (ix2 k cc)
      = dense (Q := 64) (by decide) (m ((c : Thread nD τ).loc main_arg2))
          (colOf (m ((c : Thread nD τ).loc main_arg4))) (colOf (m ((c : Thread nD τ).loc main_arg5))) k cc :=
  (congrFun (host_eq m c) (ix2 k cc)).trans (hostDense_apply _ _ _ hs ht k cc)

end Cert.Synapse.FF

end
-- ==== Proof.WeightsFB.lean ====
/-
  The feedback weights as the kernel's host prefix lays them out: the dense block matrix.

  Before its one matrix product the kernel builds a [256, 256] matrix on the host. For feedback edge `e` with source
  word `s[e]` and target word `t[e]` it forms, for every input unit `p` and output unit `q`, the index pair
  `(s[e] · 32 + p, t[e] · 32 + q)` (each coordinate moved up by 256 were it negative, which a column word in
  [0, 8) never makes it), pairs it with the transposed weight `w[e, q, p]`, and adds all updates into a matrix of
  zeros. Read at one entry `(k, c)` this is the sum of the weights of the edges from column `k / 32` to column
  `c / 32` at units `(c % 32, k % 32)`: Spec's `dense`.

  The road: the host operations' composed term (`V71_eq`); the index arrays read at explicit coordinates (one
  broadcast at a time); the word arithmetic (`word_toNat`, `wrap_word`); then the grid scatter's entry formula and
  the regrouping of its filtered sum.
-/
import proofs.«401551_j56624848830930_3_alg».proof.Proof.Gen.KernelIdeal.Frame
import proofs.«401551_j56624848830930_3_alg».proof.Proof.Spec
import proofs.«401551_j56624848830930_3_alg».proof.Proof.LibScatterGrid
import proofs.«401551_j56624848830930_3_alg».proof.Proof.DenseScatter
import Idealize.ShloMosaic.Lib.StableHlo.Run
import Idealize.ShloMosaic.Lib.Pipeline.Value
import Idealize.ShloMosaic.Lib.StableHlo.Predicate
import Idealize.ShloMosaic.PureOps.Ideal.Laws

noncomputable section

open scoped BigOperators

namespace Cert.Synapse.FB

open Cert.KernelIdeal Cert.KernelIdeal.Gen Idealize.ShloMosaic Idealize.ShloMosaic.TcCoe Idealize.SL.Sem
open Idealize.ShloMosaic.ValueIdx

/-! ## The index arrays as functions of the edge words -/

/-- The word `v[e] · 32 + p` on the [28, 32] grid: the edge word scaled by the block width plus the position. -/
def lin (v : IVec S28 32) : IVec S28x32 32 :=
  addi (broadcastInDim S28x32 ![0, 1] bcast_S28x1_S28x32_0_1
          (muli (broadcastInDim S28x1 ![0] bcast_S28_S28x1_0 v)
                (broadcastInDim S28x1 ![] bcast_S_S28x1 (constantI S_ 32 32#32))))
       (broadcastInDim S28x32 ![0, 1] bcast_S1x32_S28x32_0_1
          (broadcastInDim S1x32 ![1] bcast_S32_S1x32_1 (iotaInDim S32 32 0)))

/-- A row word moved up by 256 where it is negative, on [28, 32, 1]. -/
def wrapR (x : IVec S28x32 32) : IVec S28x32x1 32 :=
  select (cmpi .slt (broadcastInDim S28x32x1 ![0, 1] bcast_S28x32_S28x32x1_0_1 x)
                    (broadcastInDim S28x32x1 ![] bcast_S_S28x32x1 (constantI S_ 32 0#32)))
         (addi (broadcastInDim S28x32x1 ![0, 1] bcast_S28x32_S28x32x1_0_1 x)
               (broadcastInDim S28x32x1 ![] bcast_S_S28x32x1 (constantI S_ 32 256#32)))
         (broadcastInDim S28x32x1 ![0, 1] bcast_S28x32_S28x32x1_0_1 x)

/-- A column word moved up by 256 where it is negative, on [28, 1, 32]. -/
def wrapC (x : IVec S28x32 32) : IVec S28x1x32 32 :=
  select (cmpi .slt (broadcastInDim S28x1x32 ![0, 2] bcast_S28x32_S28x1x32_0_2 x)
                    (broadcastInDim S28x1x32 ![] bcast_S_S28x1x32 (constantI S_ 32 0#32)))
         (addi (broadcastInDim S28x1x32 ![0, 2] bcast_S28x32_S28x1x32_0_2 x)
               (broadcastInDim S28x1x32 ![] bcast_S_S28x1x32 (constantI S_ 32 256#32)))
         (broadcastInDim S28x1x32 ![0, 2] bcast_S28x32_S28x1x32_0_2 x)

/-- The row coordinate of every update, on the [28, 32, 32] grid with a trailing unit axis. -/
def rowGrid (s : IVec S28 32) : IVec S28x32x32x1 32 :=
  broadcastInDim S28x32x32x1 ![0, 1, 2] bcast_S28x32x32_S28x32x32x1_0_1_2
    (broadcastInDim S28x32x32 ![0, 1, 2] bcast_S28x32x1_S28x32x32_0_1_2 (wrapR (lin s)))

/-- The column coordinate of every update, likewise. -/
def colGrid (t : IVec S28 32) : IVec S28x32x32x1 32 :=
  broadcastInDim S28x32x32x1 ![0, 1, 2] bcast_S28x32x32_S28x32x32x1_0_1_2
    (broadcastInDim S28x32x32 ![0, 1, 2] bcast_S28x1x32_S28x32x32_0_1_2 (wrapC (lin t)))

/-- The index pairs: row coordinate then column coordinate along the last axis. -/
def pairs (s t : IVec S28 32) : IVec S28x32x32x2 32 :=
  concatenate S28x32x32x2 3 [⟨S28x32x32x1, rowGrid s⟩, ⟨S28x32x32x1, colGrid t⟩]
    concatenates_S28x32x32x1_S28x32x32x1_S28x32x32x2_d3

/-! ## Each broadcast read at explicit coordinates -/

section Broadcasts
variable {α : Type}

theorem bc_vec0 (v : S28.Idx → α) (e : Fin 28) :
    broadcastInDim S28x1 ![0] bcast_S28_S28x1_0 v (ix2 e (0 : Fin 1)) = v (ix1 e) :=
  broadcastInDim_apply _ _ v _ _ (fun a => match a with | ⟨0, _⟩ => rfl)

theorem bc_vec1 (v : S32.Idx → α) (p : Fin 32) :
    broadcastInDim S1x32 ![1] bcast_S32_S1x32_1 v (ix2 (0 : Fin 1) p) = v (ix1 p) :=
  broadcastInDim_apply _ _ v _ _ (fun a => match a with | ⟨0, _⟩ => rfl)

theorem bc_col (x : S28x1.Idx → α) (e : Fin 28) (p : Fin 32) :
    broadcastInDim S28x32 ![0, 1] bcast_S28x1_S28x32_0_1 x (ix2 e p) = x (ix2 e (0 : Fin 1)) :=
  broadcastInDim_apply _ _ x _ _ (fun a => match a with | ⟨0, _⟩ => rfl | ⟨1, _⟩ => rfl)

theorem bc_row (x : S1x32.Idx → α) (e : Fin 28) (p : Fin 32) :
    broadcastInDim S28x32 ![0, 1] bcast_S1x32_S28x32_0_1 x (ix2 e p) = x (ix2 (0 : Fin 1) p) :=
  broadcastInDim_apply _ _ x _ _ (fun a => match a with | ⟨0, _⟩ => rfl | ⟨1, _⟩ => rfl)

theorem bc_unitR (x : S28x32.Idx → α) (e : Fin 28) (p : Fin 32) :
    broadcastInDim S28x32x1 ![0, 1] bcast_S28x32_S28x32x1_0_1 x (ix3 e p (0 : Fin 1)) = x (ix2 e p) :=
  broadcastInDim_apply _ _ x _ _ (fun a => match a with | ⟨0, _⟩ => rfl | ⟨1, _⟩ => rfl)

theorem bc_unitC (x : S28x32.Idx → α) (e : Fin 28) (q : Fin 32) :
    broadcastInDim S28x1x32 ![0, 2] bcast_S28x32_S28x1x32_0_2 x (ix3 e (0 : Fin 1) q) = x (ix2 e q) :=
  broadcastInDim_apply _ _ x _ _ (fun a => match a with | ⟨0, _⟩ => rfl | ⟨1, _⟩ => rfl)

theorem bc_gridR (x : S28x32x1.Idx → α) (e : Fin 28) (p q : Fin 32) :
    broadcastInDim S28x32x32 ![0, 1, 2] bcast_S28x32x1_S28x32x32_0_1_2 x (ix3 e p q) = x (ix3 e p (0 : Fin 1)) :=
  broadcastInDim_apply _ _ x _ _ (fun a => match a with | ⟨0, _⟩ => rfl | ⟨1, _⟩ => rfl | ⟨2, _⟩ => rfl)

theorem bc_gridC (x : S28x1x32.Idx → α) (e : Fin 28) (p q : Fin 32) :
    broadcastInDim S28x32x32 ![0, 1, 2] bcast_S28x1x32_S28x32x32_0_1_2 x (ix3 e p q) = x (ix3 e (0 : Fin 1) q) :=
  broadcastInDim_apply _ _ x _ _ (fun a => match a with | ⟨0, _⟩ => rfl | ⟨1, _⟩ => rfl | ⟨2, _⟩ => rfl)

theorem bc_last (x : S28x32x32.Idx → α) (e : Fin 28) (p q : Fin 32) :
    broadcastInDim S28x32x32x1 ![0, 1, 2] bcast_S28x32x32_S28x32x32x1_0_1_2 x (ix4 e p q (0 : Fin 1)) = x (ix3 e p q) :=
  broadcastInDim_apply _ _ x _ _ (fun a => match a with | ⟨0, _⟩ => rfl | ⟨1, _⟩ => rfl | ⟨2, _⟩ => rfl)

end Broadcasts

/-! ## The words: a column word times the block width plus a position -/

/-- For a column word `v < 8` and a position `p < 32` the word `v · 32 + p` does not wrap: its value is that
    natural number. -/
theorem word_toNat (v : BitVec 32) (hv : v.toNat < 8) (p : Fin 32) :
    (IntOp.addi (IntOp.muli v 32#32) (BitVec.ofNat 32 p.val)).toNat = v.toNat * 32 + p.val := by
  have hp := p.isLt
  unfold IntOp.addi IntOp.muli
  rw [BitVec.toNat_add, BitVec.toNat_mul, BitVec.toNat_ofNat, BitVec.toNat_ofNat]
  omega

/-- A word below 2³¹ is not negative read signed, so the move up by 256 leaves it as it is. -/
theorem wrap_word (w : BitVec 32) (hw : w.toNat < 2 ^ 31) :
    Scalar.select (IntOp.cmpi .slt w 0#32) (IntOp.addi w 256#32) w = w := by
  have h : ¬ IntOp.cmpi .slt w 0#32 = 1#1 := by
    rw [StableHlo.Predicate.slt_iff_toNat hw (by decide)]
    exact Nat.not_lt_zero _
  rw [eq_zero_of_ne_one h, select_zero]

/-! ## The index arrays read at explicit coordinates -/

theorem lin_apply (v : IVec S28 32) (e : Fin 28) (p : Fin 32) :
    lin v (ix2 e p) = IntOp.addi (IntOp.muli (v (ix1 e)) 32#32) (BitVec.ofNat 32 p.val) := by
  show IntOp.addi
      (broadcastInDim S28x32 ![0, 1] bcast_S28x1_S28x32_0_1
        (muli (broadcastInDim S28x1 ![0] bcast_S28_S28x1_0 v)
          (broadcastInDim S28x1 ![] bcast_S_S28x1 (constantI S_ 32 32#32))) (ix2 e p))
      (broadcastInDim S28x32 ![0, 1] bcast_S1x32_S28x32_0_1
        (broadcastInDim S1x32 ![1] bcast_S32_S1x32_1 (iotaInDim S32 32 0)) (ix2 e p)) = _
  rw [bc_col, bc_row, bc_vec1]
  show IntOp.addi (IntOp.muli (broadcastInDim S28x1 ![0] bcast_S28_S28x1_0 v (ix2 e (0 : Fin 1))) 32#32) _ = _
  rw [bc_vec0]
  rfl

theorem wrapR_apply (x : IVec S28x32 32) (e : Fin 28) (p : Fin 32) :
    wrapR x (ix3 e p (0 : Fin 1))
      = Scalar.select (IntOp.cmpi .slt (x (ix2 e p)) 0#32) (IntOp.addi (x (ix2 e p)) 256#32) (x (ix2 e p)) := by
  show Scalar.select
      (IntOp.cmpi .slt (broadcastInDim S28x32x1 ![0, 1] bcast_S28x32_S28x32x1_0_1 x (ix3 e p (0 : Fin 1))) 0#32)
      (IntOp.addi (broadcastInDim S28x32x1 ![0, 1] bcast_S28x32_S28x32x1_0_1 x (ix3 e p (0 : Fin 1))) 256#32)
      (broadcastInDim S28x32x1 ![0, 1] bcast_S28x32_S28x32x1_0_1 x (ix3 e p (0 : Fin 1))) = _
  rw [bc_unitR]

theorem wrapC_apply (x : IVec S28x32 32) (e : Fin 28) (q : Fin 32) :
    wrapC x (ix3 e (0 : Fin 1) q)
      = Scalar.select (IntOp.cmpi .slt (x (ix2 e q)) 0#32) (IntOp.addi (x (ix2 e q)) 256#32) (x (ix2 e q)) := by
  show Scalar.select
      (IntOp.cmpi .slt (broadcastInDim S28x1x32 ![0, 2] bcast_S28x32_S28x1x32_0_2 x (ix3 e (0 : Fin 1) q)) 0#32)
      (IntOp.addi (broadcastInDim S28x1x32 ![0, 2] bcast_S28x32_S28x1x32_0_2 x (ix3 e (0 : Fin 1) q)) 256#32)
      (broadcastInDim S28x1x32 ![0, 2] bcast_S28x32_S28x1x32_0_2 x (ix3 e (0 : Fin 1) q)) = _
  rw [bc_unitC]

theorem rowGrid_apply (s : IVec S28 32) (e : Fin 28) (p q : Fin 32) :
    rowGrid s (ix4 e p q (0 : Fin 1)) = wrapR (lin s) (ix3 e p (0 : Fin 1)) := by
  unfold rowGrid
  rw [bc_last, bc_gridR]

theorem colGrid_apply (t : IVec S28 32) (e : Fin 28) (p q : Fin 32) :
    colGrid t (ix4 e p q (0 : Fin 1)) = wrapC (lin t) (ix3 e (0 : Fin 1) q) := by
  unfold colGrid
  rw [bc_last, bc_gridC]

/-- The first entry of a pair is the row coordinate. -/
theorem pairs_row (s t : IVec S28 32) (e : Fin 28) (p q : Fin 32) :
    pairs s t (ix4 e p q (0 : Fin 2)) = rowGrid s (ix4 e p q (0 : Fin 1)) :=
  concatenate_pair_apply_left (t := S28x32x32x2) (s₁ := S28x32x32x1) (s₂ := S28x32x32x1) 3 (rowGrid s) (colGrid t)
    concatenates_S28x32x32x1_S28x32x32x1_S28x32x32x2_d3 (ix4 e p q (0 : Fin 2)) rfl (ix4 e p q (0 : Fin 1))
    (fun b => match b with | ⟨0, _⟩ => rfl | ⟨1, _⟩ => rfl | ⟨2, _⟩ => rfl | ⟨3, _⟩ => rfl)

/-- The second entry of a pair is the column coordinate. -/
theorem pairs_col (s t : IVec S28 32) (e : Fin 28) (p q : Fin 32) :
    pairs s t (ix4 e p q (1 : Fin 2)) = colGrid t (ix4 e p q (0 : Fin 1)) :=
  concatenate_pair_apply_right (t := S28x32x32x2) (s₁ := S28x32x32x1) (s₂ := S28x32x32x1) 3 (rowGrid s) (colGrid t)
    concatenates_S28x32x32x1_S28x32x32x1_S28x32x32x2_d3 (ix4 e p q (1 : Fin 2)) rfl rfl (ix4 e p q (0 : Fin 1))
    (fun b hb => match b, hb with
      | ⟨0, _⟩, _ => rfl | ⟨1, _⟩, _ => rfl | ⟨2, _⟩, _ => rfl | ⟨3, _⟩, hb => absurd rfl hb)
    rfl

/-- The row coordinate of update `(e, p, q)`, read signed, is `src e · 32 + p`. -/
theorem pairs_row_toInt (s t : IVec S28 32) (hs : Ranged s) (e : Fin 28) (p q : Fin 32) :
    (pairs s t (ix4 e p q (0 : Fin 2))).toInt = (((colOf s e).val * 32 + p.val : Nat) : Int) := by
  rw [pairs_row, rowGrid_apply, wrapR_apply, lin_apply]
  have hw := word_toNat (s (ix1 e)) (hs e) p
  have hlt : (IntOp.addi (IntOp.muli (s (ix1 e)) 32#32) (BitVec.ofNat 32 p.val)).toNat < 2 ^ 31 := by
    rw [hw]; have := hs e; have := p.isLt; omega
  rw [wrap_word _ hlt, StableHlo.Predicate.toInt_eq_toNat_of_lt hlt, hw, colOf_val hs]

/-- The column coordinate of update `(e, p, q)`, read signed, is `tgt e · 32 + q`. -/
theorem pairs_col_toInt (s t : IVec S28 32) (ht : Ranged t) (e : Fin 28) (p q : Fin 32) :
    (pairs s t (ix4 e p q (1 : Fin 2))).toInt = (((colOf t e).val * 32 + q.val : Nat) : Int) := by
  rw [pairs_col, colGrid_apply, wrapC_apply, lin_apply]
  have hw := word_toNat (t (ix1 e)) (ht e) q
  have hlt : (IntOp.addi (IntOp.muli (t (ix1 e)) 32#32) (BitVec.ofNat 32 q.val)).toNat < 2 ^ 31 := by
    rw [hw]; have := ht e; have := q.isLt; omega
  rw [wrap_word _ hlt, StableHlo.Predicate.toInt_eq_toNat_of_lt hlt, hw, colOf_val ht]

/-- The updates are the weights with their two unit axes exchanged. -/
theorem updates_apply (w : S28x32x32.Idx → EReal) (e : Fin 28) (p q : Fin 32) :
    transpose S28x32x32 [0, 2, 1] w transposes_S28x32x32_S28x32x32_0_2_1 (ix3 e p q) = w (ix3 e q p) :=
  transpose_apply _ w _ _ _ (fun b => match b with | ⟨0, _⟩ => rfl | ⟨1, _⟩ => rfl | ⟨2, _⟩ => rfl)

/-! ## The host prefix's composed term -/

variable (m : (ℓ : Loc Cert.KernelIdeal.nD Cert.KernelIdeal.τ Cert.KernelIdeal.sig) → Buf (Elt Ideal) ℓ)

set_option maxHeartbeats 4000000 in
/-- What the region finds in the feedback weight buffer: the accumulating scatter, into zeros, of the transposed
    weights at the index pairs built from the two edge-word arrays (converted to the narrower float type, which
    changes nothing over the extended reals). -/
theorem V71_eq (c : Dev nD) :
    (V m c main_v71 : S256x256.Idx → EReal)
      = truncf .bf16
          (Host.scatterAdd scatter_S256x256_S28x32x32x2_S28x32x32_n_01_01_3
            (broadcastInDim S256x256 ![] bcast_S_S256x256 (constant (F := Ideal) S_ .f32 0x00000000#32))
            (pairs (m ((c : Thread nD τ).loc main_arg6)) (m ((c : Thread nD τ).loc main_arg7)))
            (transpose S28x32x32 [0, 2, 1] (m ((c : Thread nD τ).loc main_arg3)) transposes_S28x32x32_S28x32x32_0_2_1))
          bitsLt_bf16_f32 := by
  dsimp only [Cert.KernelIdeal.Gen.V, Cert.KernelIdeal.Gen.hostOps0]
  after_results_simp
  unfold pairs
  refine congrArg₂ (fun a b => truncf .bf16
      (Host.scatterAdd scatter_S256x256_S28x32x32x2_S28x32x32_n_01_01_3
        (broadcastInDim S256x256 ![] bcast_S_S256x256 (constant (F := Ideal) S_ .f32 0x00000000#32))
        (concatenate S28x32x32x2 3 [⟨S28x32x32x1, a⟩, ⟨S28x32x32x1, b⟩] concatenates_S28x32x32x1_S28x32x32x1_S28x32x32x2_d3)
        (transpose S28x32x32 [0, 2, 1] (m ((c : Thread nD τ).loc main_arg3)) transposes_S28x32x32_S28x32x32_0_2_1))
      bitsLt_bf16_f32) ?_ ?_
  · after_results_simp
    rfl
  · after_results_simp
    rfl

/-- The matrix the scatter accumulates into is zero everywhere. -/
theorem zeros_apply (j : S256x256.Idx) :
    broadcastInDim S256x256 ![] bcast_S_S256x256 (constant (F := Ideal) S_ .f32 0x00000000#32) j = 0 :=
  Ideal.ofBits_zero_f32

/-! ## The feedback block matrix is `dense` -/

/-- THE FEEDBACK WEIGHTS THE REGION FINDS: entry `(k, c)` of the host-built matrix is the sum of the weights
    `w[e, c % 32, k % 32]` over the feedback edges from column `k / 32` to column `c / 32`. -/
theorem wfb_eq (c : Dev nD) (hs : Ranged (m ((c : Thread nD τ).loc main_arg6)))
    (ht : Ranged (m ((c : Thread nD τ).loc main_arg7))) (k : Fin 256) (cc : Fin 256) :
    (V m c main_v71 : S256x256.Idx → EReal) (ix2 k cc)
      = dense (Q := 32) (by decide) (m ((c : Thread nD τ).loc main_arg3))
          (colOf (m ((c : Thread nD τ).loc main_arg6))) (colOf (m ((c : Thread nD τ).loc main_arg7))) k cc := by
  rw [V71_eq m c, truncf_apply]
  -- the scatter at one entry: the zero entry plus the updates whose pair is (k, c)
  refine (Cert.ScatterGrid.scatterAdd_grid_apply scatter_S256x256_S28x32x32x2_S28x32x32_n_01_01_3_wf
    (broadcastInDim S256x256 ![] bcast_S_S256x256 (constant (F := Ideal) S_ .f32 0x00000000#32))
    (pairs (m ((c : Thread nD τ).loc main_arg6)) (m ((c : Thread nD τ).loc main_arg7)))
    (transpose S28x32x32 [0, 2, 1] (m ((c : Thread nD τ).loc main_arg3)) transposes_S28x32x32_S28x32x32_0_2_1)
    k cc).trans ?_
  rw [zeros_apply, zero_add]
  -- the updates whose pair is (k, c), regrouped by edge
  exact grid_sum_eq_dense (Q := 32) (by decide) (m ((c : Thread nD τ).loc main_arg3))
    (colOf (m ((c : Thread nD τ).loc main_arg6))) (colOf (m ((c : Thread nD τ).loc main_arg7)))
    (pairs (m ((c : Thread nD τ).loc main_arg6)) (m ((c : Thread nD τ).loc main_arg7)))
    (pairs_row_toInt _ _ hs) (pairs_col_toInt _ _ ht)
    (transpose S28x32x32 [0, 2, 1] (m ((c : Thread nD τ).loc main_arg3)) transposes_S28x32x32_S28x32x32_0_2_1)
    (updates_apply _) k cc

end Cert.Synapse.FB

end
-- ==== Proof.Bridge.lean ====
/-
  The kernel's result array is the specification's `G` of the arguments.

  After the run the result array is `arrFn` of the activity arrays and the two dense matrices the host prefix
  built. Under the precondition every edge word names a column, so each dense matrix is `dense` of its weight
  family, and every float entry is real, so a row of activities against a column of the dense matrix is the sum of
  the edge messages (`rowDot_dense_eq_msgSum`): entry by entry `arrFn` is `G`.
-/
import proofs.«401551_j56624848830930_3_alg».proof.Proof.Gen.KernelIdeal.Frame
import proofs.«401551_j56624848830930_3_alg».proof.Proof.BlockSpec
import proofs.«401551_j56624848830930_3_alg».proof.Proof.PreFacts
import proofs.«401551_j56624848830930_3_alg».proof.Proof.DenseSum
import proofs.«401551_j56624848830930_3_alg».proof.Proof.WeightsFF
import proofs.«401551_j56624848830930_3_alg».proof.Proof.WeightsFB

noncomputable section

open scoped BigOperators

namespace Cert.Synapse

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg)

/-- Under the precondition, `arrFn` of the region's arrays is `G` of the arguments. -/
theorem kernel_value (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) = fun _ => 1#1) :
    arrFn (V m c main_arg0) (V m c main_arg1) (V m c main_v36) (V m c main_v71)
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  obtain ⟨r0, r1, r2, r3, h4, h5, h6, h7⟩ := facts_of_pre _ _ _ _ _ _ _ _ hpre
  rw [V_main_arg0, V_main_arg1]
  funext i
  show arrAt' _ _ _ _ (i 0) (i 1) (i 2) = Gat _ _ _ _ _ _ _ _ (i 0) (i 1) (i 2)
  unfold arrAt' Gat
  by_cases h : (i 2).val < 64
  · rw [dif_pos h, dif_pos h]
    rw [show (fun (k : Fin 256) (cc : Fin (8 * 64)) => (V m c main_v36 : S256x512.Idx → EReal) (ix2 k cc))
        = dense (Q := 64) (by decide) (m ((c : Thread nD τ).loc main_arg2)) (colOf (m ((c : Thread nD τ).loc main_arg4))) (colOf (m ((c : Thread nD τ).loc main_arg5)))
      from funext fun k => funext fun cc => FF.wff_eq m c h4 h5 k cc]
    exact rowDot_dense_eq_msgSum (by decide) _ _ r0 r2 _ _ _ _ _
  · rw [dif_neg h, dif_neg h]
    rw [show (fun (k : Fin 256) (cc : Fin (8 * 32)) => (V m c main_v71 : S256x256.Idx → EReal) (ix2 k cc))
        = dense (Q := 32) (by decide) (m ((c : Thread nD τ).loc main_arg3)) (colOf (m ((c : Thread nD τ).loc main_arg6))) (colOf (m ((c : Thread nD τ).loc main_arg7)))
      from funext fun k => funext fun cc => FB.wfb_eq m c h6 h7 k cc]
    exact rowDot_dense_eq_msgSum (by decide) _ _ r1 r3 _ _ _ _ _

end Cert.Synapse

end
-- ==== Proof.LibScatterRows3.lean ====
/-
  The host's accumulating scatter and its gather for arrays with one block axis in front of two inner axes, read at
  one index, over the extended reals.

  BLOCK SCATTER: updates [N, B, C], block indices [N, 1], operand [A, B, C]; the updates' axes 1 and 2 are
  window axes, blocks are inserted on the operand's axis 0. Element (j, b', c') of the updates lands on (p, b, c)
  iff block j's index, read signed, is p and (b', c') = (b, c). So element (p, b, c) of the result is
  x (p, b, c) + ∑ {j | index j = p} upd (j, b, c) (scatterAdd_blocks_apply): the sum over update elements
  collapses onto the inner position (b, c).
  BLOCK GATHER: a table [A, B, C] at indices [N, 1] gives [N, B, C]; element (j, b, c) of the result is the table at
  block min (index j)⁺ (A − 1), inner position (b, c), the index read signed and clamped into the table
  (gather_blocks_apply).
  The sizes A, B, C, N are variables.
-/
import Idealize.ShloMosaic.PureOps.Ideal
import Idealize.ShloMosaic.Lib.ValueIdx
import proofs.«401551_j56624848830930_3_alg».proof.Proof.LibScatterRows

noncomputable section

open scoped BigOperators

namespace Cert.ScatterRows3

open Idealize.ShloMosaic Idealize.ShloMosaic.ValueIdx Cert.ScatterRows

/-- A statement about the three axes is the three statements. -/
theorem forall_fin3 {P : Fin 3 → Prop} : (∀ a, P a) ↔ P 0 ∧ P 1 ∧ P 2 := by
  constructor
  · intro h
    exact ⟨h 0, h 1, h 2⟩
  · rintro ⟨h0, h1, h2⟩ a
    match a with
    | ⟨0, _⟩ => exact h0
    | ⟨1, _⟩ => exact h1
    | ⟨2, _⟩ => exact h2

/-! ## One block update per index -/

/-- one block update per index: updates [N,B,C] (window axes 1, 2), indices [N,1] (index vector on axis 1), operand [A,B,C], blocks inserted on axis 0 -/
abbrev blockDims (A B C N : Nat) (wf : ScatterDims.WF ⟨3, ![A, B, C]⟩ ⟨2, ![N, 1]⟩ ⟨3, ![N, B, C]⟩ [1, 2] [0] [0] 1) :
    ScatterDims ⟨3, ![A, B, C]⟩ ⟨2, ![N, 1]⟩ ⟨3, ![N, B, C]⟩ := ⟨[1, 2], [0], [0], 1, wf⟩

section Blocks
variable {A B C N w : Nat} (wf : ScatterDims.WF ⟨3, ![A, B, C]⟩ ⟨2, ![N, 1]⟩ ⟨3, ![N, B, C]⟩ [1, 2] [0] [0] 1)

/-- Every element of update block j reads its one start component at position (j, 0) of the index array. -/
theorem blocks_siIdx (j : Fin N) (b : Fin B) (c : Fin C) (k : Fin (blockDims A B C N wf).scatterDimsToOperandDims.length) :
    (blockDims A B C N wf).siIdx (ix3 j b c) k = ix2 j (0 : Fin 1) := by
  funext r; refine Fin.ext ?_
  match r with
  | ⟨0, _⟩ => rfl
  | ⟨1, _⟩ =>
    show k.val = 0
    have : k.val < 1 := k.isLt
    omega

/-- On the block axis the start is the block index, read signed. -/
theorem blocks_start0 (idx : IVec ⟨2, ![N, 1]⟩ w) (j : Fin N) (b : Fin B) (c : Fin C) :
    (blockDims A B C N wf).start (ix3 j b c) idx (0 : Fin 3) = (idx (ix2 j (0 : Fin 1))).toInt := by
  unfold ScatterDims.start
  rw [dif_pos (show (0 : Fin 3) ∈ (blockDims A B C N wf).scatterDimsToOperandDims from List.mem_cons_self)]
  rw [blocks_siIdx]

/-- The first inner axis is not indexed: its start is zero. -/
theorem blocks_start1 (idx : IVec ⟨2, ![N, 1]⟩ w) (j : Fin N) (b : Fin B) (c : Fin C) :
    (blockDims A B C N wf).start (ix3 j b c) idx (1 : Fin 3) = 0 := by
  unfold ScatterDims.start
  rw [dif_neg (show (1 : Fin 3) ∉ (blockDims A B C N wf).scatterDimsToOperandDims from by
    show (1 : Fin 3) ∉ ([0] : List (Fin 3))
    decide)]

/-- The second inner axis is not indexed: its start is zero. -/
theorem blocks_start2 (idx : IVec ⟨2, ![N, 1]⟩ w) (j : Fin N) (b : Fin B) (c : Fin C) :
    (blockDims A B C N wf).start (ix3 j b c) idx (2 : Fin 3) = 0 := by
  unfold ScatterDims.start
  rw [dif_neg (show (2 : Fin 3) ∉ (blockDims A B C N wf).scatterDimsToOperandDims from by
    show (2 : Fin 3) ∉ ([0] : List (Fin 3))
    decide)]

/-- The block axis is inserted: no window coordinate there. -/
theorem blocks_window0 (j : Fin N) (b : Fin B) (c : Fin C) : (blockDims A B C N wf).window (ix3 j b c) (0 : Fin 3) = 0 := by
  unfold ScatterDims.window
  rw [dif_neg (show (0 : Fin 3) ∉ (blockDims A B C N wf).sKept from by
    show (0 : Fin 3) ∉ ([1, 2] : List (Fin 3))
    decide)]

/-- On the first inner axis the window coordinate is the update's coordinate there. -/
theorem blocks_window1 (j : Fin N) (b : Fin B) (c : Fin C) : (blockDims A B C N wf).window (ix3 j b c) (1 : Fin 3) = b.val := by
  unfold ScatterDims.window
  rw [dif_pos (show (1 : Fin 3) ∈ (blockDims A B C N wf).sKept from by
    have : (blockDims A B C N wf).sKept = [1, 2] := rfl
    rw [this]; exact List.mem_cons_self)]
  rfl

/-- On the second inner axis the window coordinate is the update's coordinate there. -/
theorem blocks_window2 (j : Fin N) (b : Fin B) (c : Fin C) : (blockDims A B C N wf).window (ix3 j b c) (2 : Fin 3) = c.val := by
  unfold ScatterDims.window
  rw [dif_pos (show (2 : Fin 3) ∈ (blockDims A B C N wf).sKept from by
    have : (blockDims A B C N wf).sKept = [1, 2] := rfl
    rw [this]; exact List.mem_cons_of_mem _ List.mem_cons_self)]
  rfl

/-- An update element lands on (p, b, c) exactly when its block's index, read signed, is p and its inner position is (b, c). -/
theorem blocks_resultIdx?_iff (idx : IVec ⟨2, ![N, 1]⟩ w) (j' : (⟨3, ![N, B, C]⟩ : Shape).Idx) (p : Fin A) (b : Fin B) (c : Fin C) :
    (blockDims A B C N wf).resultIdx? j' idx = some (ix3 p b c)
      ↔ (idx (ix2 (j' 0) (0 : Fin 1))).toInt = (p.val : Int) ∧ j' 1 = b ∧ j' 2 = c := by
  obtain ⟨j, b', c', rfl⟩ : ∃ j b' c', j' = ix3 j b' c' := ⟨j' 0, j' 1, j' 2, eq_ix3 j'⟩
  show _ ↔ (idx (ix2 j (0 : Fin 1))).toInt = (p.val : Int) ∧ b' = b ∧ c' = c
  rw [resultIdx?_eq_some_iff, forall_fin3, blocks_start0, blocks_start1, blocks_start2, blocks_window0, blocks_window1,
    blocks_window2]
  simp only [Nat.cast_zero, add_zero, zero_add]
  constructor
  · rintro ⟨h0, h1, h2⟩
    exact ⟨h0, Fin.ext (Int.ofNat_inj.mp h1), Fin.ext (Int.ofNat_inj.mp h2)⟩
  · rintro ⟨h0, rfl, rfl⟩
    exact ⟨h0, rfl, rfl⟩

end Blocks

/-- THE BLOCK SCATTER READ AT (p, b, c): the operand's element plus the sum, over the update blocks whose index read
    signed is p, of that block's element at inner position (b, c); a block whose index is outside the operand is
    in no such sum. -/
theorem scatterAdd_blocks_apply {A B C N w : Nat} {φ : FTy}
    (wf : ScatterDims.WF ⟨3, ![A, B, C]⟩ ⟨2, ![N, 1]⟩ ⟨3, ![N, B, C]⟩ [1, 2] [0] [0] 1)
    (x : FVec Ideal ⟨3, ![A, B, C]⟩ φ) (idx : IVec ⟨2, ![N, 1]⟩ w) (upd : FVec Ideal ⟨3, ![N, B, C]⟩ φ)
    (p : Fin A) (b : Fin B) (c : Fin C) :
    Host.scatterAdd (blockDims A B C N wf) x idx upd (ix3 p b c)
      = x (ix3 p b c) + ∑ j ∈ Finset.univ.filter (fun j : Fin N => (idx (ix2 j (0 : Fin 1))).toInt = (p.val : Int)), upd (ix3 j b c) := by
  show Ideal.hostScatterAdd (blockDims A B C N wf) x idx upd (ix3 p b c) = _
  unfold Ideal.hostScatterAdd
  congr 1
  have hpos : ∀ j' ∈ Finset.univ.filter (fun j' => (blockDims A B C N wf).resultIdx? j' idx = some (ix3 p b c)),
      ix3 (j' 0) b c = j' := by
    intro j' hj'
    rw [Finset.mem_filter] at hj'
    obtain ⟨_, hb, hc⟩ := (blocks_resultIdx?_iff wf idx j' p b c).mp hj'.2
    rw [← hb, ← hc]
    exact (eq_ix3 j').symm
  refine Finset.sum_nbij' (fun j' => j' 0) (fun j => ix3 j b c) ?_ ?_ ?_ ?_ ?_
  · intro j' hj'
    rw [Finset.mem_filter] at hj'
    exact Finset.mem_filter.mpr ⟨Finset.mem_univ _, ((blocks_resultIdx?_iff wf idx j' p b c).mp hj'.2).1⟩
  · intro j hj
    rw [Finset.mem_filter] at hj
    exact Finset.mem_filter.mpr ⟨Finset.mem_univ _, (blocks_resultIdx?_iff wf idx (ix3 j b c) p b c).mpr ⟨hj.2, rfl, rfl⟩⟩
  · exact hpos
  · intro j _
    rfl
  · intro j' hj'
    exact congrArg upd (hpos j' hj').symm

/-! ## Taking blocks of a table -/

/-- take blocks of a table [A,B,C] at indices [N,1]: result [N,B,C]; offset_dims [1,2], collapsed [0], start_index_map [0], index vector on axis 1, slice sizes [1, B, C] -/
abbrev blockGather (A B C N : Nat)
    (wf : GatherDims.WF ⟨3, ![A, B, C]⟩ ⟨2, ![N, 1]⟩ ⟨3, ![N, B, C]⟩ [1, 2] [0] [] [0] [] 1 ![1, B, C]) :
    GatherDims ⟨3, ![A, B, C]⟩ ⟨2, ![N, 1]⟩ ⟨3, ![N, B, C]⟩ where
  offsetDims := [1, 2]
  collapsedSliceDims := [0]
  operandBatchingDims := []
  startIndicesBatchingDims := []
  startIndexMap := [0]
  indexVectorDim := 1
  sliceSizes := ![1, B, C]
  wf := wf

section Gather
variable {A B C N w : Nat}
  (wf : GatherDims.WF ⟨3, ![A, B, C]⟩ ⟨2, ![N, 1]⟩ ⟨3, ![N, B, C]⟩ [1, 2] [0] [] [0] [] 1 ![1, B, C])

/-- Every element of result block j reads its one start component at position (j, 0) of the index array. -/
theorem gather_siIdx (j : Fin N) (b : Fin B) (c : Fin C) (k : Fin (blockGather A B C N wf).startIndexMap.length) :
    (blockGather A B C N wf).siIdx (ix3 j b c) k = ix2 j (0 : Fin 1) := by
  funext r; refine Fin.ext ?_
  match r with
  | ⟨0, _⟩ => rfl
  | ⟨1, _⟩ =>
    show k.val = 0
    have : k.val < 1 := k.isLt
    omega

/-- On the block axis the operand coordinate is the block index, read signed and clamped into [0, A − 1]. -/
theorem gather_coord0 (idx : IVec ⟨2, ![N, 1]⟩ w) (j : Fin N) (b : Fin B) (c : Fin C) :
    (blockGather A B C N wf).start (ix3 j b c) idx (0 : Fin 3) + (blockGather A B C N wf).batchCoord (ix3 j b c) (0 : Fin 3)
        + (blockGather A B C N wf).offCoord (ix3 j b c) (0 : Fin 3)
      = min (idx (ix2 j (0 : Fin 1))).toInt.toNat (A - 1) := by
  rw [GatherDims.batchCoord_eq_zero _ _ _ List.not_mem_nil,
    GatherDims.offCoord_eq_zero _ _ _ (fun h => ((GatherDims.mem_sKept _ _).mp h).1 List.mem_cons_self)]
  simp only [Nat.add_zero]
  unfold GatherDims.start
  rw [dif_pos (show (0 : Fin 3) ∈ (blockGather A B C N wf).startIndexMap from List.mem_cons_self)]
  rw [gather_siIdx]
  rfl

/-- An inner axis is not indexed: the slice starts at zero there. -/
theorem gather_start_inner (idx : IVec ⟨2, ![N, 1]⟩ w) (j' : (⟨3, ![N, B, C]⟩ : Shape).Idx) (a : Fin 3) (ha : a ≠ 0) :
    (blockGather A B C N wf).start j' idx a = 0 := by
  unfold GatherDims.start
  rw [dif_neg (show a ∉ (blockGather A B C N wf).startIndexMap from by
    show a ∉ ([0] : List (Fin 3))
    simpa using ha)]

/-- On the first inner axis the operand coordinate is the result's coordinate there. -/
theorem gather_coord1 (idx : IVec ⟨2, ![N, 1]⟩ w) (j : Fin N) (b : Fin B) (c : Fin C) :
    (blockGather A B C N wf).start (ix3 j b c) idx (1 : Fin 3) + (blockGather A B C N wf).batchCoord (ix3 j b c) (1 : Fin 3)
        + (blockGather A B C N wf).offCoord (ix3 j b c) (1 : Fin 3)
      = b.val := by
  rw [gather_start_inner wf idx _ 1 (by decide), GatherDims.batchCoord_eq_zero _ _ _ List.not_mem_nil]
  simp only [Nat.add_zero, Nat.zero_add]
  unfold GatherDims.offCoord
  rw [dif_pos (show (1 : Fin 3) ∈ (blockGather A B C N wf).sKept from by
    rw [GatherDims.mem_sKept]
    exact ⟨by show (1 : Fin 3) ∉ ([0] : List (Fin 3)); decide, List.not_mem_nil⟩)]
  rfl

/-- On the second inner axis the operand coordinate is the result's coordinate there. -/
theorem gather_coord2 (idx : IVec ⟨2, ![N, 1]⟩ w) (j : Fin N) (b : Fin B) (c : Fin C) :
    (blockGather A B C N wf).start (ix3 j b c) idx (2 : Fin 3) + (blockGather A B C N wf).batchCoord (ix3 j b c) (2 : Fin 3)
        + (blockGather A B C N wf).offCoord (ix3 j b c) (2 : Fin 3)
      = c.val := by
  rw [gather_start_inner wf idx _ 2 (by decide), GatherDims.batchCoord_eq_zero _ _ _ List.not_mem_nil]
  simp only [Nat.add_zero, Nat.zero_add]
  unfold GatherDims.offCoord
  rw [dif_pos (show (2 : Fin 3) ∈ (blockGather A B C N wf).sKept from by
    rw [GatherDims.mem_sKept]
    exact ⟨by show (2 : Fin 3) ∉ ([0] : List (Fin 3)); decide, List.not_mem_nil⟩)]
  rfl

end Gather

/-- THE BLOCK GATHER READ AT (j, b, c): the table's element at inner position (b, c) of the block whose number is
    index j, read signed and clamped into [0, A − 1]. -/
theorem gather_blocks_apply {α : Type} {A B C N w : Nat} (hA : 0 < A)
    (wf : GatherDims.WF ⟨3, ![A, B, C]⟩ ⟨2, ![N, 1]⟩ ⟨3, ![N, B, C]⟩ [1, 2] [0] [] [0] [] 1 ![1, B, C])
    (x : (⟨3, ![A, B, C]⟩ : Shape).Idx → α) (idx : IVec ⟨2, ![N, 1]⟩ w) (j : Fin N) (b : Fin B) (c : Fin C) :
    Host.gather (blockGather A B C N wf) x idx (ix3 j b c)
      = x (ix3 ⟨min (idx (ix2 j (0 : Fin 1))).toInt.toNat (A - 1), by omega⟩ b c) := by
  unfold Host.gather
  congr 1
  funext a
  refine Fin.ext ?_
  match a with
  | ⟨0, _⟩ => exact gather_coord0 wf idx j b c
  | ⟨1, _⟩ => exact gather_coord1 wf idx j b c
  | ⟨2, _⟩ => exact gather_coord2 wf idx j b c

end Cert.ScatterRows3

end
-- ==== Proof.RefValue.lean ====
/-
  The reference's result is the array of inter-column synapse sums.

  The reference reaches its result in five steps per family, the feed-forward family (activities x0, weights x2,
  source words x4, target words x5, 64 output units) and the feedback family (x1, x3, x6, x7, 32 output units):
  * a negative source word w is replaced by w + 8; a ranged word is not negative and stays as it is;
  * a gather takes, for edge e, block (source of e) of the activities: the word is read signed and clamped into
    [0, 7], which changes nothing on a ranged word;
  * a batched product gives, for edge e, batch row b and output unit q, the message
    ∑ p, x[source e, b, p] · w[e, q, p];
  * an accumulating scatter into zeros adds, at (t, b, q), the messages (e, b, q) of the edges whose target
    word, read signed, is t: the sum over the edges into t;
  * the two families' sums are laid side by side along the last axis, 64 then 32.
  Read at (t, b, j) this is the sum the specification names, for j < 64 in the first family and for
  j ≥ 64 at j − 64 in the second.
-/
import proofs.«401551_j56624848830930_3_alg».proof.Proof.Gen.ReferenceIdeal.Read
import proofs.«401551_j56624848830930_3_alg».proof.Proof.Spec
import proofs.«401551_j56624848830930_3_alg».proof.Proof.LibScatterRows
import proofs.«401551_j56624848830930_3_alg».proof.Proof.LibScatterRows3
import Idealize.ShloMosaic.Lib.StableHlo.Predicate
import Idealize.ShloMosaic.Lib.Pipeline.Value
import Idealize.ShloMosaic.Lib.ValueIdx
import Idealize.ShloMosaic.PureOps.Ideal.Laws

noncomputable section

open scoped BigOperators

namespace Cert.Synapse

open Idealize.ShloMosaic Idealize.ShloMosaic.ValueIdx Idealize.ShloMosaic.StableHlo.Predicate
open Cert.ReferenceIdeal Cert.ReferenceIdeal.Gen Cert.ReferenceIdeal.Read Cert.ScatterRows3

/-! ## The edge words -/

/-- A ranged word read signed is the column it names. -/
theorem toInt_of_ranged {v : IVec SEdge 32} (h : Ranged v) (e : Fin 28) :
    (v (ix1 e)).toInt = ((colOf v e).val : Int) := by
  rw [colOf_val h, toInt_eq_toNat_of_lt (by have := h e; omega)]

/-- A ranged word read signed, cut off below at zero and above at 7, is still the column it names. -/
theorem clamp_of_ranged {v : IVec SEdge 32} (h : Ranged v) (e : Fin 28) :
    min (v (ix1 e)).toInt.toNat (8 - 1) = (colOf v e).val := by
  rw [toInt_of_ranged h, Int.toNat_natCast]
  have := (colOf v e).isLt
  omega

/-- The reference replaces a negative word w by w + 8; a ranged word is not negative, so it stays. -/
theorem wrapped_eq {v : IVec SEdge 32} (h : Ranged v) (e : Fin 28) :
    val_main_v4 (F := Ideal) v (ix1 e) = v (ix1 e) := by
  rw [val_main_v4_apply, val_main_v1_apply, val_main_v0_apply, val_main_c_apply]
  have hne : ¬ IntOp.cmpi .slt (v (ix1 e)) 0#32 = 1#1 := by
    rw [slt_iff_toNat (by have := h e; omega) (by decide)]
    exact Nat.not_lt_zero _
  rw [eq_zero_of_ne_one hne, select_zero]

/-- The source words as the gather reads them: one word per edge, in a column. -/
theorem srcCol_apply {v : IVec SEdge 32} (h : Ranged v) (e : Fin 28) :
    val_main_v5 (F := Ideal) v (ix2 e (0 : Fin 1)) = v (ix1 e) := by
  rw [val_main_v5_apply]
  have hi : idx_main_v5 (ix2 e (0 : Fin 1)) = ix1 e := by
    funext a
    match a with
    | ⟨0, _⟩ => rfl
  rw [hi, wrapped_eq h]

/-- The target words as the scatter reads them: one word per edge, in a column. -/
theorem tgtCol_apply (v : IVec SEdge 32) (e : Fin 28) :
    val_main_v9 (F := Ideal) v (ix2 e (0 : Fin 1)) = v (ix1 e) := by
  rw [val_main_v9_apply]
  have hi : idx_main_v9 (ix2 e (0 : Fin 1)) = ix1 e := by
    funext a
    match a with
    | ⟨0, _⟩ => rfl
  rw [hi]

/-! ## The gather: edge e takes the block of its source column -/

theorem gathered_apply (x : FVec Ideal SAct .f32) {v : IVec SEdge 32} (h : Ranged v) (e : Fin 28) (b : Fin 65536)
    (p : Fin 32) :
    val_main_v6 (F := Ideal) x v (ix3 e b p) = x (ix3 (colOf v e) b p) := by
  show Host.gather (blockGather 8 65536 32 28 _) x (val_main_v5 (F := Ideal) v) (ix3 e b p) = _
  rw [gather_blocks_apply (by decide)]
  congr 1
  have hc : (⟨min (val_main_v5 (F := Ideal) v (ix2 e (0 : Fin 1))).toInt.toNat (8 - 1), by omega⟩ : Fin 8) = colOf v e :=
    Fin.ext (by
      show min (val_main_v5 (F := Ideal) v (ix2 e (0 : Fin 1))).toInt.toNat (8 - 1) = (colOf v e).val
      rw [srcCol_apply h]
      exact clamp_of_ranged h e)
  rw [hc]

/-! ## The scatter of the messages into zeros: the sum over the edges into a column -/

/-- Messages [28, 65536, Q], message (e, b, q) being row b of edge e's source column against row q of its
    weights, scattered by the target words into an array of zeros: at (t, b, q) the sum over the edges into t. -/
theorem scatter_msgs {Q : Nat} (wf : ScatterDims.WF ⟨3, ![8, 65536, Q]⟩ ⟨2, ![28, 1]⟩ ⟨3, ![28, 65536, Q]⟩ [1, 2] [0] [0] 1)
    (z : FVec Ideal ⟨3, ![8, 65536, Q]⟩ .f32) (hz : ∀ i, z i = 0)
    (idx : IVec ⟨2, ![28, 1]⟩ 32) {tw : IVec SEdge 32} (htw : Ranged tw) (hidx : ∀ e, idx (ix2 e (0 : Fin 1)) = tw (ix1 e))
    (upd : FVec Ideal ⟨3, ![28, 65536, Q]⟩ .f32) (x : SAct.Idx → EReal) (w : (⟨3, ![28, Q, 32]⟩ : Shape).Idx → EReal)
    (src : Fin 28 → Fin 8) (hupd : ∀ e b q, upd (ix3 e b q) = ∑ p : Fin 32, x (ix3 (src e) b p) * w (ix3 e q p))
    (t : Fin 8) (b : Fin 65536) (q : Fin Q) :
    Host.scatterAdd (blockDims 8 65536 Q 28 wf) z idx upd (ix3 t b q) = msgSum x w src (colOf tw) t b q := by
  rw [scatterAdd_blocks_apply, hz, zero_add]
  unfold msgSum
  refine Finset.sum_congr ?_ (fun e _ => hupd e b q)
  ext e
  simp only [Finset.mem_filter, Finset.mem_univ, true_and]
  rw [hidx, toInt_of_ranged htw]
  constructor
  · intro he
    exact Fin.ext (Int.ofNat_inj.mp he)
  · intro he
    rw [he]

/-! ## The feed-forward family -/

/-- The feed-forward messages: edge e, batch row b, output unit q. -/
theorem msgs_ff_apply (x0 : FVec Ideal SAct .f32) (x2 : FVec Ideal SWff .f32) {x4 : IVec SEdge 32} (h4 : Ranged x4)
    (e : Fin 28) (b : Fin 65536) (q : Fin 64) :
    val_main_v7 (F := Ideal) x0 x2 x4 (ix3 e b q) = ∑ p : Fin 32, x0 (ix3 (colOf x4 e) b p) * x2 (ix3 e q p) := by
  rw [val_main_v7_apply]
  refine Finset.sum_congr rfl fun p _ => ?_
  have hl : lidx_main_v7 (ix3 e b q) p = ix3 e b p := by
    funext a
    match a with
    | ⟨0, _⟩ => rfl
    | ⟨1, _⟩ => rfl
    | ⟨2, _⟩ => rfl
  have hr : ridx_main_v7 (ix3 e b q) p = ix3 e q p := by
    funext a
    match a with
    | ⟨0, _⟩ => rfl
    | ⟨1, _⟩ => rfl
    | ⟨2, _⟩ => rfl
  rw [hl, hr, gathered_apply x0 h4]

/-- The array the feed-forward scatter adds into is zero everywhere. -/
theorem zeros_ff (i : S8x65536x64.Idx) : val_main_v8 (F := Ideal) i = 0 := by
  rw [val_main_v8_apply, val_main_cst_apply]
  exact Ideal.ofBits_zero_f32

/-- The feed-forward sums: column t, batch row b, output unit q. -/
theorem sums_ff_apply (x0 : FVec Ideal SAct .f32) (x2 : FVec Ideal SWff .f32) {x4 x5 : IVec SEdge 32}
    (h4 : Ranged x4) (h5 : Ranged x5) (t : Fin 8) (b : Fin 65536) (q : Fin 64) :
    val_main_v10 (F := Ideal) x0 x2 x4 x5 (ix3 t b q) = msgSum x0 x2 (colOf x4) (colOf x5) t b q := by
  show Host.scatterAdd (F := Ideal) (φ := .f32) (blockDims 8 65536 64 28 _) (val_main_v8 (F := Ideal)) (val_main_v9 (F := Ideal) x5)
    (val_main_v7 (F := Ideal) x0 x2 x4) (ix3 t b q) = _
  exact scatter_msgs _ _ zeros_ff _ h5 (tgtCol_apply x5) _ x0 x2 (colOf x4) (msgs_ff_apply x0 x2 h4) t b q

/-! ## The feedback family: the same steps over the second activity array, the second weight family and the second
    pair of word arrays, with 32 output units -/

/-- The feedback messages: edge e, batch row b, output unit q. -/
theorem msgs_fb_apply (x1 : FVec Ideal SAct .f32) (x3 : FVec Ideal SWfb .f32) {x6 : IVec SEdge 32} (h6 : Ranged x6)
    (e : Fin 28) (b : Fin 65536) (q : Fin 32) :
    val_main_v18 (F := Ideal) x1 x3 x6 (ix3 e b q) = ∑ p : Fin 32, x1 (ix3 (colOf x6 e) b p) * x3 (ix3 e q p) := by
  rw [val_main_v18_apply]
  refine Finset.sum_congr rfl fun p _ => ?_
  have hl : lidx_main_v18 (ix3 e b q) p = ix3 e b p := by
    funext a
    match a with
    | ⟨0, _⟩ => rfl
    | ⟨1, _⟩ => rfl
    | ⟨2, _⟩ => rfl
  have hr : ridx_main_v18 (ix3 e b q) p = ix3 e q p := by
    funext a
    match a with
    | ⟨0, _⟩ => rfl
    | ⟨1, _⟩ => rfl
    | ⟨2, _⟩ => rfl
  rw [hl, hr]
  -- the feedback gather is the feed-forward gather's text over the other arrays
  show val_main_v6 (F := Ideal) x1 x6 (ix3 e b p) * _ = _
  rw [gathered_apply x1 h6]

/-- The array the feedback scatter adds into is zero everywhere. -/
theorem zeros_fb (i : S8x65536x32.Idx) : val_main_v19 (F := Ideal) i = 0 := by
  rw [val_main_v19_apply, val_main_cst_3_apply]
  exact Ideal.ofBits_zero_f32

/-- The feedback sums: column t, batch row b, output unit q. -/
theorem sums_fb_apply (x1 : FVec Ideal SAct .f32) (x3 : FVec Ideal SWfb .f32) {x6 x7 : IVec SEdge 32}
    (h6 : Ranged x6) (h7 : Ranged x7) (t : Fin 8) (b : Fin 65536) (q : Fin 32) :
    val_main_v21 (F := Ideal) x1 x3 x6 x7 (ix3 t b q) = msgSum x1 x3 (colOf x6) (colOf x7) t b q := by
  show Host.scatterAdd (F := Ideal) (φ := .f32) (blockDims 8 65536 32 28 _) (val_main_v19 (F := Ideal)) (val_main_v9 (F := Ideal) x7)
    (val_main_v18 (F := Ideal) x1 x3 x6) (ix3 t b q) = _
  exact scatter_msgs _ _ zeros_fb _ h7 (tgtCol_apply x7) _ x1 x3 (colOf x6) (msgs_fb_apply x1 x3 h6) t b q

/-! ## Side by side -/

/-- THE REFERENCE'S RESULT is the array of synapse sums. -/
theorem ref_eq_G (x0 x1 : FVec Ideal SAct .f32) (x2 : FVec Ideal SWff .f32) (x3 : FVec Ideal SWfb .f32) (x4 x5 x6 x7 : IVec SEdge 32)
    (h4 : Ranged x4) (h5 : Ranged x5) (h6 : Ranged x6) (h7 : Ranged x7) :
    Cert.ReferenceIdeal.Read.val_main_v22 (F := Ideal) x0 x1 x2 x3 x4 x5 x6 x7 = G x0 x1 x2 x3 x4 x5 x6 x7 := by
  funext i
  obtain ⟨t, b, j, rfl⟩ : ∃ t b j, i = ix3 t b j := ⟨i 0, i 1, i 2, eq_ix3 i⟩
  show _ = Gat x0 x1 x2 x3 x4 x5 x6 x7 t b j
  unfold Gat val_main_v22
  split
  · rename_i hj
    rw [concatenate_pair_apply_left (t := S8x65536x96) (s₁ := S8x65536x64) (s₂ := S8x65536x32) (2 : Fin 3) _ _ _ (ix3 t b j) rfl (ix3 t b (⟨j.val, hj⟩ : Fin 64)) (fun a => by
      match a with
      | ⟨0, _⟩ => rfl
      | ⟨1, _⟩ => rfl
      | ⟨2, _⟩ => rfl)]
    exact sums_ff_apply x0 x2 h4 h5 t b _
  · rename_i hj
    rw [concatenate_pair_apply_right (t := S8x65536x96) (s₁ := S8x65536x64) (s₂ := S8x65536x32) (2 : Fin 3) _ _ _ (ix3 t b j) rfl rfl
      (ix3 t b (⟨j.val - 64, by have := j.isLt; omega⟩ : Fin 32)) (fun a ha => by
      match a, ha with
      | ⟨0, _⟩, _ => rfl
      | ⟨1, _⟩, _ => rfl
      | ⟨2, _⟩, ha => exact absurd rfl ha) (by
      show j.val - 64 + 64 = j.val
      omega)]
    exact sums_fb_apply x1 x3 h6 h7 t b _

end Cert.Synapse

end
-- ==== Proof.lean ====
/-
  Inter-column synapse sums: the kernel against its reference.

  Both programs compute, for column `t`, batch row `b` and position `j`, the sum over the edges into `t` of the
  matrix–vector products of the source column's row `b` with the edge's weights — 64 feed-forward sums, then 32
  feedback sums (`Cert.Synapse.G`, module Spec). The reference gathers the source rows edge by edge, multiplies and
  scatter-adds the messages by target (module RefValue). The kernel first scatter-adds the weight matrices into two
  dense block matrices on the host (modules WeightsFF, WeightsFB over DenseScatter), then at each of 64 grid points
  multiplies 1024 rows of activities, the eight columns side by side, by them (modules KernelBlock, KernelValue).
  The two agree where every edge word names one of the eight columns — outside that range the host scatter and the
  reference's gather and scatter treat a word differently, which is why the precondition states the range — and where
  the float entries are real, which the exchange of the two sums needs (module DenseSum).

  The three programs run and keep their arguments: the two kernels by their generated frames, the reference by its
  generated run. The idealization rewrote nothing, so `preserves` is trivial.
-/
import proofs.«401551_j56624848830930_3_alg».proof.Defs
import proofs.«401551_j56624848830930_3_alg».proof.Proof.Gen.Kernel.Frame
import proofs.«401551_j56624848830930_3_alg».proof.Proof.Gen.KernelIdeal.Value
import proofs.«401551_j56624848830930_3_alg».proof.Proof.Gen.ReferenceIdeal.Run
import proofs.«401551_j56624848830930_3_alg».proof.Proof.Gen.ReferenceIdeal.Read
import proofs.«401551_j56624848830930_3_alg».proof.Proof.Gen.Pre_finite_inputs
import proofs.«401551_j56624848830930_3_alg».proof.Proof.KernelValue
import proofs.«401551_j56624848830930_3_alg».proof.Proof.Bridge
import proofs.«401551_j56624848830930_3_alg».proof.Proof.RefValue

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `G` of the (agreeing) arguments. -/
theorem algebraic : Cert.algebraic_KernelIdeal_ReferenceIdeal := by
  intro m ρ m' ρ' hpre hagree
  refine ⟨fun c => Cert.Synapse.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Synapse.kernel_value m c (hpre c)), (h c).2⟩)
      (Cert.Synapse.kernel_run m ρ)
  · refine (θ_run Cert.ReferenceIdeal.defs _ _).mono (fun _ h c => ⟨?_, (h c).2⟩)
      (Cert.ReferenceIdeal.Value.run (F := Ideal) m' ρ')
    obtain ⟨-, -, -, -, h4, h5, h6, h7⟩ := Cert.Synapse.facts_of_pre _ _ _ _ _ _ _ _ (hpre c)
    obtain ⟨a0, a1, a2, a3, a4, a5, a6, a7⟩ := hagree c
    rw [(h c).1, Cert.ReferenceIdeal.Read.val_main_v22_eq, a0, a1, a2, a3, a4, a5, a6, a7]
    exact Cert.Synapse.ref_eq_G _ _ _ _ _ _ _ _ h4 h5 h6 h7

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
